-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S1024x512 : Shape := ⟨2, ![1024, 512]⟩
abbrev S1x512 : Shape := ⟨2, ![1, 512]⟩
abbrev S8x512 : Shape := ⟨2, ![8, 512]⟩
abbrev S8 : Shape := ⟨1, ![8]⟩
abbrev S_ : Shape := ⟨0, ![]⟩
abbrev S512 : Shape := ⟨1, ![512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S8x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : Index := Scalar.indexCast v2
  let c0_29 : Index := 0#32
  ![v36.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  ![v2.toNat, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v40 : BitVec 32 := Scalar.addi v2 c1_i32_31
  let c8_i32_32 : BitVec 32 := 8#32
  let v41 : BitVec 32 := Scalar.remsi v40 c8_i32_32
  let c1_i32_35 : BitVec 32 := 1#32
  let v42 : BitVec 32 := Scalar.muli v41 c1_i32_35
  let v43 : BitVec 32 := Scalar.addi c0_i32_36 v42
  v43.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v50 : BitVec 32 := Scalar.addi v2 c2_i32_39
  let c8_i32_40 : BitVec 32 := 8#32
  let v51 : BitVec 32 := Scalar.remsi v50 c8_i32_40
  let c1_i32_43 : BitVec 32 := 1#32
  let v52 : BitVec 32 := Scalar.muli v51 c1_i32_43
  let v53 : BitVec 32 := Scalar.addi c0_i32_44 v52
  v53.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_47 : BitVec 32 := 3#32
  let v60 : BitVec 32 := Scalar.addi v2 c3_i32_47
  let c8_i32_48 : BitVec 32 := 8#32
  let v61 : BitVec 32 := Scalar.remsi v60 c8_i32_48
  let c1_i32_51 : BitVec 32 := 1#32
  let v62 : BitVec 32 := Scalar.muli v61 c1_i32_51
  let v63 : BitVec 32 := Scalar.addi c0_i32_52 v62
  v63.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v70 : BitVec 32 := Scalar.addi v2 c4_i32_55
  let c8_i32_56 : BitVec 32 := 8#32
  let v71 : BitVec 32 := Scalar.remsi v70 c8_i32_56
  let c1_i32_59 : BitVec 32 := 1#32
  let v72 : BitVec 32 := Scalar.muli v71 c1_i32_59
  let v73 : BitVec 32 := Scalar.addi c0_i32_60 v72
  v73.toNat
def k0_dev12 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_63 : BitVec 32 := 5#32
  let v80 : BitVec 32 := Scalar.addi v2 c5_i32_63
  let c8_i32_64 : BitVec 32 := 8#32
  let v81 : BitVec 32 := Scalar.remsi v80 c8_i32_64
  let c1_i32_67 : BitVec 32 := 1#32
  let v82 : BitVec 32 := Scalar.muli v81 c1_i32_67
  let v83 : BitVec 32 := Scalar.addi c0_i32_68 v82
  v83.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_71 : BitVec 32 := 6#32
  let v90 : BitVec 32 := Scalar.addi v2 c6_i32_71
  let c8_i32_72 : BitVec 32 := 8#32
  let v91 : BitVec 32 := Scalar.remsi v90 c8_i32_72
  let c1_i32_75 : BitVec 32 := 1#32
  let v92 : BitVec 32 := Scalar.muli v91 c1_i32_75
  let v93 : BitVec 32 := Scalar.addi c0_i32_76 v92
  v93.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_79 : BitVec 32 := 7#32
  let v100 : BitVec 32 := Scalar.addi v2 c7_i32_79
  let c8_i32_80 : BitVec 32 := 8#32
  let v101 : BitVec 32 := Scalar.remsi v100 c8_i32_80
  let c1_i32_83 : BitVec 32 := 1#32
  let v102 : BitVec 32 := Scalar.muli v101 c1_i32_83
  let v103 : BitVec 32 := Scalar.addi c0_i32_84 v102
  v103.toNat
def k0_off3 (d0 : Dev nD) (c1_i32_87 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.subi v2 c1_i32_87
  let c8_i32_88 : BitVec 32 := 8#32
  let v111 : BitVec 32 := Scalar.addi v110 c8_i32_88
  let c8_i32_89 : BitVec 32 := 8#32
  let v112 : BitVec 32 := Scalar.remsi v111 c8_i32_89
  let c0_i32_94 : BitVec 32 := 0#32
  ![v112.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  h_S1x512 : 0 < S1x512.numel
  shapeCasts_S1x512_S1x512 : S1x512.ShapeCasts S1x512
  hamt_7 : (7#32 : BitVec 32).msb = false
  inb_S8_S1_1 : ∀ a, (![1] : Fin 1 → Nat) a + S1.size a ≤ S8.size a
  squeezes_S1_S_ : S1.Squeezes S_
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S8x512_S8x512_0_0 : ∀ a, (![0, 0] : Fin 2 → Nat) a + S8x512.size a ≤ S8x512.size a
  h_S8x512 : 0 < S8x512.numel
  reduces_S8x512_S512 : S8x512.Reduces [0] S512
  inb_S1x512_S1x512_0_0 : ∀ a, (![0, 0] : Fin 2 → Nat) a + S1x512.size a ≤ S1x512.size a
  hcc0_scratch1 : 2 + S8.numel ≤ 18
  hcc0_scratch2 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x512.size a ≤ S8x512.size a
  k0_off2_inb : ∀ d0 : Dev nD, ∀ a, (k0_off2 d0) a + S1x512.size a ≤ S8x512.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off3_inb : ∀ d0 : Dev nD, ∀ (r : Fin 7), ∀ a, (k0_off3 d0 (BitVec.ofNat 32 (1 + r.val))) a + S1x512.size a ≤ S8x512.size a
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x512_S512_d0 : S8192x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.Proto.lean ====
/-
  The mean over the rows of an array cut in eight row blocks, one block a device: the cross-device protocol.
  Device `c` signals every other device's barrier cell once, writes the column sums of its block into row `c` of
  its 8 × 512 accumulator, waits for its seven barrier units, sends row `c` to row `c` of each other device's
  accumulator (seven transfers on seven send / receive cell pairs), waits for the seven rows sent to it and for its
  own seven sends, and reduces the eight rows. `sh k c` is the device `k + 1` places after `c` on the ring of eight.
-/
import proofs.«900940_g7700000000000941_dist_mean_ax0_shard0_i_m1024_n512_v7x_i8_bf16_1_alg».proof.Proof.Gen.KernelIdeal.Frame
import proofs.«900940_g7700000000000941_dist_mean_ax0_shard0_i_m1024_n512_v7x_i8_bf16_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The ring of eight -/

/-- The device `k + 1` places after `c`. -/
def sh (k : Fin 7) (c : Dev nD) : Dev nD := ⟨(c.val + k.val + 1) % 8, Nat.mod_lt _ (by decide)⟩

theorem sh_rev_sh (k : Fin 7) (c : Dev nD) : sh k.rev (sh k c) = c := by revert k c; decide
theorem sh_sh_rev (k : Fin 7) (c : Dev nD) : sh k (sh k.rev c) = c := by revert k c; decide
theorem sh_ne (k : Fin 7) (c : Dev nD) : sh k c ≠ c := by revert k c; decide
theorem sh_inj_k (c : Dev nD) {k k' : Fin 7} (h : sh k c = sh k' c) : k = k' := by revert k k' c; decide
theorem sh_inj_c (k : Fin 7) {c c' : Dev nD} (h : sh k c = sh k c') : c = c' := by
  have := congrArg (sh k.rev) h; rwa [sh_rev_sh, sh_rev_sh] at this

def shEquiv (k : Fin 7) : Dev nD ≃ Dev nD := ⟨sh k, sh k.rev, sh_rev_sh k, sh_sh_rev k⟩

/-- The kernel's `device_id` chains: the `k`-th signal and the `k`-th transfer name `sh k c`. -/
theorem dev1_eq (c : Dev nD) : (⟨k0_dev1 c, k0_dev1_lt c⟩ : Dev nD) = sh 0 c := Fin.ext (k0_dev1_eq c)
theorem dev2_eq (c : Dev nD) : (⟨k0_dev2 c, k0_dev2_lt c⟩ : Dev nD) = sh 1 c := Fin.ext (k0_dev2_eq c)
theorem dev3_eq (c : Dev nD) : (⟨k0_dev3 c, k0_dev3_lt c⟩ : Dev nD) = sh 2 c := Fin.ext (k0_dev3_eq c)
theorem dev4_eq (c : Dev nD) : (⟨k0_dev4 c, k0_dev4_lt c⟩ : Dev nD) = sh 3 c := Fin.ext (k0_dev4_eq c)
theorem dev5_eq (c : Dev nD) : (⟨k0_dev5 c, k0_dev5_lt c⟩ : Dev nD) = sh 4 c := Fin.ext (k0_dev5_eq c)
theorem dev6_eq (c : Dev nD) : (⟨k0_dev6 c, k0_dev6_lt c⟩ : Dev nD) = sh 5 c := Fin.ext (k0_dev6_eq c)
theorem dev7_eq (c : Dev nD) : (⟨k0_dev7 c, k0_dev7_lt c⟩ : Dev nD) = sh 6 c := Fin.ext (k0_dev7_eq c)
theorem dev8_eq (c : Dev nD) : (⟨k0_dev8 c, k0_dev8_lt c⟩ : Dev nD) = sh 0 c := Fin.ext (k0_dev8_eq c)
theorem dev9_eq (c : Dev nD) : (⟨k0_dev9 c, k0_dev9_lt c⟩ : Dev nD) = sh 1 c := Fin.ext (k0_dev9_eq c)
theorem dev10_eq (c : Dev nD) : (⟨k0_dev10 c, k0_dev10_lt c⟩ : Dev nD) = sh 2 c := Fin.ext (k0_dev10_eq c)
theorem dev11_eq (c : Dev nD) : (⟨k0_dev11 c, k0_dev11_lt c⟩ : Dev nD) = sh 3 c := Fin.ext (k0_dev11_eq c)
theorem dev12_eq (c : Dev nD) : (⟨k0_dev12 c, k0_dev12_lt c⟩ : Dev nD) = sh 4 c := Fin.ext (k0_dev12_eq c)
theorem dev13_eq (c : Dev nD) : (⟨k0_dev13 c, k0_dev13_lt c⟩ : Dev nD) = sh 5 c := Fin.ext (k0_dev13_eq c)
theorem dev14_eq (c : Dev nD) : (⟨k0_dev14 c, k0_dev14_lt c⟩ : Dev nD) = sh 6 c := Fin.ext (k0_dev14_eq c)

/-! ## The semaphores and cells -/

abbrev accM : Memref sig .tc .vmem S8x512 .f32 := Memref.whole cc0_scratch0

/-- The runtime's barrier semaphore of collective id 0 (unscoped). -/
abbrev barS : Sem sig := (SemArray.scalar (sig.barrier 0 rfl) : Sems sig S_).sem

/-- Entry `k + 1` of the send and of the receive semaphore arrays. -/
def sendS (k : Fin 7) : DmaSem sig := ⟨3 + k.val, by have := k.isLt; show 3 + k.val < 18; omega⟩
def recvS (k : Fin 7) : DmaSem sig := ⟨11 + k.val, by have := k.isLt; show 11 + k.val < 18; omega⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- Which send (receive) semaphore a DMA semaphore is, if any. -/
def sendIdx (q : DmaSem sig) : Option (Fin 7) := if h : 3 ≤ q.val ∧ q.val < 10 then some ⟨q.val - 3, by omega⟩ else none
def recvIdx (q : DmaSem sig) : Option (Fin 7) := if h : 11 ≤ q.val ∧ q.val < 18 then some ⟨q.val - 11, by omega⟩ else none

theorem sendIdx_sendS (k : Fin 7) : sendIdx (sendS k) = some k := by revert k; decide
theorem recvIdx_recvS (k : Fin 7) : recvIdx (recvS k) = some k := by revert k; decide
theorem sendIdx_recvS (k : Fin 7) : sendIdx (recvS k) = none := by revert k; decide
theorem recvIdx_sendS (k : Fin 7) : recvIdx (sendS k) = none := by revert k; decide

/-- The printed semaphore views are these. -/
theorem send_sem_1 : ((cc0_scratch1.slice (Rect.unit (s := S8) ![1] S1.size inb_S8_S1_1)).squeeze S_ squeezes_S1_S_).sem = sendS 0 := by decide
theorem recv_sem_1 : ((cc0_scratch2.slice (Rect.unit (s := S8) ![1] S1.size inb_S8_S1_1)).squeeze S_ squeezes_S1_S_).sem = recvS 0 := by decide

/-! ## Rows of the accumulator -/

/-- Row `c` of the accumulator as device `c` addresses it: the source of its transfers and their destination on each peer. -/
abbrev ownRow (c : Dev nD) : Memref sig .tc .vmem S1x512 .f32 :=
  accM.slice (Rect.unit (s := S8x512) (k0_off2 c) S1x512.size (k0_off2_inb c)) (fun _ => rfl)

/-- Row `r` of the accumulator as a set of its elements. -/
def rowSet (r : Dev nD) : Finset S8x512.Idx :=
  (Rect.unit (s := S8x512) ![r.val, 0] S1x512.size (by revert r; decide)).set

theorem mem_unit_row {r : Dev nD} {off : Fin S8x512.rank → Nat} (h : off = ![r.val, 0]) {inb} {i : S8x512.Idx} :
    i ∈ (Rect.unit (s := S8x512) off S1x512.size inb).set ↔ (i 0).val = r.val := by
  subst h
  rw [Rect.mem_set_unit]
  constructor
  · intro h; have := h 0; simp only [Matrix.cons_val_zero] at this; have h2 : S1x512.size 0 = 1 := rfl; omega
  · intro h a
    fin_cases a
    · have h2 : S1x512.size (0 : Fin 2) = 1 := rfl
      simp only [Fin.zero_eta, Matrix.cons_val_zero, h2]; omega
    · have h2 : S1x512.size (1 : Fin 2) = 512 := rfl
      have := (i 1).isLt
      have h3 : S8x512.size (1 : Fin 2) = 512 := rfl
      simp only [Fin.mk_one, Matrix.cons_val_one, Matrix.cons_val_zero, h2]; omega

theorem mem_rowSet {r : Dev nD} {i : S8x512.Idx} : i ∈ rowSet r ↔ (i 0).val = r.val := mem_unit_row rfl

theorem ownRow_set (c : Dev nD) : (ownRow c).view.set = rowSet c := by
  show ((View.whole cc0_scratch0).slice _).set = _
  rw [View.set_slice_whole]
  ext i
  rw [mem_rowSet, mem_unit_row (k0_off2_eq c)]

/-- The row the `k`-th receive wait names: the row of the device `k + 1` places before. -/
abbrev peerRow (c : Dev nD) (k : Fin 7) : Memref sig .tc .vmem S1x512 .f32 :=
  accM.slice (Rect.unit (s := S8x512) (k0_off3 c (BitVec.ofNat 32 (1 + k.val))) S1x512.size (k0_off3_inb c k)) (fun _ => rfl)

theorem off3_eq (c : Dev nD) (k : Fin 7) : k0_off3 c (BitVec.ofNat 32 (1 + k.val)) = ![(sh k.rev c).val, 0] := by
  rw [k0_off3_eq]; revert k c; decide

theorem peerRow_set (c : Dev nD) (k : Fin 7) : (peerRow c k).view.set = rowSet (sh k.rev c) := by
  show ((View.whole cc0_scratch0).slice _).set = _
  rw [View.set_slice_whole]
  ext i
  rw [mem_rowSet, mem_unit_row (off3_eq c k)]

theorem rowSet_disjoint {r r' : Dev nD} (h : r ≠ r') : Disjoint (rowSet r) (rowSet r') := by
  rw [Finset.disjoint_left]; intro i hi hi'
  rw [mem_rowSet] at hi hi'; exact h (Fin.ext (hi.symm.trans hi'))

theorem rowSet_cover : (Finset.univ : Finset S8x512.Idx) = (Finset.univ : Finset (Dev nD)).biUnion rowSet := by
  ext i
  simp only [Finset.mem_univ, Finset.mem_biUnion, true_and, true_iff]
  exact ⟨⟨(i 0).val, (i 0).isLt⟩, mem_rowSet.mpr rfl⟩

/-! ## Contents -/

/-- Device `c`'s block of the argument array, as its staging buffer holds it. -/
def xstg (c : Dev nD) : (cc0_stg0_0 : Ref sig .tc).ty.Contents (Elt F) :=
  (win0_0.blk (0 : Fin 1)).view.read (Elt F) (m ((c : Thread nD τ).loc main_arg0))

/-- The accumulator every device ends with: row `r` the column sums of device `r`'s block. -/
def accV : (cc0_scratch0 : Ref sig .tc).ty.Contents (Elt F) :=
  fun i => k0_pay2 (xstg m ⟨(i 0).val, (i 0).isLt⟩) (ValueIdx.ix2 0 (i 1))

/-- The kernel's result on every device. -/
def outV : (cc0_stg1_0 : Ref sig .tc).ty.Contents (Elt F) := k0_pay1 (accV m)

/-! ## Shares: the source row is read by seven transfers at once -/

def restQ : ℕ → PosShare TreeShare
  | 0 => fullShare
  | n + 1 => (restQ n).right
def pieceQ (n : ℕ) : PosShare TreeShare := (restQ n).left

/-- Row `r` of device `p`'s accumulator at share `q` and contents `f`. -/
def rowPts (p r : Dev nD) (q : PosShare TreeShare) (f : Buf (Elt F) ((p : Thread nD τ).loc cc0_scratch0)) : sProp 𝕄 :=
  ((p : Thread nD τ).loc cc0_scratch0) ↦[rowSet r]{q} f

omit [FloatOps F] in
instance rowPts_storable (p r : Dev nD) (q) (f) : BI.Storable (upEmb : UEmb _ 𝕄) (rowPts (F := F) p r q f) := by unfold rowPts; infer_instance

omit [FloatOps F] in
theorem rowPts_split (p r : Dev nD) (n : ℕ) (f) :
    rowPts (F := F) p r (restQ n) f ⊣⊢ iprop(rowPts p r (pieceQ n) f ∗ rowPts p r (restQ (n + 1)) f) :=
  pointsTo_share (PosShare.mem_left_op_right (restQ n))

/-! ## The schedule: one round a cell -/

/-- The units one row's transfer puts on a DMA cell. -/
def Nrow : ℕ := (ownRow (0 : Dev nD)).view.dmaCredit
theorem Nrow_own (c : Dev nD) : (ownRow c).view.dmaCredit = Nrow := rfl
theorem Nrow_peer (c : Dev nD) (k : Fin 7) : (peerRow c k).view.dmaCredit = Nrow := rfl
theorem Nrow_pos : 0 < Nrow := View.dmaCredit_pos _ (by decide)

/-- What the device `d + 1` places BEFORE `c` hands `c` with its barrier signal: row `c` of its own accumulator, to be
    written by `c`'s transfer, and that its receive cell for that transfer is at round 0. -/
def barPay (c : Dev nD) (d : Fin 7) : sProp 𝕄 :=
  iprop((∃ f, rowPts (sh d.rev c) c fullShare f) ∗ reached ER (recvCell (sh d.rev c) d.rev) 0)
/-- What lands with the `k`-th receive: the row of the device `k + 1` places before, holding that device's column sums. -/
def recvPay (c : Dev nD) (k : Fin 7) : sProp 𝕄 := rowPts c (sh k.rev c) fullShare (accV m)
/-- What comes back with the `k`-th send: the share of the own row that transfer read. -/
def sendPay (c : Dev nD) (k : Fin 7) : sProp 𝕄 := rowPts c c (pieceQ k.val) (accV m)

abbrev IsBar (g : GSem nD τ sig) : Prop := g.1.2 = .tc ∧ g.2 = .reg barS
def isXferSem : SemLoc sig → Bool
  | .dma q => (sendIdx q).isSome || (recvIdx q).isSome
  | .reg _ => false
abbrev IsXfer (g : GSem nD τ sig) : Prop := g.1.2 = .tc ∧ isXferSem g.2 = true

def meanRd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else Nrow
  payload g _ d := match g.2 with
    | .reg _ => barPay g.1.1 d
    | .dma q => match sendIdx q with
      | some k => sendPay m g.1.1 k
      | none => match recvIdx q with
        | some k => recvPay m g.1.1 k
        | none => iprop(emp)
  amount_pos g _ _ _ := by
    by_cases h : g.2 = .reg barS
    · rw [if_pos h]; exact Nat.one_pos
    · rw [if_neg h]; exact Nrow_pos

instance meanRd_payload_storable (g : GSem nD τ sig) (r : ℕ) (d : Fin 7) :
    BI.Storable (upEmb : UEmb _ 𝕄) ((meanRd (F := F) m).payload g r d) := by
  show BI.Storable upEmb (match g.2 with
    | .reg _ => barPay g.1.1 d
    | .dma q => match sendIdx q with
      | some k => sendPay m g.1.1 k
      | none => match recvIdx q with
        | some k => recvPay m g.1.1 k
        | none => iprop(emp))
  unfold barPay recvPay sendPay
  (repeat' split) <;> infer_instance

section Sched
variable (c : Dev nD) (k : Fin 7)

theorem send_ne_bar : (SemLoc.dma (sendS k) : SemLoc sig) ≠ .reg barS := fun h => by cases h
theorem recv_ne_bar : (SemLoc.dma (recvS k) : SemLoc sig) ≠ .reg barS := fun h => by cases h
theorem send_ne_recv (k' : Fin 7) : (SemLoc.dma (sendS k) : SemLoc sig) ≠ .dma (recvS k') := by revert k k'; decide
theorem not_bar_send : ¬ IsBar (sendCell c k) := fun h => send_ne_bar k h.2
theorem not_bar_recv : ¬ IsBar (recvCell c k) := fun h => recv_ne_bar k h.2
theorem xfer_send : IsXfer (sendCell c k) := ⟨rfl, by show ((sendIdx (sendS k)).isSome || _) = true; rw [sendIdx_sendS]; rfl⟩
theorem xfer_recv : IsXfer (recvCell c k) := ⟨rfl, by show (_ || (recvIdx (recvS k)).isSome) = true; rw [recvIdx_recvS]; simp⟩

theorem duties_bar : (meanRd (F := F) m).duties (barCell c) 0 = Finset.univ := by dsimp only [meanRd]; exact if_pos ⟨rfl, rfl, rfl⟩
theorem duties_send : (meanRd (F := F) m).duties (sendCell c k) 0 = {0} := by
  dsimp only [meanRd]; rw [if_neg (fun h => not_bar_send c k h.2)]; exact if_pos ⟨rfl, xfer_send c k⟩
theorem duties_recv : (meanRd (F := F) m).duties (recvCell c k) 0 = {0} := by
  dsimp only [meanRd]; rw [if_neg (fun h => not_bar_recv c k h.2)]; exact if_pos ⟨rfl, xfer_recv c k⟩
theorem duties_later (g : GSem nD τ sig) : ∀ r, 1 ≤ r → (meanRd (F := F) m).duties g r = ∅ :=
  fun r hr => by dsimp only [meanRd]; rw [if_neg fun h => by omega, if_neg fun h => by omega]

theorem amount_bar (d : Fin 7) : (meanRd (F := F) m).amount (barCell c) 0 d = 1 := by dsimp only [meanRd]; exact if_pos rfl
theorem amount_send (d : Fin 7) : (meanRd (F := F) m).amount (sendCell c k) 0 d = Nrow := by dsimp only [meanRd]; exact if_neg (send_ne_bar k)
theorem amount_recv (d : Fin 7) : (meanRd (F := F) m).amount (recvCell c k) 0 d = Nrow := by dsimp only [meanRd]; exact if_neg (recv_ne_bar k)

theorem expect_bar : (meanRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (meanRd (F := F) m).expect (sendCell c k) 0 = Nrow := by
  unfold Schedule.expect Schedule.amountOf; rw [duties_send, Finset.sum_singleton, amount_send]
theorem expect_recv : (meanRd (F := F) m).expect (recvCell c k) 0 = Nrow := by
  unfold Schedule.expect Schedule.amountOf; rw [duties_recv, Finset.sum_singleton, amount_recv]

theorem payload_bar (d : Fin 7) : (meanRd (F := F) m).payload (barCell c) 0 d = barPay c d := rfl
theorem payload_send (d : Fin 7) : (meanRd (F := F) m).payload (sendCell c k) 0 d = sendPay m c k := by
  show (match sendIdx (sendS k) with | some k => sendPay m c k | none => _) = _
  rw [sendIdx_sendS]
theorem payload_recv (d : Fin 7) : (meanRd (F := F) m).payload (recvCell c k) 0 d = recvPay m c k := by
  show (match sendIdx (recvS k) with | some k => sendPay m c k | none => match recvIdx (recvS k) with | some k => recvPay m c k | none => _) = _
  rw [sendIdx_recvS, recvIdx_recvS]

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem rest_bar : bigSep ((meanRd (F := F) m).duties (barCell c) 0 \ ∅) (fun d => (meanRd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7]; rfl
theorem rest_send : bigSep ((meanRd (F := F) m).duties (sendCell c k) 0 \ ∅) (fun d => (meanRd (F := F) m).payload (sendCell c k) 0 d) = sendPay m c k := by
  rw [Finset.sdiff_empty, duties_send, bigSep_singleton, payload_send]
theorem rest_recv : bigSep ((meanRd (F := F) m).duties (recvCell c k) 0 \ ∅) (fun d => (meanRd (F := F) m).payload (recvCell c k) 0 d) = recvPay m c k := by
  rw [Finset.sdiff_empty, duties_recv, bigSep_singleton, payload_recv]

end Sched

/-! ## What a device owes at launch; the levels -/

def fin7 (n : ℕ) : Fin 7 := ⟨n % 7, Nat.mod_lt _ (by decide)⟩

/-- The receive credit of the `k`-th transfer, and the barrier unit of the `k`-th signal. -/
def tS (c : Dev nD) (k : Fin 7) : CellTallies nD τ sig Unit := tallyAt (recvCell (sh k c) k) () Nrow
def tB (c : Dev nD) (k : Fin 7) : CellTallies nD τ sig Unit := tallyAt (barCell (sh k c)) () 1

/-- What is still owed with `j` transfers to go (the last `j` of the seven), summed so that the next one peels off. -/
def OSr (c : Dev nD) : ℕ → CellTallies nD τ sig Unit
  | 0 => 0
  | j + 1 => OSr c j + tS c (fin7 (6 - j))
/-- And with `j` signals to go, all seven transfers after them. -/
def OBr (c : Dev nD) : ℕ → CellTallies nD τ sig Unit
  | 0 => OSr c 7
  | j + 1 => OBr c j + tB c (fin7 (6 - j))
def O₀ (c : Dev nD) : CellTallies nD τ sig Unit := OBr c 7

def L (g : GSem nD τ sig) : Finset Unit := if g.1.2 = .tc then {()} else ∅
def isRecvSem : SemLoc sig → Bool
  | .dma q => (recvIdx q).isSome
  | .reg _ => false
/-- Barrier cells at 1, receive cells at 2, everything else (staging, send) at 0. -/
def lv (g : GSem nD τ sig) (_ : Unit) : ℕ := if g.2 = .reg barS then 1 else if isRecvSem g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 7) : lv (recvCell c k) () = 2 := by
  unfold lv; rw [if_neg (recv_ne_bar k)]; show (if (recvIdx (recvS k)).isSome = true then 2 else 0) = 2; rw [recvIdx_recvS]; rfl

end Cert.KernelIdealProof

end
-- ==== Proof.Data.lean ====
/-
  The protocol's ghost state and the pipeline's proof data: which cell invariants, positions, round marks, duty tokens
  and credit a device's body starts from, what its staging buffers hold before and after, what it owes.
-/
import proofs.«900940_g7700000000000941_dist_mean_ax0_shard0_i_m1024_n512_v7x_i8_bf16_1_alg».proof.Proof.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's fifteen cells, indexed: the barrier cell, the seven send cells, the seven receive cells -/

def iS (k : Fin 7) : Fin 15 := ⟨k.val + 1, by omega⟩
def iR (k : Fin 7) : Fin 15 := ⟨k.val + 8, by omega⟩
def csem (j : Fin 15) : SemLoc sig :=
  if h : j.val = 0 then .reg barS
  else if h' : j.val < 8 then .dma (sendS ⟨j.val - 1, by omega⟩)
  else .dma (recvS ⟨j.val - 8, by omega⟩)
abbrev kcell (ck : Dev nD × Fin 15) : GSem nD τ sig := ((ck.1 : Thread nD τ), csem ck.2)

theorem csem_zero : csem 0 = .reg barS := rfl
theorem csem_iS (k : Fin 7) : csem (iS k) = .dma (sendS k) := by revert k; decide
theorem csem_iR (k : Fin 7) : csem (iR k) = .dma (recvS k) := by revert k; decide
theorem kcell_bar (c : Dev nD) : kcell (c, 0) = barCell c := rfl
theorem kcell_send (c : Dev nD) (k : Fin 7) : kcell (c, iS k) = sendCell c k := by show (_, csem (iS k)) = _; rw [csem_iS]
theorem kcell_recv (c : Dev nD) (k : Fin 7) : kcell (c, iR k) = recvCell c k := by show (_, csem (iR k)) = _; rw [csem_iR]
theorem csem_injective : Function.Injective csem := by decide

/-- The kernel's OWN (scoped) semaphores, as the launch indexes them: the sixteen DMA semaphores of its two arrays. -/
abbrev osem : Fin 16 → SemLoc sig := fun j => .dma ⟨j.val + 2, by have := j.isLt; show j.val + 2 < 18; omega⟩
/-- Entry 0 of each array: no transfer uses it. -/
def idleSems (c : Dev nD) : sProp 𝕄 :=
  iprop(semVal ((c : Thread nD τ), .dma (⟨2, by decide⟩ : DmaSem sig)) 0 ∗ semVal ((c : Thread nD τ), .dma (⟨10, by decide⟩ : DmaSem sig)) 0)

/-! ## The ghost state a device's body starts from -/

/-- The invariants device `c` opens: its own fifteen cells', each peer's barrier cell (its signals) and the peer's
    receive cell its transfer credits. -/
def invs (K : Dev nD × Fin 15 → ℕ) (c : Dev nD) : sProp 𝕄 :=
  iprop(cellInv ER (meanRd m) (K (c, 0)) (barCell c)
    ∗ (bigSep Finset.univ fun k : Fin 7 => cellInv ER (meanRd m) (K (c, iS k)) (sendCell c k))
    ∗ (bigSep Finset.univ fun k : Fin 7 => cellInv ER (meanRd m) (K (c, iR k)) (recvCell c k))
    ∗ (bigSep Finset.univ fun k : Fin 7 => cellInv ER (meanRd m) (K (sh k c, 0)) (barCell (sh k c)))
    ∗ (bigSep Finset.univ fun k : Fin 7 => cellInv ER (meanRd m) (K (sh k c, iR k)) (recvCell (sh k c) k)))

instance invs_persistent (K : Dev nD × Fin 15 → ℕ) (c : Dev nD) : BI.Persistent (invs m K c) := by unfold invs; infer_instance

/-- The round marks device `c` needs: of the cells it pays, and of its own send and receive cells. -/
def marks (c : Dev nD) : sProp 𝕄 :=
  iprop((bigSep Finset.univ fun k : Fin 7 => reached ER (barCell (sh k c)) 0)
    ∗ (bigSep Finset.univ fun k : Fin 7 => reached ER (recvCell (sh k c) k) 0)
    ∗ (bigSep Finset.univ fun k : Fin 7 => reached ER (sendCell c k) 0)
    ∗ (bigSep Finset.univ fun k : Fin 7 => reached ER (recvCell c k) 0))

instance marks_persistent (c : Dev nD) : BI.Persistent (marks (F := F) c) := by unfold marks; infer_instance

/-- Its positions: round 0 of each of its fifteen cells. -/
def posns (c : Dev nD) : sProp 𝕄 :=
  iprop(atPos ER (barCell c) 0 ∅ 0
    ∗ (bigSep Finset.univ fun k : Fin 7 => atPos ER (sendCell c k) 0 ∅ 0)
    ∗ (bigSep Finset.univ fun k : Fin 7 => atPos ER (recvCell c k) 0 ∅ 0))

/-- The tokens of the duties IT pays: duty `k` of the barrier cell of the device `k + 1` places after it, that device's
    `k`-th receive duty, its own seven send duties. -/
def payToks (c : Dev nD) : sProp 𝕄 :=
  iprop((bigSep Finset.univ fun k : Fin 7 => dutyTok ER (barCell (sh k c)) 0 k)
    ∗ (bigSep Finset.univ fun k : Fin 7 => dutyTok ER (recvCell (sh k c) k) 0 0)
    ∗ (bigSep Finset.univ fun k : Fin 7 => dutyTok ER (sendCell c k) 0 0))

def ghost (K : Dev nD × Fin 15 → ℕ) (c : Dev nD) : sProp 𝕄 :=
  iprop(invs m K c ∗ marks c ∗ posns c ∗ payToks c)

/-- Its launch credit: the barrier's seven units, each receive cell's row credit. -/
def creds0 (c : Dev nD) : sProp 𝕄 :=
  iprop(cred (tallyAt (barCell c) () 7) ∗ bigSep Finset.univ fun k : Fin 7 => cred (tallyAt (recvCell c k) () Nrow))

/-- What device `c`'s body starts from, beside the pipeline's: the ghost state at some names, the credit, the levels. -/
def start (c : Dev nD) : sProp 𝕄 :=
  iprop((∃ K, ghost m K c) ∗ creds0 c ∗ levAts L lv ∗ idleSems c)

/-- The whole accumulator of device `c` at contents `f`. -/
def accPts (c : Dev nD) (f : Buf (Elt F) ((c : Thread nD τ).loc cc0_scratch0)) : sProp 𝕄 :=
  (((c : Thread nD τ).loc cc0_scratch0) ↦{fullShare} f : sProp 𝕄)

def Φ₀ (c : Dev nD) : sProp 𝕄 := iprop(start m c ∗ ∃ f, accPts c f)
/-- After the point: the accumulator holding every device's column sums, the sixteen own semaphores at zero again. -/
def Φ₁ (c : Dev nD) : sProp 𝕄 :=
  iprop(accPts c (accV m) ∗ Pipeline.ownSems0 (Ix := Unit) (Name := ℕ) (U := UU) (Lvl := ℕ) (Val := Elt F) (τ := τ) osem c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdealProof

end
-- ==== Proof.Levels.lean ====
/-
  Levels and launch credit of the mean protocol: what a device still owes sits strictly above the cell it waits on,
  and the credit the launch deals a device is its barrier cell's seven units and each receive cell's row credit.
-/
import proofs.«900940_g7700000000000941_dist_mean_ax0_shard0_i_m1024_n512_v7x_i8_bf16_1_alg».proof.Proof.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the owed tallies are non-zero -/

theorem tS_pos {c : Dev nD} {k : Fin 7} {g : GSem nD τ sig} {u : Unit} (h : 0 < tS c k g u) : g = recvCell (sh k c) k := by
  unfold tS at h
  rw [tallyAt_apply] at h
  by_contra hn
  rw [if_neg (fun h' => hn h'.1)] at h
  exact Nat.lt_irrefl 0 h

theorem tB_pos {c : Dev nD} {k : Fin 7} {g : GSem nD τ sig} {u : Unit} (h : 0 < tB c k g u) : g = barCell (sh k c) := by
  unfold tB at h
  rw [tallyAt_apply] at h
  by_contra hn
  rw [if_neg (fun h' => hn h'.1)] at h
  exact Nat.lt_irrefl 0 h

/-- With transfers still to go a device owes receive cells only. -/
theorem OSr_pos {c : Dev nD} : ∀ (j : ℕ) {g : GSem nD τ sig} {u : Unit}, 0 < OSr c j g u → ∃ k, g = recvCell (sh k c) k
  | 0, g, u, h => absurd h (Nat.lt_irrefl 0)
  | j + 1, g, u, h => by
    have h' : 0 < OSr c j g u + tS c (fin7 (6 - j)) g u := h
    rcases Nat.eq_zero_or_pos (OSr c j g u) with h0 | h0
    · rw [h0, Nat.zero_add] at h'; exact ⟨_, tS_pos h'⟩
    · exact OSr_pos j h0

/-- With signals still to go it owes receive cells and barrier cells. -/
theorem OBr_pos {c : Dev nD} : ∀ (j : ℕ) {g : GSem nD τ sig} {u : Unit}, 0 < OBr c j g u →
    (∃ k, g = recvCell (sh k c) k) ∨ ∃ k, g = barCell (sh k c)
  | 0, g, u, h => Or.inl (OSr_pos 7 h)
  | j + 1, g, u, h => by
    have h' : 0 < OBr c j g u + tB c (fin7 (6 - j)) g u := h
    rcases Nat.eq_zero_or_pos (OBr c j g u) with h0 | h0
    · rw [h0, Nat.zero_add] at h'; exact Or.inr ⟨_, tB_pos h'⟩
    · exact OBr_pos j h0

theorem O₀_pos {c : Dev nD} {g : GSem nD τ sig} {u : Unit} (h : 0 < O₀ c g u) :
    (∃ k, g = recvCell (sh k c) k) ∨ ∃ k, g = barCell (sh k c) := OBr_pos 7 h

/-! ## Waiting is allowed -/

omit [FloatOps F] in
/-- At its barrier wait a device owes receive credit only: receive cells lie above its barrier cell. -/
theorem mayWait_bar (c : Dev nD) : (levAts L lv : sProp 𝕄) ⊢ MayWait (c : Thread nD τ) (.reg barS) () (OSr c 7) :=
  MayOwe.of_cut (L := L) (lev := lv) 1 (fun p hp => by rw [Finset.mem_singleton.mp hp, L_tc]; exact Finset.mem_singleton_self _)
    (fun g u hg => by obtain ⟨k, rfl⟩ := OSr_pos 7 hg; exact Finset.mem_singleton_self _)
    (fun p hp => by rw [Finset.mem_singleton.mp hp]; dsimp only [lv]; rw [if_pos rfl])
    (fun g u hg => by obtain ⟨k, rfl⟩ := OSr_pos 7 hg; rw [lv_recv]; decide)

omit [FloatOps F] in
/-- A staging or send cell of the device is at level 0, below everything the device can owe. -/
theorem mayWait_stage (c : Dev nD) (q : DmaSem sig) (hq : isRecvSem (.dma q) = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv]
        rw [if_neg (fun h => by cases h), if_neg (fun h => by rw [hq] at h; cases h)])
      (fun g u hg => by
        rcases O₀_pos hg with ⟨k, rfl⟩ | ⟨k, rfl⟩
        · rw [lv_recv]; decide
        · rw [lv_bar]; decide)
  · rw [MayWait_zero]; iintro -; iempintro

/-! ## The launch credit -/

/-- What a device owes at launch, as one sum: each transfer's receive credit and each signal's unit. -/
theorem OSr_eq (c : Dev nD) : OSr c 7 = ∑ k : Fin 7, tS c k := by
  rw [Fin.sum_univ_seven]
  show 0 + tS c 6 + tS c 5 + tS c 4 + tS c 3 + tS c 2 + tS c 1 + tS c 0 = _
  abel

theorem O₀_eq : (O₀ : Dev nD → CellTallies nD τ sig Unit) = fun d => (∑ k : Fin 7, tS d k) + ∑ k : Fin 7, tB d k := funext fun d => by
  rw [← OSr_eq, Fin.sum_univ_seven]
  show OSr d 7 + tB d 6 + tB d 5 + tB d 4 + tB d 3 + tB d 2 + tB d 1 + tB d 0 = _
  abel

theorem sum_units (g : GSem nD τ sig) : (∑ k : Fin 7, (tallyAt g () 1 : CellTallies nD τ sig Unit)) = tallyAt g () 7 := by
  rw [Fin.sum_univ_seven, tallyAt_add, tallyAt_add, tallyAt_add, tallyAt_add, tallyAt_add, tallyAt_add]

omit [FloatOps F] in
/-- The launch deals a device its barrier cell's seven units (one from each other device) and each receive cell's row
    credit (from the device that many places before). -/
theorem creds (c : Dev nD) : (Pipeline.launchCred O₀ c : sProp 𝕄) ⊢ creds0 c := by
  rw [O₀_eq, Pipeline.launchCred_add, Pipeline.launchCred_sum, Pipeline.launchCred_sum]
  unfold creds0
  refine BI.Entails.trans BI.sep_comm (BI.sep_mono ?_ ?_)
  · rw [← sum_units, Pipeline.cred_finsetSum]
    exact bigSep_mono fun k _ => Pipeline.launchCred_tallyAt (.reg barS) (sh k) (sh k.rev) (sh_sh_rev k) (sh_rev_sh k) () 1 c
  · exact bigSep_mono fun k _ => Pipeline.launchCred_tallyAt (.dma (recvS k)) (sh k) (sh k.rev) (sh_sh_rev k) (sh_rev_sh k) () Nrow c

end Cert.KernelIdealProof

end
-- ==== Proof.Rows.lean ====
/-
  The 8 × 512 accumulator as eight rows, one a device: the whole buffer is its eight rows, the eight devices are
  one device and the seven after it on the ring, a row held whole is seven reader's shares and a rest, and what a
  row holds after a device stores its column sums there or after a peer's row lands there.
-/
import proofs.«900940_g7700000000000941_dist_mean_ax0_shard0_i_m1024_n512_v7x_i8_bf16_1_alg».proof.Proof.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The eight devices: one, and the seven after it on the ring -/

/-- Every device other than `c` is some number `k + 1 ≤ 7` of places after `c`. -/
theorem erase_eq_map_sh (c : Dev nD) :
    (Finset.univ : Finset (Dev nD)).erase c
      = (Finset.univ : Finset (Fin 7)).map ⟨fun k => sh k c, fun _ _ h => sh_inj_k c h⟩ := by
  ext d
  rw [Finset.mem_erase, Finset.mem_map]
  constructor
  · rintro ⟨hne, -⟩
    obtain ⟨k, hk⟩ := (by decide : ∀ c d : Dev nD, d ≠ c → ∃ k : Fin 7, sh k c = d) c d hne
    exact ⟨k, Finset.mem_univ _, hk⟩
  · rintro ⟨k, -, rfl⟩
    exact ⟨sh_ne k c, Finset.mem_univ _⟩

/-- A separating conjunction over the eight devices: device `c`'s part and the parts of the seven after it. -/
theorem bigSep_dev_split (c : Dev nD) (Φ : Dev nD → sProp 𝕄) :
    bigSep Finset.univ Φ = iprop(Φ c ∗ bigSep Finset.univ fun k : Fin 7 => Φ (sh k c)) := by
  rw [bigSep_univ_split c, erase_eq_map_sh c, bigSep_map]
  rfl

/-! ## The accumulator is its eight rows -/

theorem rows_disj : ∀ i ∈ (Finset.univ : Finset (Dev nD)), ∀ j ∈ (Finset.univ : Finset (Dev nD)),
    i ≠ j → Disjoint (rowSet i) (rowSet j) :=
  fun i _ j _ h => rowSet_disjoint h

/-- The accumulator held whole is its eight rows held. -/
theorem acc_rows_eq (c : Dev nD) (f : Buf (Elt F) ((c : Thread nD τ).loc cc0_scratch0)) :
    accPts (F := F) c f = bigSep Finset.univ fun r : Dev nD => rowPts c r fullShare f := by
  unfold accPts rowPts
  rw [← pointsTo_biUnion Finset.univ (ℓ := (c : Thread nD τ).loc cc0_scratch0) rowSet rows_disj, ← rowSet_cover]; try rfl

/-- The accumulator held whole is the own row and the seven peers' rows. -/
theorem acc_rows (c : Dev nD) (f : Buf (Elt F) ((c : Thread nD τ).loc cc0_scratch0)) :
    accPts (F := F) c f
      ⊣⊢ iprop(rowPts c c fullShare f ∗ bigSep Finset.univ fun k : Fin 7 => rowPts c (sh k c) fullShare f) :=
  have e := (acc_rows_eq (F := F) c f).trans (bigSep_dev_split c fun r => rowPts c r fullShare f)
  ⟨.of_eq e, .of_eq e.symm⟩

/-! ## A row held whole is seven readers' shares and a rest -/

theorem eq_of_equiv {P Q : sProp 𝕄} (h : P ⊣⊢ Q) : P = Q := BI.equiv_iff.mp ⟨h.1, h.2⟩

/-- Peeling `n` left halves off the full share leaves the `n` pieces and the rest. -/
theorem row_shares_range (p r : Dev nD) (f : Buf (Elt F) ((p : Thread nD τ).loc cc0_scratch0)) (n : ℕ) :
    rowPts (F := F) p r fullShare f
      = iprop((bigSep (Finset.range n) fun k => rowPts p r (pieceQ k) f) ∗ rowPts p r (restQ n) f) := by
  induction n with
  | zero =>
    rw [Finset.range_zero, bigSep_empty]
    exact (eq_of_equiv emp_sep).symm
  | succ n ih =>
    rw [Finset.range_add_one, bigSep_insert Finset.notMem_range_self]
    refine ih.trans ?_
    rw [eq_of_equiv (rowPts_split (F := F) p r n f)]
    exact (eq_of_equiv sep_left_comm).trans (eq_of_equiv sep_assoc).symm

theorem range7_eq : Finset.range 7 = (Finset.univ : Finset (Fin 7)).map Fin.valEmbedding := by
  ext x
  rw [Finset.mem_range, Finset.mem_map]
  exact ⟨fun h => ⟨⟨x, h⟩, Finset.mem_univ _, rfl⟩, fun ⟨k, _, hk⟩ => hk ▸ k.isLt⟩

/-- A row held whole: the seven shares its seven readers take, and what is left. -/
theorem row_shares (p r : Dev nD) (f : Buf (Elt F) ((p : Thread nD τ).loc cc0_scratch0)) :
    rowPts (F := F) p r fullShare f
      ⊣⊢ iprop((bigSep Finset.univ fun k : Fin 7 => rowPts p r (pieceQ k.val) f) ∗ rowPts p r (restQ 7) f) := by
  have e := row_shares_range (F := F) p r f 7
  rw [range7_eq, bigSep_map] at e
  exact ⟨.of_eq e, .of_eq e.symm⟩

/-! ## What a row holds after a peer's row lands, and after the device stores its own -/

/-- A row written whole with what the same row reads of `fs` holds `fs` on that row. -/
theorem landed_row (p c : Dev nD) (fd : Buf (Elt F) ((ownRow c).view.loc (p : Thread nD τ)))
    (fs : Buf (Elt F) ((ownRow c).view.loc (c : Thread nD τ))) :
    ((((ownRow c).view.loc (p : Thread nD τ)) ↦[(ownRow c).view.set]{fullShare}
        ((ownRow c).view.write (Elt F) fd ((ownRow c).view.read (Elt F) fs) Finset.univ)) : sProp 𝕄)
      = rowPts p c fullShare fs := by
  unfold rowPts
  rw [View.write_read_eq_piecewise, ownRow_set]
  exact pointsTo_congr fun i hi => Finset.piecewise_eq_of_mem _ _ _ (by rw [View.setOn_univ, ownRow_set]; exact hi)

/-- The rectangle of the kernel's store of its column sums (and of the load before it): row `c`. -/
abbrev r1 (c : Dev nD) : Rect S8x512 := Rect.unit (s := S8x512) (k0_off1 c) S1x512.size (k0_off1_inb c)

theorem r1_set (c : Dev nD) : (accM.access (r1 c)).set = rowSet c := by
  show ((View.whole cc0_scratch0).slice _).set = _
  rw [View.set_slice_whole]
  ext i
  rw [mem_rowSet, mem_unit_row (k0_off1_eq c)]

theorem store_fp (c : Dev nD) : (accM.access (r1 c)).setOn Finset.univ ⊆ rowSet c := (r1_set c).subset

theorem load_fp (c : Dev nD) : accM.view.setOn (r1 c).toLoadRect.set ⊆ rowSet c := by
  rw [← r1_set c, View.set_slice]
  exact Finset.Subset.refl _

/-- The final accumulator at column `y 1` of row `c`: device `c`'s column sums there. -/
theorem accV_emb (c : Dev nD) {off : Fin S8x512.rank → Nat} (h : off = ![c.val, 0])
    (inb : ∀ a, off a + S1x512.size a ≤ S8x512.size a) (y : S1x512.Idx) :
    accV m ((accM.access (Rect.unit (s := S8x512) off S1x512.size inb)).emb y) = k0_pay2 (xstg m c) y := by
  subst h
  have h0 : (y 0).val = 0 := by
    have := (y 0).isLt
    have h2 : S1x512.size 0 = 1 := rfl
    omega
  unfold accV
  refine congr (congrArg (fun d : Dev nD => k0_pay2 (xstg m d)) (Fin.ext ?_)) (funext fun a => ?_)
  · show c.val + 1 * (y 0).val = c.val
    omega
  · match a with
    | ⟨0, _⟩ => exact Fin.ext h0.symm
    | ⟨1, _⟩ => exact Fin.ext (by show 0 + 1 * (y 1).val = (y 1).val; omega)

/-- Row `c` after device `c` stores its column sums there holds the final accumulator's row `c`. -/
theorem stored_row (c : Dev nD) (f : Buf (Elt F) ((c : Thread nD τ).loc cc0_scratch0)) :
    ((((c : Thread nD τ).loc cc0_scratch0) ↦[rowSet c]{fullShare}
        ((accM.access (r1 c)).write (Elt F) f (k0_pay2 (xstg m c)) Finset.univ)) : sProp 𝕄)
      = rowPts c c fullShare (accV m) := by
  unfold rowPts
  refine pointsTo_congr fun i hi => ?_
  rw [← r1_set c] at hi
  obtain ⟨y, rfl⟩ := View.exists_emb_of_mem_set _ hi
  rw [View.write_emb_of_mem _ _ (Finset.mem_univ y), cast_eq]
  exact (accV_emb m c (k0_off1_eq c) _ y).symm

/-! ## Whole-buffer loads and the whole-buffer store -/

theorem zero_off : (![0, 0] : Fin 2 → Nat) = fun _ => 0 := funext fun a => by fin_cases a <;> rfl

/-- The load of the whole accumulator reads its contents. -/
theorem acc_whole_read (f : (cc0_scratch0 : Ref sig .tc).ty.Contents (Elt F)) :
    accM.view.readAt (Elt F) (Rect.unit (s := S8x512) ![0, 0] S8x512.size inb_S8x512_S8x512_0_0).toLoadRect f = f :=
  Memref.readAt_unit_zero (Elt F) cc0_scratch0 zero_off _ f

/-- The load of the whole input staging buffer reads its contents. -/
theorem in_whole_read (f : (cc0_stg0_0 : Ref sig .tc).ty.Contents (Elt F)) :
    (Memref.whole cc0_stg0_0 : Memref sig .tc .vmem S1024x512 .f32).view.readAt (Elt F)
      (Rect.unit (s := S1024x512) ![0, 0] S1024x512.size inb_S1024x512_S1024x512_0_0).toLoadRect f = f :=
  Memref.readAt_unit_zero (Elt F) cc0_stg0_0 zero_off _ f

/-- The store of the whole output staging buffer leaves the payload. -/
theorem out_whole_write (f w : (cc0_stg1_0 : Ref sig .tc).ty.Contents (Elt F)) :
    ((Memref.whole cc0_stg1_0 : Memref sig .tc .vmem S1x512 .f32).access
      (Rect.unit (s := S1x512) ![0, 0] S1x512.size inb_S1x512_S1x512_0_0)).write (Elt F) f w Finset.univ = w :=
  Memref.write_access_unit_zero_univ (Elt F) cc0_stg1_0 zero_off _ f w

end Cert.KernelIdealProof

end
-- ==== Proof.Launch.lean ====
/-
  The launch of the mean protocol on eight devices: the protocol's cells and duty tokens, what the launch deals each
  device, the invariants allocated for every cell at once, the tokens dealt around the ring to the devices that pay
  them, and the run of @main from any memory with zero counters.
-/
import proofs.«900940_g7700000000000941_dist_mean_ax0_shard0_i_m1024_n512_v7x_i8_bf16_1_alg».proof.Proof.Levels

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- The protocol's cells: every device's fifteen. -/
def ringCells : Finset (GSem nD τ sig) := Finset.univ.map ⟨kcell, kcell_injective⟩

/-- The duties of a device's own cells, as (which kind of cell, which of seven): the barrier cell's duty `k`, the `k`-th
    send cell's one duty, the `k`-th receive cell's one duty. -/
def tokSem (jk : Fin 3 × Fin 7) : SemLoc sig × Fin 7 := match jk.1 with
  | 0 => (.reg barS, jk.2) | 1 => (.dma (sendS jk.2), 0) | 2 => (.dma (recvS jk.2), 0)
theorem tokSem_injective : Function.Injective tokSem := by decide
abbrev tokOf (x : Dev nD × Fin 3 × Fin 7) : GSem nD τ sig × ℕ × Fin 7 := (((x.1 : Thread nD τ), (tokSem x.2).1), 0, (tokSem x.2).2)
theorem tokOf_injective : Function.Injective (tokOf : Dev nD × Fin 3 × Fin 7 → GSem nD τ sig × ℕ × Fin 7) := by
  rintro ⟨c, jk⟩ ⟨c', jk'⟩ h
  have h1 : c = c' := congrArg (fun x : GSem nD τ sig × ℕ × Fin 7 => x.1.1.1) h
  subst h1
  have h2 : tokSem jk = tokSem jk' :=
    Prod.ext (congrArg (fun x : GSem nD τ sig × ℕ × Fin 7 => x.1.2) h) (congrArg (fun x : GSem nD τ sig × ℕ × Fin 7 => x.2.2) h)
  rw [tokSem_injective h2]
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ (bigSep Finset.univ fun k : Fin 7 => dutyTok ER (recvCell c k) 0 0))

/-- What the launch element deals device `c`. -/
def G (c : Dev nD) : sProp 𝕄 :=
  iprop((bigSep Finset.univ fun j : Fin 15 => roundState ER (meanRd m) (kcell (c, j)) 0)
    ∗ (bigSep Finset.univ fun j : Fin 15 => iprop(atPos ER (kcell (c, j)) 0 ∅ 0 ∗ reached ER (kcell (c, j)) 0)) ∗ toks c)

/-- What the global step makes of it: the ghost state at some names, and the two semaphores no transfer uses. -/
def G' (c : Dev nD) : sProp 𝕄 := iprop((∃ K, ghost m K c) ∗ idleSems c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem iS_injective : Function.Injective iS := by decide
theorem iR_injective : Function.Injective iR := by decide

omit [FloatOps F] in
/-- Fifteen cells: the barrier cell, the seven send cells, the seven receive cells. -/
theorem bigSep_fin15 (Φ : Fin 15 → sProp 𝕄) :
    bigSep Finset.univ Φ = iprop(Φ 0 ∗ (bigSep Finset.univ fun k : Fin 7 => Φ (iS k)) ∗ (bigSep Finset.univ fun k : Fin 7 => Φ (iR k))) := by
  have hU : (Finset.univ : Finset (Fin 15)) = insert 0 ((Finset.univ.map ⟨iS, iS_injective⟩) ∪ (Finset.univ.map ⟨iR, iR_injective⟩)) := by decide
  rw [hU, bigSep_insert (by decide), bigSep_union (by decide), bigSep_map, bigSep_map]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 15 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (meanRd m) ringCells ringToks) $$ HX with ⟨Hst, Hr, Hat, Htok⟩
  imodintro
  ihave Hst' := (Entails.of_eq (hX fun g => roundState ER (meanRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own sixteen semaphores, one by one; -/
theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0) := by
  rw [Pipeline.ownSems0_eq_of_list c osem [0, 1, 2, 3, 4, 5, 6, 7, 8, 9, 10, 11, 12, 13, 14, 15] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin15_list (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- The sixteen own semaphores and the barrier semaphore are the fifteen cells' counters and the two idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 15 => semVal (kcell (c, j)) 0) ∗ idleSems c : sProp 𝕄) := by
  rw [ownSems0_eq, unscopedSems0_eq, bigSep_fin15_list]
  unfold idleSems
  iintro ⟨⟨H0, H1, H2, H3, H4, H5, H6, H7, H8, H9, H10, H11, H12, H13, H14, H15⟩, HB⟩
  isplitr [H0 H8]
  swap
  · isplitl [H0]; · iexact H0
    iexact H8
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  iexact H15

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 15 => iprop(∃ κ : ℕ, cellInv ER (meanRd m) κ (kcell (c, j))))
          ∗ (bigSep Finset.univ fun j : Fin 15 => iprop(atPos ER (kcell (c, j)) 0 ∅ 0 ∗ reached ER (kcell (c, j)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hid⟩
  imod (show iprop((bigSep Finset.univ fun j : Fin 15 => semVal (kcell (c, j)) 0) ∗ bigSep Finset.univ fun j : Fin 15 => roundState ER (meanRd m) (kcell (c, j)) 0)
      ⊢ (|={Set.univ}=> bigSep Finset.univ fun j => iprop(∃ κ : ℕ, cellInv ER (meanRd m) κ (kcell (c, j))) : sProp 𝕄) from by
        rw [← bigSep_sep']
        exact (bigSep_mono fun j _ => (Rounds.body_intro ER (meanRd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hid

/-- Every cell's invariant at its name, and that every cell has reached round 0: what all devices share. -/
def records (K : Dev nD × Fin 15 → ℕ) : sProp 𝕄 :=
  iprop((bigSep Finset.univ fun ck : Dev nD × Fin 15 => cellInv ER (meanRd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (meanRd m) (K ck) (kcell ck) : sProp 𝕄)) ⊢ cellInv ER (meanRd m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem invs_intro (K : Dev nD × Fin 15 → ℕ) (c : Dev nD) : records m K ⊢ invs m K c := by
  unfold records invs
  iintro ⟨#HI, -⟩
  isplitr; · iapply (inv_at m K (c, 0)); iexact HI
  isplitr
  · iapply (bigSep_intro_persistent fun (k : Fin 7) _ => by have h := inv_at m K (c, iS k); rwa [kcell_send] at h); iexact HI
  isplitr
  · iapply (bigSep_intro_persistent fun (k : Fin 7) _ => by have h := inv_at m K (c, iR k); rwa [kcell_recv] at h); iexact HI
  isplitr
  · iapply (bigSep_intro_persistent fun (k : Fin 7) _ => inv_at m K (sh k c, 0)); iexact HI
  · iapply (bigSep_intro_persistent fun (k : Fin 7) _ => by have h := inv_at m K (sh k c, iR k); rwa [kcell_recv] at h); iexact HI

theorem marks_intro (K : Dev nD × Fin 15 → ℕ) (c : Dev nD) : records m K ⊢ marks c := by
  unfold records marks
  iintro ⟨-, #HR⟩
  isplitr
  · iapply (bigSep_intro_persistent fun (k : Fin 7) _ => reached_at (F := F) (sh k c, 0)); iexact HR
  isplitr
  · iapply (bigSep_intro_persistent fun (k : Fin 7) _ => by have h := reached_at (F := F) (sh k c, iR k); rwa [kcell_recv] at h); iexact HR
  isplitr
  · iapply (bigSep_intro_persistent fun (k : Fin 7) _ => by have h := reached_at (F := F) (c, iS k); rwa [kcell_send] at h); iexact HR
  · iapply (bigSep_intro_persistent fun (k : Fin 7) _ => by have h := reached_at (F := F) (c, iR k); rwa [kcell_recv] at h); iexact HR

/-- What stays with device `c`: its positions, the tokens of the duties IT pays, its two idle semaphores. -/
def linear (c : Dev nD) : sProp 𝕄 := iprop(posns c ∗ payToks c ∗ idleSems c)

theorem ghost_intro (K : Dev nD × Fin 15 → ℕ) (c : Dev nD) : iprop(records m K ∗ linear c) ⊢ G' m c := by
  unfold linear G'
  iintro ⟨#HR, Hp, Ht, Hid⟩
  isplitr [Hid]
  swap
  · iexact Hid
  iexists K
  unfold ghost
  isplitr; · iapply (invs_intro m K c); iexact HR
  isplitr; · iapply (marks_intro m K c); iexact HR
  isplitl [Hp]; · iexact Hp
  iexact Ht

omit [FloatOps F] in
theorem bigSep_swap (Φ : Dev nD → Fin 7 → sProp 𝕄) :
    (bigSep Finset.univ fun c => bigSep Finset.univ fun k => Φ c k) = bigSep Finset.univ fun k => bigSep Finset.univ fun c => Φ c k :=
  ((bigSep_univ_prod (fun ck : Dev nD × Fin 7 => Φ ck.1 ck.2)).symm.trans (bigSep_univ_equiv (Equiv.prodComm (Fin 7) (Dev nD)) _)).trans
    (bigSep_univ_prod (fun kc : Fin 7 × Dev nD => Φ kc.2 kc.1))

omit [FloatOps F] in
/-- Summed over all devices, what the device `k + 1` places after each holds is what each holds. -/
theorem bigSep_shift (Φ : Dev nD → Fin 7 → sProp 𝕄) :
    (bigSep Finset.univ fun c => bigSep Finset.univ fun k => Φ c k) = bigSep Finset.univ fun c => bigSep Finset.univ fun k => Φ (sh k c) k := by
  rw [bigSep_swap, bigSep_swap (fun c k => Φ (sh k c) k)]
  exact bigSep_congr fun k _ => bigSep_univ_equiv (shEquiv k) (fun c => Φ c k)

omit [FloatOps F] in
/-- The tokens dealt around the ring: duty `k` of a barrier cell, and the `k`-th receive duty, to the device `k + 1` places
    before the cell's owner; the send duties stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_shift (fun c k => (dutyTok ER (barCell c) 0 k : sProp 𝕄)),
    bigSep_shift (fun c k => (dutyTok ER (recvCell c k) 0 0 : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem posns_eq (c : Dev nD) : (bigSep Finset.univ fun j : Fin 15 => (atPos ER (kcell (c, j)) 0 ∅ 0 : sProp 𝕄)) = posns c := by
  rw [bigSep_fin15]; unfold posns
  simp only [kcell_send, kcell_recv]
  rfl

omit [FloatOps F] in
theorem linear_intro : iprop((bigSep Finset.univ fun c : Dev nD => posns c) ∗ (bigSep Finset.univ fun c : Dev nD => payToks c) ∗ (bigSep Finset.univ fun c : Dev nD => idleSems c))
    ⊢ (bigSep Finset.univ fun c : Dev nD => linear c : sProp 𝕄) := by
  unfold linear; rw [bigSep_sep', bigSep_sep']

theorem regroup :
    (bigSep Finset.univ fun c : Dev nD => iprop((bigSep Finset.univ fun j : Fin 15 => iprop(∃ κ : ℕ, cellInv ER (meanRd m) κ (kcell (c, j))))
          ∗ (bigSep Finset.univ fun j : Fin 15 => iprop(atPos ER (kcell (c, j)) 0 ∅ 0 ∗ reached ER (kcell (c, j)) 0)) ∗ toks c ∗ idleSems c) : sProp 𝕄)
      ⊢ bigSep Finset.univ (G' m) := by
  rw [bigSep_sep', bigSep_sep', bigSep_sep', ← bigSep_univ_prod (fun ck : Dev nD × Fin 15 => iprop(∃ κ : ℕ, cellInv ER (meanRd m) κ (kcell ck))),
    bigSep_congr (s := Finset.univ) (fun (c : Dev nD) _ => bigSep_sep' Finset.univ (fun j : Fin 15 => (atPos ER (kcell (c, j)) 0 ∅ 0 : sProp 𝕄)) (fun j => reached ER (kcell (c, j)) 0)),
    bigSep_sep', ← bigSep_univ_prod (fun ck : Dev nD × Fin 15 => (reached ER (kcell ck) 0 : sProp 𝕄)),
    bigSep_congr (s := Finset.univ) (fun (c : Dev nD) _ => posns_eq (F := F) c)]
  iintro ⟨HI, ⟨Hat, #HR⟩, Htok, Hid⟩
  ihave HK := (BI.bigSep_exists_pi Finset.univ (fun (ck : Dev nD × Fin 15) (κ : ℕ) => (cellInv ER (meanRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact Hid

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit and the theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  unfold G'
  icases HG with ⟨HG, Hid⟩
  imodintro
  unfold start
  isplitl
  · isplitl [HG]; · iexact HG
    isplitl [Hc]; · iexact Hc
    isplitl [Hlev]; · iexact Hlev
    iexact Hid
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ accPts
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁ accPts
  iintro ⟨Hr, Hos⟩
  isplitr; · iempintro
  isplitl [Hos]; · iexact Hos
  iexists (accV m); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: every weakly fair
    execution of @main — the eight kernels signalling each other's barrier cell, then each sending its row of column sums
    to the seven others — terminates, and every final state has each device's windowed arrays at the computed contents. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m c (0 : Fin 2) = m ((c : Thread nD τ).loc main_arg0) :=
  (dats (F := F) m 0 c).arrAt_in (0 : Fin 2) rfl _

/-- The result array after the run holds the mean's block. -/
theorem finalA_out (c : Dev nD) : finalA m c (1 : Fin 2) = outV m := by
  unfold finalA
  have h := (dats (F := F) m 0 c).arrAt_succ (1 : Fin 2) t₀
  rw [flush0_1 t₀, if_pos rfl] at h
  refine (show (dats m 0 c).arrAt 1 cfg0.N = (dats m 0 c).arrAt 1 (t₀.val + 1) from rfl).trans (h.trans ?_)
  exact Memref.write_access_unit_zero_univ (Elt F) _ (funext fun a => by fin_cases a <;> rfl) _ _ _

end Cert.KernelIdealProof

end
-- ==== Proof.Body.lean ====
/-
  The body of the kernel on one device, stepped one rule per effect in program order from the protocol's ghost state:
  seven signals each handing a peer the accumulator's row for that peer's column sums; the block's column sums stored
  into the own row; the wait for the seven barrier units, which brings each peer's row for these sums; the own row's
  share cut in seven pieces, one a transfer; the seven transfers; the seven receive waits, each bringing a peer's sums;
  the seven send waits, each bringing a piece back; the cells closed; the rows joined; the reduction stored.
-/
import proofs.«900940_g7700000000000941_dist_mean_ax0_shard0_i_m1024_n512_v7x_i8_bf16_1_alg».proof.Proof.Levels
import proofs.«900940_g7700000000000941_dist_mean_ax0_shard0_i_m1024_n512_v7x_i8_bf16_1_alg».proof.Proof.Rows
import proofs.«900940_g7700000000000941_dist_mean_ax0_shard0_i_m1024_n512_v7x_i8_bf16_1_alg».proof.Proof.Launch
import Idealize.ShloMosaic.Lib.Tactic

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed semaphore views, by name -/

theorem send_sem_1' : ((cc0_scratch1.slice (Rect.unit (s := S8) ![1] S1.size inb_S8_S1_1)).squeeze S_ squeezes_S1_S_).sem = sendS 0 := by decide
theorem recv_sem_1' : ((cc0_scratch2.slice (Rect.unit (s := S8) ![1] S1.size inb_S8_S1_1)).squeeze S_ squeezes_S1_S_).sem = recvS 0 := by decide
theorem send_sem_2' : ((cc0_scratch1.slice (Rect.unit (s := S8) ![2] S1.size inb_S8_S1_2)).squeeze S_ squeezes_S1_S_).sem = sendS 1 := by decide
theorem recv_sem_2' : ((cc0_scratch2.slice (Rect.unit (s := S8) ![2] S1.size inb_S8_S1_2)).squeeze S_ squeezes_S1_S_).sem = recvS 1 := by decide
theorem send_sem_3' : ((cc0_scratch1.slice (Rect.unit (s := S8) ![3] S1.size inb_S8_S1_3)).squeeze S_ squeezes_S1_S_).sem = sendS 2 := by decide
theorem recv_sem_3' : ((cc0_scratch2.slice (Rect.unit (s := S8) ![3] S1.size inb_S8_S1_3)).squeeze S_ squeezes_S1_S_).sem = recvS 2 := by decide
theorem send_sem_4' : ((cc0_scratch1.slice (Rect.unit (s := S8) ![4] S1.size inb_S8_S1_4)).squeeze S_ squeezes_S1_S_).sem = sendS 3 := by decide
theorem recv_sem_4' : ((cc0_scratch2.slice (Rect.unit (s := S8) ![4] S1.size inb_S8_S1_4)).squeeze S_ squeezes_S1_S_).sem = recvS 3 := by decide
theorem send_sem_5' : ((cc0_scratch1.slice (Rect.unit (s := S8) ![5] S1.size inb_S8_S1_5)).squeeze S_ squeezes_S1_S_).sem = sendS 4 := by decide
theorem recv_sem_5' : ((cc0_scratch2.slice (Rect.unit (s := S8) ![5] S1.size inb_S8_S1_5)).squeeze S_ squeezes_S1_S_).sem = recvS 4 := by decide
theorem send_sem_6' : ((cc0_scratch1.slice (Rect.unit (s := S8) ![6] S1.size inb_S8_S1_6)).squeeze S_ squeezes_S1_S_).sem = sendS 5 := by decide
theorem recv_sem_6' : ((cc0_scratch2.slice (Rect.unit (s := S8) ![6] S1.size inb_S8_S1_6)).squeeze S_ squeezes_S1_S_).sem = recvS 5 := by decide
theorem send_sem_7' : ((cc0_scratch1.slice (Rect.unit (s := S8) ![7] S1.size inb_S8_S1_7)).squeeze S_ squeezes_S1_S_).sem = sendS 6 := by decide
theorem recv_sem_7' : ((cc0_scratch2.slice (Rect.unit (s := S8) ![7] S1.size inb_S8_S1_7)).squeeze S_ squeezes_S1_S_).sem = recvS 6 := by decide

theorem O₀_unfold (c : Dev nD) : O₀ c = 0 + tallyAt (recvCell (sh 6 c) 6) () Nrow + tallyAt (recvCell (sh 5 c) 5) () Nrow + tallyAt (recvCell (sh 4 c) 4) () Nrow
    + tallyAt (recvCell (sh 3 c) 3) () Nrow + tallyAt (recvCell (sh 2 c) 2) () Nrow + tallyAt (recvCell (sh 1 c) 1) () Nrow + tallyAt (recvCell (sh 0 c) 0) () Nrow
    + tallyAt (barCell (sh 6 c)) () 1 + tallyAt (barCell (sh 5 c)) () 1 + tallyAt (barCell (sh 4 c)) () 1 + tallyAt (barCell (sh 3 c)) () 1
    + tallyAt (barCell (sh 2 c)) () 1 + tallyAt (barCell (sh 1 c)) () 1 + tallyAt (barCell (sh 0 c)) () 1 := rfl

theorem OSr7_unfold (c : Dev nD) : OSr c 7 = 0 + tallyAt (recvCell (sh 6 c) 6) () Nrow + tallyAt (recvCell (sh 5 c) 5) () Nrow + tallyAt (recvCell (sh 4 c) 4) () Nrow
    + tallyAt (recvCell (sh 3 c) 3) () Nrow + tallyAt (recvCell (sh 2 c) 2) () Nrow + tallyAt (recvCell (sh 1 c) 1) () Nrow + tallyAt (recvCell (sh 0 c) 0) () Nrow := rfl

/-! ## One rule a kind of step, at the protocol's cells -/

/-- What device `c` hands the device `k + 1` places after it with its `k`-th signal: its own accumulator's row for that
    device's column sums, and that its receive cell for them is open. -/
theorem payload_bar_pay (c : Dev nD) (k : Fin 7) : (meanRd (F := F) m).payload (barCell (sh k c)) 0 k
    = iprop((∃ f, rowPts c (sh k c) fullShare f) ∗ reached ER (recvCell c k.rev) 0) := by
  rw [payload_bar]; unfold barPay
  have h : ∀ p : Dev nD, p = c → (iprop((∃ f, rowPts p (sh k c) fullShare f) ∗ reached ER (recvCell p k.rev) 0) : sProp 𝕄)
      = iprop((∃ f, rowPts c (sh k c) fullShare f) ∗ reached ER (recvCell c k.rev) 0) := by
    intro p hp; subst hp; rfl
  exact h _ (sh_rev_sh k c)

/-- The `k`-th signal. -/
theorem wp_sig (K : Dev nD × Fin 15 → ℕ) (c : Dev nD) (k : Fin 7) {O₁ : CellTallies nD τ sig Unit} (O : CellTallies nD τ sig Unit)
    (hO : O₁ = O + tallyAt (barCell (sh k c)) () 1) {W : Waits sig Unit} {k' : ℕ} (hk : 1 = k')
    {α : Type} {Q : α → sProp 𝕄} {kk : PUnit → Prog (TpuEff nD τ sig (Elt F) Λ₀ .tc) α}
    (f : Buf (Elt F) ((c : Thread nD τ).loc cc0_scratch0)) :
    iprop(cellInv ER (meanRd m) (K (sh k c, 0)) (barCell (sh k c)) ∗ reached ER (barCell (sh k c)) 0 ∗ reached ER (recvCell c k.rev) 0
        ∗ owes (c : Thread nD τ) O₁ W ∗ dutyTok ER (barCell (sh k c)) 0 k ∗ rowPts c (sh k c) fullShare f)
      ⊢ iprop((owes (c : Thread nD τ) O W -∗ wp frame (wpE (defs₀ (F := F)) 𝒱₀ c none) Set.univ (kk ⟨⟩) Q)
          -∗ wp frame (wpE (defs₀ (F := F)) 𝒱₀ c none) Set.univ (.op (.semSignal ((sh k c : Dev nD) : Thread nD τ) barS k') kk) Q) := by
  subst hk
  iintro ⟨#HI, #Hr, #Hrr, HO, Ht, Hrow⟩
  iapply (Rounds.wp_signal 𝒱₀ ER (meanRd m) (c : Thread nD τ) none (dst := (sh k c : Thread nD τ)) (κ := K (sh k c, 0)) (d := k)
      (by rw [duties_bar]; exact Finset.mem_univ _) (amount_bar m (sh k c) k) () O hO) $$ [HO Ht Hrow]
  · isplitr; · iexact HI
    isplitl [HO]; · iexact HO
    isplitl [Ht]; · iexact Ht
    isplitl [Hrow]
    · rw [payload_bar_pay]
      isplitl [Hrow]; · iexists f; iexact Hrow
      iexact Hrr
    · iexact Hr

omit [FloatOps F] in
theorem rowPts_congr_dev {p r r' : Dev nD} (h : r' = r) (q) (f) : rowPts (F := F) p r' q f = rowPts p r q f := by subst h; rfl

abbrev rX : Rect S1024x512 := Rect.unit (s := S1024x512) ![0, 0] S1024x512.size inb_S1024x512_S1024x512_0_0
abbrev rA : Rect S8x512 := Rect.unit (s := S8x512) ![0, 0] S8x512.size inb_S8x512_S8x512_0_0
abbrev rO : Rect S1x512 := Rect.unit (s := S1x512) ![0, 0] S1x512.size inb_S1x512_S1x512_0_0
abbrev xM : Memref sig .tc .vmem S1024x512 .f32 := Memref.whole cc0_stg0_0
abbrev oM : Memref sig .tc .vmem S1x512 .f32 := Memref.whole cc0_stg1_0

/-- The wait for the seven barrier units, owing the seven receive credits: each peer's row for this device's column sums
    comes with it, and that the peer's receive cell is open. -/
theorem wp_barwait (K : Dev nD × Fin 15 → ℕ) (c : Dev nD) {W : Waits sig Unit} {k' : ℕ} (hk : 7 = k')
    {α : Type} {Q : α → sProp 𝕄} {kk : PUnit → Prog (TpuEff nD τ sig (Elt F) Λ₀ .tc) α} :
    iprop(cellInv ER (meanRd m) (K (c, 0)) (barCell c) ∗ levAts L lv ∗ cred (tallyAt (barCell c) () 7) ∗ owes (c : Thread nD τ) (OSr c 7) W
        ∗ atPos ER (barCell c) 0 ∅ 0)
      ⊢ iprop(((owes (c : Thread nD τ) (OSr c 7) (insert (SemLoc.reg barS, ()) W) ∗ atPos ER (barCell c) 1 ∅ 0
              ∗ barPay c 0 ∗ barPay c 1 ∗ barPay c 2 ∗ barPay c 3 ∗ barPay c 4 ∗ barPay c 5 ∗ barPay c 6)
            -∗ wp frame (wpE (defs₀ (F := F)) 𝒱₀ c none) Set.univ (kk ⟨⟩) Q)
          -∗ wp frame (wpE (defs₀ (F := F)) 𝒱₀ c none) Set.univ (.op (.semWait barS k') kk) Q) := by
  subst hk
  iintro ⟨#HI, #Hlev, Hc, HO, Hat⟩ Hk
  iapply (Rounds.wp_wait_rest_token 𝒱₀ ER (meanRd m) (c : Thread nD τ) none (κ := K (c, 0))
      (wpE_semWait_eq 𝒱₀ (c : Thread nD τ) none Set.univ) (Set.mem_univ _) () (O := OSr c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The `k`-th transfer: row `c` at the `k`-th piece of its share, into row `c` of the device `k + 1` places on. -/
theorem wp_snd (K : Dev nD × Fin 15 → ℕ) (c : Dev nD) (k : Fin 7) (n : Dev nD) (hn : n = sh k c) {sS sR : DmaSem sig} (hS : sS = sendS k) (hR : sR = recvS k)
    {hsc : (ownRow c : Memref sig (Dev.tc n : Thread nD τ).2.kind .vmem S1x512 .f32).view.ref.isScScratch = false}
    {hsrc : (ownRow c).view.WordExact} {hdst : (ownRow c).view.WordExact}
    {hsem : DmaTarget.Typed .vmem (.dma sR) (.remote (Dev.tc n : Thread nD τ) (ownRow c) (.dma sS) hsc)}
    {O₁ : CellTallies nD τ sig Unit} (O : CellTallies nD τ sig Unit) (hO : O₁ = O + tallyAt (recvCell (sh k c) k) () Nrow) {W : Waits sig Unit}
    {α : Type} {Q : α → sProp 𝕄} {kk : PUnit → Prog (TpuEff nD τ sig (Elt F) Λ₀ .tc) α}
    (fn : Buf (Elt F) (((sh k c : Dev nD) : Thread nD τ).loc cc0_scratch0)) :
    iprop(cellInv ER (meanRd m) (K (c, iS k)) (sendCell c k) ∗ cellInv ER (meanRd m) (K (sh k c, iR k)) (recvCell (sh k c) k)
        ∗ reached ER (sendCell c k) 0 ∗ reached ER (recvCell (sh k c) k) 0
        ∗ rowPts c c (pieceQ k.val) (accV m) ∗ rowPts (sh k c) c fullShare fn
        ∗ owes (c : Thread nD τ) O₁ W ∗ dutyTok ER (sendCell c k) 0 0 ∗ dutyTok ER (recvCell (sh k c) k) 0 0)
      ⊢ iprop(((cred (tallyAt (sendCell c k) () Nrow) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (ownRow c) (.remote (Dev.tc n : Thread nD τ) (ownRow c) (.dma sS) hsc) (.dma sR) hsrc hdst hsem) kk) Q) := by
  subst hn hS hR
  iintro ⟨#HI1, #HI2, #Hr1, #Hr2, Hsrc, Hdst, HO, Ht1, Ht2⟩
  unfold rowPts
  rw [← ownRow_set c]
  iapply (Rounds.wp_send_pointsTo 𝒱₀ ER (meanRd m) (c : Thread nD τ) none (src := ownRow c) (dst := ownRow c) (c' := ((sh k c : Dev nD) : Thread nD τ))
    (κ₁ := K (c, iS k)) (κ₂ := K (sh k c, iR k)) (q := pieceQ k.val) (fs := accV m)
    (r₁ := 0) (r₂ := 0) (d₁ := 0) (d₂ := 0) (fd := fn)
    (by rw [duties_send]; exact Finset.mem_singleton_self _) (by rw [duties_recv]; exact Finset.mem_singleton_self _)
    () () Nrow rfl (amount_send m c k 0) (amount_recv m (sh k c) k 0) O hO (W := W)
    (by rw [payload_send]; unfold sendPay rowPts; rw [ownRow_set])
    (by rw [payload_recv]; unfold recvPay; rw [landed_row, rowPts_congr_dev (sh_rev_sh k c)])) $$ [Hsrc Hdst HO Ht1 Ht2]
  isplitr; · iexact HI1
  isplitr; · iexact HI2
  isplitl [Hsrc]; · iexact Hsrc
  isplitl [Hdst]; · iexact Hdst
  isplitl [HO]; · iexact HO
  isplitl [Ht1]; · iexact Ht1
  isplitr; · iexact Hr1
  isplitl [Ht2]; · iexact Ht2
  iexact Hr2

/-- A row's transfer puts the same units on a cell whichever row it is. -/
theorem Nrow_slice (off : Fin S8x512.rank → Nat) (inb : ∀ a, off a + S1x512.size a ≤ S8x512.size a)
    (hstr : ∀ a, (Rect.unit (s := S8x512) off S1x512.size inb).stride a = 1) :
    (accM.slice (Rect.unit (s := S8x512) off S1x512.size inb) hstr).view.dmaCredit = Nrow := rfl

/-- The `k`-th receive wait, owing nothing: the row of the device `k + 1` places before, holding its column sums. -/
theorem wp_rcv (K : Dev nD × Fin 15 → ℕ) (c : Dev nD) (k : Fin 7) {s : DmaSem sig} (hs : s = recvS k) {W : Waits sig Unit}
    {src : Memref sig .tc .vmem S1x512 .f32} {off : Fin S8x512.rank → Nat} {inb : ∀ a, off a + S1x512.size a ≤ S8x512.size a}
    {hstr : ∀ a, (Rect.unit (s := S8x512) off S1x512.size inb).stride a = 1}
    {hsrc : src.view.WordExact} {hdst : (accM.slice (Rect.unit (s := S8x512) off S1x512.size inb) hstr).view.WordExact}
    {α : Type} {Q : α → sProp 𝕄} {kk : PUnit → Prog (TpuEff nD τ sig (Elt F) Λ₀ .tc) α} :
    iprop(cellInv ER (meanRd m) (K (c, iR k)) (recvCell c k) ∗ cred (tallyAt (recvCell c k) () Nrow) ∗ owes (c : Thread nD τ) 0 W
        ∗ atPos ER (recvCell c k) 0 ∅ 0)
      ⊢ iprop(((owes (c : Thread nD τ) 0 (insert (SemLoc.dma (recvS k), ()) W) ∗ atPos ER (recvCell c k) 1 ∅ 0 ∗ rowPts c (sh k.rev c) fullShare (accV m))
            -∗ wp frame (wpE (defs₀ (F := F)) 𝒱₀ c none) Set.univ (kk ⟨⟩) Q)
          -∗ wp frame (wpE (defs₀ (F := F)) 𝒱₀ c none) Set.univ (.op (.waitDma2 s src (accM.slice (Rect.unit (s := S8x512) off S1x512.size inb) hstr) hsrc hdst) kk) Q) := by
  subst hs
  have hN := Nrow_slice off inb hstr
  iintro ⟨#HI, Hc, HO, Hat⟩ Hk
  iapply (Rounds.wp_wait_rest_token 𝒱₀ ER (meanRd m) (c : Thread nD τ) none (κ := K (c, iR k))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c k)) $$ Hpay
  iapply Hk
  isplitl [HO]; · iexact HO
  isplitl [Hat]; · iexact Hat
  unfold recvPay; iexact Hp

/-- The `k`-th send wait, owing nothing: the piece of the own row's share that transfer read. -/
theorem wp_swt (K : Dev nD × Fin 15 → ℕ) (c : Dev nD) (k : Fin 7) {s : DmaSem sig} (hs : s = sendS k) {W : Waits sig Unit}
    {src : Memref sig .tc .vmem S1x512 .f32} {off : Fin S8x512.rank → Nat} {inb : ∀ a, off a + S1x512.size a ≤ S8x512.size a}
    {hstr : ∀ a, (Rect.unit (s := S8x512) off S1x512.size inb).stride a = 1}
    {hsrc : src.view.WordExact} {hdst : (accM.slice (Rect.unit (s := S8x512) off S1x512.size inb) hstr).view.WordExact}
    {α : Type} {Q : α → sProp 𝕄} {kk : PUnit → Prog (TpuEff nD τ sig (Elt F) Λ₀ .tc) α} :
    iprop(cellInv ER (meanRd m) (K (c, iS k)) (sendCell c k) ∗ cred (tallyAt (sendCell c k) () Nrow) ∗ owes (c : Thread nD τ) 0 W
        ∗ atPos ER (sendCell c k) 0 ∅ 0)
      ⊢ iprop(((owes (c : Thread nD τ) 0 (insert (SemLoc.dma (sendS k), ()) W) ∗ atPos ER (sendCell c k) 1 ∅ 0 ∗ rowPts c c (pieceQ k.val) (accV m))
            -∗ wp frame (wpE (defs₀ (F := F)) 𝒱₀ c none) Set.univ (kk ⟨⟩) Q)
          -∗ wp frame (wpE (defs₀ (F := F)) 𝒱₀ c none) Set.univ (.op (.waitDma2 s src (accM.slice (Rect.unit (s := S8x512) off S1x512.size inb) hstr) hsrc hdst) kk) Q) := by
  subst hs
  have hN := Nrow_slice off inb hstr
  iintro ⟨#HI, Hc, HO, Hat⟩ Hk
  iapply (Rounds.wp_wait_rest_token 𝒱₀ ER (meanRd m) (c : Thread nD τ) none (κ := K (c, iS k))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c k)) $$ Hpay
  iapply Hk
  isplitl [HO]; · iexact HO
  isplitl [Hat]; · iexact Hat
  unfold sendPay; iexact Hp

/-- A send or receive cell, its one round consumed, closes: its counter at zero is the device's again. -/
theorem close_send (K : Dev nD × Fin 15 → ℕ) (c : Dev nD) (k : Fin 7) :
    iprop(cellInv ER (meanRd m) (K (c, iS k)) (sendCell c k) ∗ atPos ER (sendCell c k) 1 ∅ 0) ⊢ iprop(|={Set.univ}=> semVal (sendCell c k) 0 : sProp 𝕄) :=
  Rounds.cell_close ER (meanRd m) (Set.mem_univ (K (c, iS k))) (fun h => h) (R := 0 + 1) (duties_later m (sendCell c k))
theorem close_recv (K : Dev nD × Fin 15 → ℕ) (c : Dev nD) (k : Fin 7) :
    iprop(cellInv ER (meanRd m) (K (c, iR k)) (recvCell c k) ∗ atPos ER (recvCell c k) 1 ∅ 0) ⊢ iprop(|={Set.univ}=> semVal (recvCell c k) 0 : sProp 𝕄) :=
  Rounds.cell_close ER (meanRd m) (Set.mem_univ (K (c, iR k))) (fun h => h) (R := 0 + 1) (duties_later m (recvCell c k))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 15 → ℕ) (c : Dev nD) : sProp 𝕄 :=
  iprop((ghost m K c ∗ creds0 c ∗ levAts L lv ∗ idleSems c ∗ ∃ f, accPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outV m))

theorem fetch_0 (t : Fin cfg0.N) : (cfg0.win (0 : Fin 2)).fetch t = true := by rw [fin_N t]; rfl

set_option maxHeartbeats 1600000 in
/-- The body on device `c`, one rule per effect in program order. -/
theorem sound_body (K : Dev nD × Fin 15 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  unfold bodyPre ghost invs marks posns payToks creds0 idleSems
  simp only [bigSep_fin7]
  iintro ⟨⟨⟨⟨⟨#HIbar, ⟨#HIs0, #HIs1, #HIs2, #HIs3, #HIs4, #HIs5, #HIs6⟩, ⟨#HIr0, #HIr1, #HIr2, #HIr3, #HIr4, #HIr5, #HIr6⟩, ⟨#HIbn0, #HIbn1, #HIbn2, #HIbn3, #HIbn4, #HIbn5, #HIbn6⟩, ⟨#HIrn0, #HIrn1, #HIrn2, #HIrn3, #HIrn4, #HIrn5, #HIrn6⟩⟩, ⟨⟨#HrBn0, #HrBn1, #HrBn2, #HrBn3, #HrBn4, #HrBn5, #HrBn6⟩, ⟨#HrRn0, #HrRn1, #HrRn2, #HrRn3, #HrRn4, #HrRn5, #HrRn6⟩, ⟨#HrS0, #HrS1, #HrS2, #HrS3, #HrS4, #HrS5, #HrS6⟩, ⟨#HrR0, #HrR1, #HrR2, #HrR3, #HrR4, #HrR5, #HrR6⟩⟩, ⟨HatB, ⟨HatS0, HatS1, HatS2, HatS3, HatS4, HatS5, HatS6⟩, ⟨HatR0, HatR1, HatR2, HatR3, HatR4, HatR5, HatR6⟩⟩, ⟨⟨HtB0, HtB1, HtB2, HtB3, HtB4, HtB5, HtB6⟩, ⟨HtRn0, HtRn1, HtRn2, HtRn3, HtRn4, HtRn5, HtRn6⟩, ⟨HtS0, HtS1, HtS2, HtS3, HtS4, HtS5, HtS6⟩⟩⟩, ⟨HcB, ⟨HcR0, HcR1, HcR2, HcR3, HcR4, HcR5, HcR6⟩⟩, #Hlev, ⟨Hi2, Hi10⟩, ⟨%f0, Hacc⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl, O₀_unfold]
  -- the accumulator by rows: its own, and one for each peer's column sums
  ihave Hrows := ((acc_rows c f0).1) $$ Hacc
  rw [bigSep_fin7]
  icases Hrows with ⟨Hown, Hr0, Hr1, Hr2, Hr3, Hr4, Hr5, Hr6⟩
  -- signal 0: the device 1 places on gets this accumulator's row for its column sums
  iapply (wp_sig m K c 0 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1 + tallyAt (barCell (sh 4 c)) () 1 + tallyAt (barCell (sh 3 c)) () 1 + tallyAt (barCell (sh 2 c)) () 1 + tallyAt (barCell (sh 1 c)) () 1) rfl (by decide) f0) $$ [HO HtB0 Hr0]
  · isplitr; · iexact HIbn0
    isplitr; · iexact HrBn0
    isplitr; · iexact HrR6
    isplitl [HO]; · iexact HO
    isplitl [HtB0]; · iexact HtB0
    iexact Hr0
  iintro HO
  -- signal 1: the device 2 places on gets this accumulator's row for its column sums
  iapply (wp_sig m K c 1 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1 + tallyAt (barCell (sh 4 c)) () 1 + tallyAt (barCell (sh 3 c)) () 1 + tallyAt (barCell (sh 2 c)) () 1) rfl (by decide) f0) $$ [HO HtB1 Hr1]
  · isplitr; · iexact HIbn1
    isplitr; · iexact HrBn1
    isplitr; · iexact HrR5
    isplitl [HO]; · iexact HO
    isplitl [HtB1]; · iexact HtB1
    iexact Hr1
  iintro HO
  -- signal 2: the device 3 places on gets this accumulator's row for its column sums
  iapply (wp_sig m K c 2 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1 + tallyAt (barCell (sh 4 c)) () 1 + tallyAt (barCell (sh 3 c)) () 1) rfl (by decide) f0) $$ [HO HtB2 Hr2]
  · isplitr; · iexact HIbn2
    isplitr; · iexact HrBn2
    isplitr; · iexact HrR4
    isplitl [HO]; · iexact HO
    isplitl [HtB2]; · iexact HtB2
    iexact Hr2
  iintro HO
  -- signal 3: the device 4 places on gets this accumulator's row for its column sums
  iapply (wp_sig m K c 3 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1 + tallyAt (barCell (sh 4 c)) () 1) rfl (by decide) f0) $$ [HO HtB3 Hr3]
  · isplitr; · iexact HIbn3
    isplitr; · iexact HrBn3
    isplitr; · iexact HrR3
    isplitl [HO]; · iexact HO
    isplitl [HtB3]; · iexact HtB3
    iexact Hr3
  iintro HO
  -- signal 4: the device 5 places on gets this accumulator's row for its column sums
  iapply (wp_sig m K c 4 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1) rfl (by decide) f0) $$ [HO HtB4 Hr4]
  · isplitr; · iexact HIbn4
    isplitr; · iexact HrBn4
    isplitr; · iexact HrR2
    isplitl [HO]; · iexact HO
    isplitl [HtB4]; · iexact HtB4
    iexact Hr4
  iintro HO
  simp only [k0_part2_eq_skeleton]; unfold k0_part2_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- signal 5: the device 6 places on gets this accumulator's row for its column sums
  iapply (wp_sig m K c 5 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1) rfl (by decide) f0) $$ [HO HtB5 Hr5]
  · isplitr; · iexact HIbn5
    isplitr; · iexact HrBn5
    isplitr; · iexact HrR1
    isplitl [HO]; · iexact HO
    isplitl [HtB5]; · iexact HtB5
    iexact Hr5
  iintro HO
  -- signal 6: the device 7 places on gets this accumulator's row for its column sums
  iapply (wp_sig m K c 6 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow) rfl (by decide) f0) $$ [HO HtB6 Hr6]
  · isplitr; · iexact HIbn6
    isplitr; · iexact HrBn6
    isplitr; · iexact HrR0
    isplitl [HO]; · iexact HO
    isplitl [HtB6]; · iexact HtB6
    iexact Hr6
  iintro HO
  -- the block's column sums into the own row
  iapply (wp_load 𝒱₀ (c : Thread nD τ) none Set.univ (m := xM) (Finset.subset_univ _)) $$ Hx; iintro Hx
  rw [in_whole_read]
  unfold rowPts
  iapply (wp_load 𝒱₀ (c : Thread nD τ) none Set.univ (m := accM) (load_fp c)) $$ Hown; iintro Hown
  iapply (wp_store 𝒱₀ (c : Thread nD τ) none Set.univ (m := accM) (r := r1 c) (Mk := Finset.univ) (store_fp c)) $$ Hown; iintro Hown
  ihave Hown := (Entails.of_eq (stored_row m c f0)) $$ Hown
  -- the wait for the seven barrier units: each peer's row for these column sums
  iapply (wp_barwait m K c (by decide)) $$ [HcB HO HatB]
  · isplitr; · iexact HIbar
    isplitr; · iexact Hlev
    isplitl [HcB]; · iexact HcB
    isplitl [HO]; · rw [OSr7_unfold]; iexact HO
    iexact HatB
  iintro ⟨HO, HatB, Hp0, Hp1, Hp2, Hp3, Hp4, Hp5, Hp6⟩
  rw [OSr7_unfold]
  unfold barPay
  icases Hp0 with ⟨⟨%fn0, Hd0⟩, #Hq0'⟩
  icases Hp1 with ⟨⟨%fn1, Hd1⟩, #Hq1'⟩
  icases Hp2 with ⟨⟨%fn2, Hd2⟩, #Hq2'⟩
  icases Hp3 with ⟨⟨%fn3, Hd3⟩, #Hq3'⟩
  icases Hp4 with ⟨⟨%fn4, Hd4⟩, #Hq4'⟩
  icases Hp5 with ⟨⟨%fn5, Hd5⟩, #Hq5'⟩
  icases Hp6 with ⟨⟨%fn6, Hd6⟩, #Hq6'⟩
  -- the own row's share in seven pieces, one a transfer
  ihave Hsh := ((row_shares c c (accV m)).1) $$ Hown
  rw [bigSep_fin7]
  icases Hsh with ⟨⟨Hq0, Hq1, Hq2, Hq3, Hq4, Hq5, Hq6⟩, Hrest⟩
  -- transfer 0
  iapply (wp_snd m K c 0 _ (dev8_eq c) send_sem_1' recv_sem_1' (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow) rfl fn6) $$ [Hq0 Hd6 HO HtS0 HtRn0]
  · isplitr; · iexact HIs0
    isplitr; · iexact HIrn0
    isplitr; · iexact HrS0
    isplitr; · iexact HrRn0
    isplitl [Hq0]; · iexact Hq0
    isplitl [Hd6]; · iexact Hd6
    isplitl [HO]; · iexact HO
    isplitl [HtS0]; · iexact HtS0
    iexact HtRn0
  iintro ⟨HcS0, HO⟩
  simp only [k0_part3_eq_skeleton]; unfold k0_part3_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- transfer 1
  iapply (wp_snd m K c 1 _ (dev9_eq c) send_sem_2' recv_sem_2' (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow) rfl fn5) $$ [Hq1 Hd5 HO HtS1 HtRn1]
  · isplitr; · iexact HIs1
    isplitr; · iexact HIrn1
    isplitr; · iexact HrS1
    isplitr; · iexact HrRn1
    isplitl [Hq1]; · iexact Hq1
    isplitl [Hd5]; · iexact Hd5
    isplitl [HO]; · iexact HO
    isplitl [HtS1]; · iexact HtS1
    iexact HtRn1
  iintro ⟨HcS1, HO⟩
  -- transfer 2
  iapply (wp_snd m K c 2 _ (dev10_eq c) send_sem_3' recv_sem_3' (0 + tallyAt (recvCell (sh 6 c) 6) () Nrow + tallyAt (recvCell (sh 5 c) 5) () Nrow + tallyAt (recvCell (sh 4 c) 4) () Nrow + tallyAt (recvCell (sh 3 c) 3) () Nrow) rfl fn4) $$ [Hq2 Hd4 HO HtS2 HtRn2]
  · isplitr; · iexact HIs2
    isplitr; · iexact HIrn2
    isplitr; · iexact HrS2
    isplitr; · iexact HrRn2
    isplitl [Hq2]; · iexact Hq2
    isplitl [Hd4]; · iexact Hd4
    isplitl [HO]; · iexact HO
    isplitl [HtS2]; · iexact HtS2
    iexact HtRn2
  iintro ⟨HcS2, HO⟩
  -- transfer 3
  iapply (wp_snd m K c 3 _ (dev11_eq c) send_sem_4' recv_sem_4' (0 + tallyAt (recvCell (sh 6 c) 6) () Nrow + tallyAt (recvCell (sh 5 c) 5) () Nrow + tallyAt (recvCell (sh 4 c) 4) () Nrow) rfl fn3) $$ [Hq3 Hd3 HO HtS3 HtRn3]
  · isplitr; · iexact HIs3
    isplitr; · iexact HIrn3
    isplitr; · iexact HrS3
    isplitr; · iexact HrRn3
    isplitl [Hq3]; · iexact Hq3
    isplitl [Hd3]; · iexact Hd3
    isplitl [HO]; · iexact HO
    isplitl [HtS3]; · iexact HtS3
    iexact HtRn3
  iintro ⟨HcS3, HO⟩
  simp only [k0_part4_eq_skeleton]; unfold k0_part4_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- transfer 4
  iapply (wp_snd m K c 4 _ (dev12_eq c) send_sem_5' recv_sem_5' (0 + tallyAt (recvCell (sh 6 c) 6) () Nrow + tallyAt (recvCell (sh 5 c) 5) () Nrow) rfl fn2) $$ [Hq4 Hd2 HO HtS4 HtRn4]
  · isplitr; · iexact HIs4
    isplitr; · iexact HIrn4
    isplitr; · iexact HrS4
    isplitr; · iexact HrRn4
    isplitl [Hq4]; · iexact Hq4
    isplitl [Hd2]; · iexact Hd2
    isplitl [HO]; · iexact HO
    isplitl [HtS4]; · iexact HtS4
    iexact HtRn4
  iintro ⟨HcS4, HO⟩
  -- transfer 5
  iapply (wp_snd m K c 5 _ (dev13_eq c) send_sem_6' recv_sem_6' (0 + tallyAt (recvCell (sh 6 c) 6) () Nrow) rfl fn1) $$ [Hq5 Hd1 HO HtS5 HtRn5]
  · isplitr; · iexact HIs5
    isplitr; · iexact HIrn5
    isplitr; · iexact HrS5
    isplitr; · iexact HrRn5
    isplitl [Hq5]; · iexact Hq5
    isplitl [Hd1]; · iexact Hd1
    isplitl [HO]; · iexact HO
    isplitl [HtS5]; · iexact HtS5
    iexact HtRn5
  iintro ⟨HcS5, HO⟩
  -- transfer 6
  iapply (wp_snd m K c 6 _ (dev14_eq c) send_sem_7' recv_sem_7' (0) rfl fn0) $$ [Hq6 Hd0 HO HtS6 HtRn6]
  · isplitr; · iexact HIs6
    isplitr; · iexact HIrn6
    isplitr; · iexact HrS6
    isplitr; · iexact HrRn6
    isplitl [Hq6]; · iexact Hq6
    isplitl [Hd0]; · iexact Hd0
    isplitl [HO]; · iexact HO
    isplitl [HtS6]; · iexact HtS6
    iexact HtRn6
  iintro ⟨HcS6, HO⟩
  simp only [k0_part5_eq_skeleton]; unfold k0_part5_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- receive wait 0
  iapply (wp_rcv m K c 0 recv_sem_1') $$ [HcR0 HO HatR0]
  · isplitr; · iexact HIr0
    isplitl [HcR0]; · iexact HcR0
    isplitl [HO]; · iexact HO
    iexact HatR0
  iintro ⟨HO, HatR0, Hrow0⟩
  -- receive wait 1
  iapply (wp_rcv m K c 1 recv_sem_2') $$ [HcR1 HO HatR1]
  · isplitr; · iexact HIr1
    isplitl [HcR1]; · iexact HcR1
    isplitl [HO]; · iexact HO
    iexact HatR1
  iintro ⟨HO, HatR1, Hrow1⟩
  -- receive wait 2
  iapply (wp_rcv m K c 2 recv_sem_3') $$ [HcR2 HO HatR2]
  · isplitr; · iexact HIr2
    isplitl [HcR2]; · iexact HcR2
    isplitl [HO]; · iexact HO
    iexact HatR2
  iintro ⟨HO, HatR2, Hrow2⟩
  simp only [k0_part6_eq_skeleton]; unfold k0_part6_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- receive wait 3
  iapply (wp_rcv m K c 3 recv_sem_4') $$ [HcR3 HO HatR3]
  · isplitr; · iexact HIr3
    isplitl [HcR3]; · iexact HcR3
    isplitl [HO]; · iexact HO
    iexact HatR3
  iintro ⟨HO, HatR3, Hrow3⟩
  -- receive wait 4
  iapply (wp_rcv m K c 4 recv_sem_5') $$ [HcR4 HO HatR4]
  · isplitr; · iexact HIr4
    isplitl [HcR4]; · iexact HcR4
    isplitl [HO]; · iexact HO
    iexact HatR4
  iintro ⟨HO, HatR4, Hrow4⟩
  -- receive wait 5
  iapply (wp_rcv m K c 5 recv_sem_6') $$ [HcR5 HO HatR5]
  · isplitr; · iexact HIr5
    isplitl [HcR5]; · iexact HcR5
    isplitl [HO]; · iexact HO
    iexact HatR5
  iintro ⟨HO, HatR5, Hrow5⟩
  -- receive wait 6
  iapply (wp_rcv m K c 6 recv_sem_7') $$ [HcR6 HO HatR6]
  · isplitr; · iexact HIr6
    isplitl [HcR6]; · iexact HcR6
    isplitl [HO]; · iexact HO
    iexact HatR6
  iintro ⟨HO, HatR6, Hrow6⟩
  simp only [k0_part7_eq_skeleton]; unfold k0_part7_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- send wait 0
  iapply (wp_swt m K c 0 send_sem_1') $$ [HcS0 HO HatS0]
  · isplitr; · iexact HIs0
    isplitl [HcS0]; · iexact HcS0
    isplitl [HO]; · iexact HO
    iexact HatS0
  iintro ⟨HO, HatS0, Hpc0⟩
  -- send wait 1
  iapply (wp_swt m K c 1 send_sem_2') $$ [HcS1 HO HatS1]
  · isplitr; · iexact HIs1
    isplitl [HcS1]; · iexact HcS1
    isplitl [HO]; · iexact HO
    iexact HatS1
  iintro ⟨HO, HatS1, Hpc1⟩
  -- send wait 2
  iapply (wp_swt m K c 2 send_sem_3') $$ [HcS2 HO HatS2]
  · isplitr; · iexact HIs2
    isplitl [HcS2]; · iexact HcS2
    isplitl [HO]; · iexact HO
    iexact HatS2
  iintro ⟨HO, HatS2, Hpc2⟩
  -- send wait 3
  iapply (wp_swt m K c 3 send_sem_4') $$ [HcS3 HO HatS3]
  · isplitr; · iexact HIs3
    isplitl [HcS3]; · iexact HcS3
    isplitl [HO]; · iexact HO
    iexact HatS3
  iintro ⟨HO, HatS3, Hpc3⟩
  -- send wait 4
  iapply (wp_swt m K c 4 send_sem_5') $$ [HcS4 HO HatS4]
  · isplitr; · iexact HIs4
    isplitl [HcS4]; · iexact HcS4
    isplitl [HO]; · iexact HO
    iexact HatS4
  iintro ⟨HO, HatS4, Hpc4⟩
  -- send wait 5
  iapply (wp_swt m K c 5 send_sem_6') $$ [HcS5 HO HatS5]
  · isplitr; · iexact HIs5
    isplitl [HcS5]; · iexact HcS5
    isplitl [HO]; · iexact HO
    iexact HatS5
  iintro ⟨HO, HatS5, Hpc5⟩
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- send wait 6
  iapply (wp_swt m K c 6 send_sem_7') $$ [HcS6 HO HatS6]
  · isplitr; · iexact HIs6
    isplitl [HcS6]; · iexact HcS6
    isplitl [HO]; · iexact HO
    iexact HatS6
  iintro ⟨HO, HatS6, Hpc6⟩
  -- the fourteen cells close: their counters at zero are the device's again
  imod (close_send m K c 0) $$ [HatS0] with HzS0
  · isplitr; · iexact HIs0
    iexact HatS0
  imod (close_recv m K c 0) $$ [HatR0] with HzR0
  · isplitr; · iexact HIr0
    iexact HatR0
  imod (close_send m K c 1) $$ [HatS1] with HzS1
  · isplitr; · iexact HIs1
    iexact HatS1
  imod (close_recv m K c 1) $$ [HatR1] with HzR1
  · isplitr; · iexact HIr1
    iexact HatR1
  imod (close_send m K c 2) $$ [HatS2] with HzS2
  · isplitr; · iexact HIs2
    iexact HatS2
  imod (close_recv m K c 2) $$ [HatR2] with HzR2
  · isplitr; · iexact HIr2
    iexact HatR2
  imod (close_send m K c 3) $$ [HatS3] with HzS3
  · isplitr; · iexact HIs3
    iexact HatS3
  imod (close_recv m K c 3) $$ [HatR3] with HzR3
  · isplitr; · iexact HIr3
    iexact HatR3
  imod (close_send m K c 4) $$ [HatS4] with HzS4
  · isplitr; · iexact HIs4
    iexact HatS4
  imod (close_recv m K c 4) $$ [HatR4] with HzR4
  · isplitr; · iexact HIr4
    iexact HatR4
  imod (close_send m K c 5) $$ [HatS5] with HzS5
  · isplitr; · iexact HIs5
    iexact HatS5
  imod (close_recv m K c 5) $$ [HatR5] with HzR5
  · isplitr; · iexact HIr5
    iexact HatR5
  imod (close_send m K c 6) $$ [HatS6] with HzS6
  · isplitr; · iexact HIs6
    iexact HatS6
  imod (close_recv m K c 6) $$ [HatR6] with HzR6
  · isplitr; · iexact HIr6
    iexact HatR6
  -- the own row's seven pieces and the rest are its full share again; the eight rows are the accumulator
  ihave Hown := ((row_shares c c (accV m)).2) $$ [Hpc0 Hpc1 Hpc2 Hpc3 Hpc4 Hpc5 Hpc6 Hrest]
  · rw [bigSep_fin7]
    isplitr [Hrest]
    · isplitl [Hpc0]; · iexact Hpc0
      isplitl [Hpc1]; · iexact Hpc1
      isplitl [Hpc2]; · iexact Hpc2
      isplitl [Hpc3]; · iexact Hpc3
      isplitl [Hpc4]; · iexact Hpc4
      isplitl [Hpc5]; · iexact Hpc5
      iexact Hpc6
    · iexact Hrest
  ihave Hacc := ((acc_rows c (accV m)).2) $$ [Hown Hrow0 Hrow1 Hrow2 Hrow3 Hrow4 Hrow5 Hrow6]
  · rw [bigSep_fin7]
    isplitl [Hown]; · iexact Hown
    isplitl [Hrow6]; · iexact Hrow6
    isplitl [Hrow5]; · iexact Hrow5
    isplitl [Hrow4]; · iexact Hrow4
    isplitl [Hrow3]; · iexact Hrow3
    isplitl [Hrow2]; · iexact Hrow2
    isplitl [Hrow1]; · iexact Hrow1
    iexact Hrow0
  -- the eight rows reduced, scaled, stored
  unfold accPts
  iapply (wp_load 𝒱₀ (c : Thread nD τ) none Set.univ (m := accM) (Finset.subset_univ _)) $$ Hacc; iintro Hacc
  rw [acc_whole_read]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [out_whole_write, wp_ret]; imodintro
  iapply Hk
  unfold bodyPost Φ₁ accPts Dat.owesAt Pipeline.owesWithin
  rw [show (dats m 0 c).owed t₀.succ = 0 from rfl]
  isplitl [Hacc Hi2 Hi10 HzS0 HzS1 HzS2 HzS3 HzS4 HzS5 HzS6 HzR0 HzR1 HzR2 HzR3 HzR4 HzR5 HzR6]
  · isplitl [Hacc]; · iexact Hacc
    rw [ownSems0_eq]
    isplitl [Hi2]; · iexact Hi2
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [Hi10]; · iexact Hi10
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6

  isplitl [HO]
  · iexists (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))))
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The pipeline's body obligation on device `c`: the body from what the launch and the staging hand it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hcr, Hlev, Hidle⟩, Hacc⟩, Ho, Hx, Hout⟩
  iapply (sound_body m K c fun _ => bodyPost m c)
  unfold bodyPre
  isplitr []
  · isplitl [Hg Hcr Hlev Hidle Hacc]
    · isplitl [Hg]; · iexact Hg
      isplitl [Hcr]; · iexact Hcr
      isplitl [Hlev]; · iexact Hlev
      isplitl [Hidle]; · iexact Hidle
      iexact Hacc
    isplitl [Ho]; · iexact Ho
    isplitl [Hx] <;> iassumption
  · iintro H; iexact H

/-- The run on the eight devices: every weakly fair execution terminates, every device's result array holds the scaled
    sum of the eight rows of column sums, and the argument arrays are unchanged. -/
theorem run_value : θ_run defs (onTc (τ := τ) (main (F := F))) ⟨m, fun _ => 0, ρ⟩ (fun r => ∀ c : Dev nD,
    r.2.mem ((c.tc : Thread nD τ).loc main_v1) = outV m
    ∧ r.2.mem ((c.tc : Thread nD τ).loc main_arg0) = m ((c.tc : Thread nD τ).loc main_arg0)) :=
  (θ_run defs _ _).mono (fun r h c => ⟨(h c (1 : Fin 2)).trans (finalA_out m c), (h c (0 : Fin 2)).trans (finalA_x m c)⟩)
    (run_main m ρ (body_obligation m))

/-- info: 'Cert.KernelIdealProof.run_value' depends on axioms: [propext, Classical.choice, Quot.sound] -/
#guard_msgs in #print axioms run_value

end Cert.KernelIdealProof

end
-- ==== Proof.Bits.Proto.lean ====
/-
  The mean over the rows of an array cut in eight row blocks, one block a device: the cross-device protocol.
  Device `c` signals every other device's barrier cell once, writes the column sums of its block into row `c` of
  its 8 × 512 accumulator, waits for its seven barrier units, sends row `c` to row `c` of each other device's
  accumulator (seven transfers on seven send / receive cell pairs), waits for the seven rows sent to it and for its
  own seven sends, and reduces the eight rows. `sh k c` is the device `k + 1` places after `c` on the ring of eight.
-/
import proofs.«900940_g7700000000000941_dist_mean_ax0_shard0_i_m1024_n512_v7x_i8_bf16_1_alg».proof.Proof.Gen.Kernel.Frame
import proofs.«900940_g7700000000000941_dist_mean_ax0_shard0_i_m1024_n512_v7x_i8_bf16_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The ring of eight -/

/-- The device `k + 1` places after `c`. -/
def sh (k : Fin 7) (c : Dev nD) : Dev nD := ⟨(c.val + k.val + 1) % 8, Nat.mod_lt _ (by decide)⟩

theorem sh_rev_sh (k : Fin 7) (c : Dev nD) : sh k.rev (sh k c) = c := by revert k c; decide
theorem sh_sh_rev (k : Fin 7) (c : Dev nD) : sh k (sh k.rev c) = c := by revert k c; decide
theorem sh_ne (k : Fin 7) (c : Dev nD) : sh k c ≠ c := by revert k c; decide
theorem sh_inj_k (c : Dev nD) {k k' : Fin 7} (h : sh k c = sh k' c) : k = k' := by revert k k' c; decide
theorem sh_inj_c (k : Fin 7) {c c' : Dev nD} (h : sh k c = sh k c') : c = c' := by
  have := congrArg (sh k.rev) h; rwa [sh_rev_sh, sh_rev_sh] at this

def shEquiv (k : Fin 7) : Dev nD ≃ Dev nD := ⟨sh k, sh k.rev, sh_rev_sh k, sh_sh_rev k⟩

/-- The kernel's `device_id` chains: the `k`-th signal and the `k`-th transfer name `sh k c`. -/
theorem dev1_eq (c : Dev nD) : (⟨k0_dev1 c, k0_dev1_lt c⟩ : Dev nD) = sh 0 c := Fin.ext (k0_dev1_eq c)
theorem dev2_eq (c : Dev nD) : (⟨k0_dev2 c, k0_dev2_lt c⟩ : Dev nD) = sh 1 c := Fin.ext (k0_dev2_eq c)
theorem dev3_eq (c : Dev nD) : (⟨k0_dev3 c, k0_dev3_lt c⟩ : Dev nD) = sh 2 c := Fin.ext (k0_dev3_eq c)
theorem dev4_eq (c : Dev nD) : (⟨k0_dev4 c, k0_dev4_lt c⟩ : Dev nD) = sh 3 c := Fin.ext (k0_dev4_eq c)
theorem dev5_eq (c : Dev nD) : (⟨k0_dev5 c, k0_dev5_lt c⟩ : Dev nD) = sh 4 c := Fin.ext (k0_dev5_eq c)
theorem dev6_eq (c : Dev nD) : (⟨k0_dev6 c, k0_dev6_lt c⟩ : Dev nD) = sh 5 c := Fin.ext (k0_dev6_eq c)
theorem dev7_eq (c : Dev nD) : (⟨k0_dev7 c, k0_dev7_lt c⟩ : Dev nD) = sh 6 c := Fin.ext (k0_dev7_eq c)
theorem dev8_eq (c : Dev nD) : (⟨k0_dev8 c, k0_dev8_lt c⟩ : Dev nD) = sh 0 c := Fin.ext (k0_dev8_eq c)
theorem dev9_eq (c : Dev nD) : (⟨k0_dev9 c, k0_dev9_lt c⟩ : Dev nD) = sh 1 c := Fin.ext (k0_dev9_eq c)
theorem dev10_eq (c : Dev nD) : (⟨k0_dev10 c, k0_dev10_lt c⟩ : Dev nD) = sh 2 c := Fin.ext (k0_dev10_eq c)
theorem dev11_eq (c : Dev nD) : (⟨k0_dev11 c, k0_dev11_lt c⟩ : Dev nD) = sh 3 c := Fin.ext (k0_dev11_eq c)
theorem dev12_eq (c : Dev nD) : (⟨k0_dev12 c, k0_dev12_lt c⟩ : Dev nD) = sh 4 c := Fin.ext (k0_dev12_eq c)
theorem dev13_eq (c : Dev nD) : (⟨k0_dev13 c, k0_dev13_lt c⟩ : Dev nD) = sh 5 c := Fin.ext (k0_dev13_eq c)
theorem dev14_eq (c : Dev nD) : (⟨k0_dev14 c, k0_dev14_lt c⟩ : Dev nD) = sh 6 c := Fin.ext (k0_dev14_eq c)

/-! ## The semaphores and cells -/

abbrev accM : Memref sig .tc .vmem S8x512 .f32 := Memref.whole cc0_scratch0

/-- The runtime's barrier semaphore of collective id 0 (unscoped). -/
abbrev barS : Sem sig := (SemArray.scalar (sig.barrier 0 rfl) : Sems sig S_).sem

/-- Entry `k + 1` of the send and of the receive semaphore arrays. -/
def sendS (k : Fin 7) : DmaSem sig := ⟨3 + k.val, by have := k.isLt; show 3 + k.val < 18; omega⟩
def recvS (k : Fin 7) : DmaSem sig := ⟨11 + k.val, by have := k.isLt; show 11 + k.val < 18; omega⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- Which send (receive) semaphore a DMA semaphore is, if any. -/
def sendIdx (q : DmaSem sig) : Option (Fin 7) := if h : 3 ≤ q.val ∧ q.val < 10 then some ⟨q.val - 3, by omega⟩ else none
def recvIdx (q : DmaSem sig) : Option (Fin 7) := if h : 11 ≤ q.val ∧ q.val < 18 then some ⟨q.val - 11, by omega⟩ else none

theorem sendIdx_sendS (k : Fin 7) : sendIdx (sendS k) = some k := by revert k; decide
theorem recvIdx_recvS (k : Fin 7) : recvIdx (recvS k) = some k := by revert k; decide
theorem sendIdx_recvS (k : Fin 7) : sendIdx (recvS k) = none := by revert k; decide
theorem recvIdx_sendS (k : Fin 7) : recvIdx (sendS k) = none := by revert k; decide

/-- The printed semaphore views are these. -/
theorem send_sem_1 : ((cc0_scratch1.slice (Rect.unit (s := S8) ![1] S1.size inb_S8_S1_1)).squeeze S_ squeezes_S1_S_).sem = sendS 0 := by decide
theorem recv_sem_1 : ((cc0_scratch2.slice (Rect.unit (s := S8) ![1] S1.size inb_S8_S1_1)).squeeze S_ squeezes_S1_S_).sem = recvS 0 := by decide

/-! ## Rows of the accumulator -/

/-- Row `c` of the accumulator as device `c` addresses it: the source of its transfers and their destination on each peer. -/
abbrev ownRow (c : Dev nD) : Memref sig .tc .vmem S1x512 .f32 :=
  accM.slice (Rect.unit (s := S8x512) (k0_off2 c) S1x512.size (k0_off2_inb c)) (fun _ => rfl)

/-- Row `r` of the accumulator as a set of its elements. -/
def rowSet (r : Dev nD) : Finset S8x512.Idx :=
  (Rect.unit (s := S8x512) ![r.val, 0] S1x512.size (by revert r; decide)).set

theorem mem_unit_row {r : Dev nD} {off : Fin S8x512.rank → Nat} (h : off = ![r.val, 0]) {inb} {i : S8x512.Idx} :
    i ∈ (Rect.unit (s := S8x512) off S1x512.size inb).set ↔ (i 0).val = r.val := by
  subst h
  rw [Rect.mem_set_unit]
  constructor
  · intro h; have := h 0; simp only [Matrix.cons_val_zero] at this; have h2 : S1x512.size 0 = 1 := rfl; omega
  · intro h a
    fin_cases a
    · have h2 : S1x512.size (0 : Fin 2) = 1 := rfl
      simp only [Fin.zero_eta, Matrix.cons_val_zero, h2]; omega
    · have h2 : S1x512.size (1 : Fin 2) = 512 := rfl
      have := (i 1).isLt
      have h3 : S8x512.size (1 : Fin 2) = 512 := rfl
      simp only [Fin.mk_one, Matrix.cons_val_one, Matrix.cons_val_zero, h2]; omega

theorem mem_rowSet {r : Dev nD} {i : S8x512.Idx} : i ∈ rowSet r ↔ (i 0).val = r.val := mem_unit_row rfl

theorem ownRow_set (c : Dev nD) : (ownRow c).view.set = rowSet c := by
  show ((View.whole cc0_scratch0).slice _).set = _
  rw [View.set_slice_whole]
  ext i
  rw [mem_rowSet, mem_unit_row (k0_off2_eq c)]

/-- The row the `k`-th receive wait names: the row of the device `k + 1` places before. -/
abbrev peerRow (c : Dev nD) (k : Fin 7) : Memref sig .tc .vmem S1x512 .f32 :=
  accM.slice (Rect.unit (s := S8x512) (k0_off3 c (BitVec.ofNat 32 (1 + k.val))) S1x512.size (k0_off3_inb c k)) (fun _ => rfl)

theorem off3_eq (c : Dev nD) (k : Fin 7) : k0_off3 c (BitVec.ofNat 32 (1 + k.val)) = ![(sh k.rev c).val, 0] := by
  rw [k0_off3_eq]; revert k c; decide

theorem peerRow_set (c : Dev nD) (k : Fin 7) : (peerRow c k).view.set = rowSet (sh k.rev c) := by
  show ((View.whole cc0_scratch0).slice _).set = _
  rw [View.set_slice_whole]
  ext i
  rw [mem_rowSet, mem_unit_row (off3_eq c k)]

theorem rowSet_disjoint {r r' : Dev nD} (h : r ≠ r') : Disjoint (rowSet r) (rowSet r') := by
  rw [Finset.disjoint_left]; intro i hi hi'
  rw [mem_rowSet] at hi hi'; exact h (Fin.ext (hi.symm.trans hi'))

theorem rowSet_cover : (Finset.univ : Finset S8x512.Idx) = (Finset.univ : Finset (Dev nD)).biUnion rowSet := by
  ext i
  simp only [Finset.mem_univ, Finset.mem_biUnion, true_and, true_iff]
  exact ⟨⟨(i 0).val, (i 0).isLt⟩, mem_rowSet.mpr rfl⟩

/-! ## Contents -/

/-- Device `c`'s block of the argument array, as its staging buffer holds it. -/
def xstg (c : Dev nD) : (cc0_stg0_0 : Ref sig .tc).ty.Contents (Elt F) :=
  (win0_0.blk (0 : Fin 1)).view.read (Elt F) (m ((c : Thread nD τ).loc main_arg0))

/-- The accumulator every device ends with: row `r` the column sums of device `r`'s block. -/
def accV : (cc0_scratch0 : Ref sig .tc).ty.Contents (Elt F) :=
  fun i => k0_pay2 (xstg m ⟨(i 0).val, (i 0).isLt⟩) (ValueIdx.ix2 0 (i 1))

/-- The kernel's result on every device. -/
def outV : (cc0_stg1_0 : Ref sig .tc).ty.Contents (Elt F) := k0_pay1 (accV m)

/-! ## Shares: the source row is read by seven transfers at once -/

def restQ : ℕ → PosShare TreeShare
  | 0 => fullShare
  | n + 1 => (restQ n).right
def pieceQ (n : ℕ) : PosShare TreeShare := (restQ n).left

/-- Row `r` of device `p`'s accumulator at share `q` and contents `f`. -/
def rowPts (p r : Dev nD) (q : PosShare TreeShare) (f : Buf (Elt F) ((p : Thread nD τ).loc cc0_scratch0)) : sProp 𝕄 :=
  ((p : Thread nD τ).loc cc0_scratch0) ↦[rowSet r]{q} f

omit [FloatOps F] in
instance rowPts_storable (p r : Dev nD) (q) (f) : BI.Storable (upEmb : UEmb _ 𝕄) (rowPts (F := F) p r q f) := by unfold rowPts; infer_instance

omit [FloatOps F] in
theorem rowPts_split (p r : Dev nD) (n : ℕ) (f) :
    rowPts (F := F) p r (restQ n) f ⊣⊢ iprop(rowPts p r (pieceQ n) f ∗ rowPts p r (restQ (n + 1)) f) :=
  pointsTo_share (PosShare.mem_left_op_right (restQ n))

/-! ## The schedule: one round a cell -/

/-- The units one row's transfer puts on a DMA cell. -/
def Nrow : ℕ := (ownRow (0 : Dev nD)).view.dmaCredit
theorem Nrow_own (c : Dev nD) : (ownRow c).view.dmaCredit = Nrow := rfl
theorem Nrow_peer (c : Dev nD) (k : Fin 7) : (peerRow c k).view.dmaCredit = Nrow := rfl
theorem Nrow_pos : 0 < Nrow := View.dmaCredit_pos _ (by decide)

/-- What the device `d + 1` places BEFORE `c` hands `c` with its barrier signal: row `c` of its own accumulator, to be
    written by `c`'s transfer, and that its receive cell for that transfer is at round 0. -/
def barPay (c : Dev nD) (d : Fin 7) : sProp 𝕄 :=
  iprop((∃ f, rowPts (sh d.rev c) c fullShare f) ∗ reached ER (recvCell (sh d.rev c) d.rev) 0)
/-- What lands with the `k`-th receive: the row of the device `k + 1` places before, holding that device's column sums. -/
def recvPay (c : Dev nD) (k : Fin 7) : sProp 𝕄 := rowPts c (sh k.rev c) fullShare (accV m)
/-- What comes back with the `k`-th send: the share of the own row that transfer read. -/
def sendPay (c : Dev nD) (k : Fin 7) : sProp 𝕄 := rowPts c c (pieceQ k.val) (accV m)

abbrev IsBar (g : GSem nD τ sig) : Prop := g.1.2 = .tc ∧ g.2 = .reg barS
def isXferSem : SemLoc sig → Bool
  | .dma q => (sendIdx q).isSome || (recvIdx q).isSome
  | .reg _ => false
abbrev IsXfer (g : GSem nD τ sig) : Prop := g.1.2 = .tc ∧ isXferSem g.2 = true

def meanRd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else Nrow
  payload g _ d := match g.2 with
    | .reg _ => barPay g.1.1 d
    | .dma q => match sendIdx q with
      | some k => sendPay m g.1.1 k
      | none => match recvIdx q with
        | some k => recvPay m g.1.1 k
        | none => iprop(emp)
  amount_pos g _ _ _ := by
    by_cases h : g.2 = .reg barS
    · rw [if_pos h]; exact Nat.one_pos
    · rw [if_neg h]; exact Nrow_pos

instance meanRd_payload_storable (g : GSem nD τ sig) (r : ℕ) (d : Fin 7) :
    BI.Storable (upEmb : UEmb _ 𝕄) ((meanRd (F := F) m).payload g r d) := by
  show BI.Storable upEmb (match g.2 with
    | .reg _ => barPay g.1.1 d
    | .dma q => match sendIdx q with
      | some k => sendPay m g.1.1 k
      | none => match recvIdx q with
        | some k => recvPay m g.1.1 k
        | none => iprop(emp))
  unfold barPay recvPay sendPay
  (repeat' split) <;> infer_instance

section Sched
variable (c : Dev nD) (k : Fin 7)

theorem send_ne_bar : (SemLoc.dma (sendS k) : SemLoc sig) ≠ .reg barS := fun h => by cases h
theorem recv_ne_bar : (SemLoc.dma (recvS k) : SemLoc sig) ≠ .reg barS := fun h => by cases h
theorem send_ne_recv (k' : Fin 7) : (SemLoc.dma (sendS k) : SemLoc sig) ≠ .dma (recvS k') := by revert k k'; decide
theorem not_bar_send : ¬ IsBar (sendCell c k) := fun h => send_ne_bar k h.2
theorem not_bar_recv : ¬ IsBar (recvCell c k) := fun h => recv_ne_bar k h.2
theorem xfer_send : IsXfer (sendCell c k) := ⟨rfl, by show ((sendIdx (sendS k)).isSome || _) = true; rw [sendIdx_sendS]; rfl⟩
theorem xfer_recv : IsXfer (recvCell c k) := ⟨rfl, by show (_ || (recvIdx (recvS k)).isSome) = true; rw [recvIdx_recvS]; simp⟩

theorem duties_bar : (meanRd (F := F) m).duties (barCell c) 0 = Finset.univ := by dsimp only [meanRd]; exact if_pos ⟨rfl, rfl, rfl⟩
theorem duties_send : (meanRd (F := F) m).duties (sendCell c k) 0 = {0} := by
  dsimp only [meanRd]; rw [if_neg (fun h => not_bar_send c k h.2)]; exact if_pos ⟨rfl, xfer_send c k⟩
theorem duties_recv : (meanRd (F := F) m).duties (recvCell c k) 0 = {0} := by
  dsimp only [meanRd]; rw [if_neg (fun h => not_bar_recv c k h.2)]; exact if_pos ⟨rfl, xfer_recv c k⟩
theorem duties_later (g : GSem nD τ sig) : ∀ r, 1 ≤ r → (meanRd (F := F) m).duties g r = ∅ :=
  fun r hr => by dsimp only [meanRd]; rw [if_neg fun h => by omega, if_neg fun h => by omega]

theorem amount_bar (d : Fin 7) : (meanRd (F := F) m).amount (barCell c) 0 d = 1 := by dsimp only [meanRd]; exact if_pos rfl
theorem amount_send (d : Fin 7) : (meanRd (F := F) m).amount (sendCell c k) 0 d = Nrow := by dsimp only [meanRd]; exact if_neg (send_ne_bar k)
theorem amount_recv (d : Fin 7) : (meanRd (F := F) m).amount (recvCell c k) 0 d = Nrow := by dsimp only [meanRd]; exact if_neg (recv_ne_bar k)

theorem expect_bar : (meanRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (meanRd (F := F) m).expect (sendCell c k) 0 = Nrow := by
  unfold Schedule.expect Schedule.amountOf; rw [duties_send, Finset.sum_singleton, amount_send]
theorem expect_recv : (meanRd (F := F) m).expect (recvCell c k) 0 = Nrow := by
  unfold Schedule.expect Schedule.amountOf; rw [duties_recv, Finset.sum_singleton, amount_recv]

theorem payload_bar (d : Fin 7) : (meanRd (F := F) m).payload (barCell c) 0 d = barPay c d := rfl
theorem payload_send (d : Fin 7) : (meanRd (F := F) m).payload (sendCell c k) 0 d = sendPay m c k := by
  show (match sendIdx (sendS k) with | some k => sendPay m c k | none => _) = _
  rw [sendIdx_sendS]
theorem payload_recv (d : Fin 7) : (meanRd (F := F) m).payload (recvCell c k) 0 d = recvPay m c k := by
  show (match sendIdx (recvS k) with | some k => sendPay m c k | none => match recvIdx (recvS k) with | some k => recvPay m c k | none => _) = _
  rw [sendIdx_recvS, recvIdx_recvS]

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem rest_bar : bigSep ((meanRd (F := F) m).duties (barCell c) 0 \ ∅) (fun d => (meanRd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7]; rfl
theorem rest_send : bigSep ((meanRd (F := F) m).duties (sendCell c k) 0 \ ∅) (fun d => (meanRd (F := F) m).payload (sendCell c k) 0 d) = sendPay m c k := by
  rw [Finset.sdiff_empty, duties_send, bigSep_singleton, payload_send]
theorem rest_recv : bigSep ((meanRd (F := F) m).duties (recvCell c k) 0 \ ∅) (fun d => (meanRd (F := F) m).payload (recvCell c k) 0 d) = recvPay m c k := by
  rw [Finset.sdiff_empty, duties_recv, bigSep_singleton, payload_recv]

end Sched

/-! ## What a device owes at launch; the levels -/

def fin7 (n : ℕ) : Fin 7 := ⟨n % 7, Nat.mod_lt _ (by decide)⟩

/-- The receive credit of the `k`-th transfer, and the barrier unit of the `k`-th signal. -/
def tS (c : Dev nD) (k : Fin 7) : CellTallies nD τ sig Unit := tallyAt (recvCell (sh k c) k) () Nrow
def tB (c : Dev nD) (k : Fin 7) : CellTallies nD τ sig Unit := tallyAt (barCell (sh k c)) () 1

/-- What is still owed with `j` transfers to go (the last `j` of the seven), summed so that the next one peels off. -/
def OSr (c : Dev nD) : ℕ → CellTallies nD τ sig Unit
  | 0 => 0
  | j + 1 => OSr c j + tS c (fin7 (6 - j))
/-- And with `j` signals to go, all seven transfers after them. -/
def OBr (c : Dev nD) : ℕ → CellTallies nD τ sig Unit
  | 0 => OSr c 7
  | j + 1 => OBr c j + tB c (fin7 (6 - j))
def O₀ (c : Dev nD) : CellTallies nD τ sig Unit := OBr c 7

def L (g : GSem nD τ sig) : Finset Unit := if g.1.2 = .tc then {()} else ∅
def isRecvSem : SemLoc sig → Bool
  | .dma q => (recvIdx q).isSome
  | .reg _ => false
/-- Barrier cells at 1, receive cells at 2, everything else (staging, send) at 0. -/
def lv (g : GSem nD τ sig) (_ : Unit) : ℕ := if g.2 = .reg barS then 1 else if isRecvSem g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 7) : lv (recvCell c k) () = 2 := by
  unfold lv; rw [if_neg (recv_ne_bar k)]; show (if (recvIdx (recvS k)).isSome = true then 2 else 0) = 2; rw [recvIdx_recvS]; rfl

end Cert.KernelProof

end
-- ==== Proof.Bits.Data.lean ====
/-
  The protocol's ghost state and the pipeline's proof data: which cell invariants, positions, round marks, duty tokens
  and credit a device's body starts from, what its staging buffers hold before and after, what it owes.
-/
import proofs.«900940_g7700000000000941_dist_mean_ax0_shard0_i_m1024_n512_v7x_i8_bf16_1_alg».proof.Proof.Bits.Proto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's fifteen cells, indexed: the barrier cell, the seven send cells, the seven receive cells -/

def iS (k : Fin 7) : Fin 15 := ⟨k.val + 1, by omega⟩
def iR (k : Fin 7) : Fin 15 := ⟨k.val + 8, by omega⟩
def csem (j : Fin 15) : SemLoc sig :=
  if h : j.val = 0 then .reg barS
  else if h' : j.val < 8 then .dma (sendS ⟨j.val - 1, by omega⟩)
  else .dma (recvS ⟨j.val - 8, by omega⟩)
abbrev kcell (ck : Dev nD × Fin 15) : GSem nD τ sig := ((ck.1 : Thread nD τ), csem ck.2)

theorem csem_zero : csem 0 = .reg barS := rfl
theorem csem_iS (k : Fin 7) : csem (iS k) = .dma (sendS k) := by revert k; decide
theorem csem_iR (k : Fin 7) : csem (iR k) = .dma (recvS k) := by revert k; decide
theorem kcell_bar (c : Dev nD) : kcell (c, 0) = barCell c := rfl
theorem kcell_send (c : Dev nD) (k : Fin 7) : kcell (c, iS k) = sendCell c k := by show (_, csem (iS k)) = _; rw [csem_iS]
theorem kcell_recv (c : Dev nD) (k : Fin 7) : kcell (c, iR k) = recvCell c k := by show (_, csem (iR k)) = _; rw [csem_iR]
theorem csem_injective : Function.Injective csem := by decide

/-- The kernel's OWN (scoped) semaphores, as the launch indexes them: the sixteen DMA semaphores of its two arrays. -/
abbrev osem : Fin 16 → SemLoc sig := fun j => .dma ⟨j.val + 2, by have := j.isLt; show j.val + 2 < 18; omega⟩
/-- Entry 0 of each array: no transfer uses it. -/
def idleSems (c : Dev nD) : sProp 𝕄 :=
  iprop(semVal ((c : Thread nD τ), .dma (⟨2, by decide⟩ : DmaSem sig)) 0 ∗ semVal ((c : Thread nD τ), .dma (⟨10, by decide⟩ : DmaSem sig)) 0)

/-! ## The ghost state a device's body starts from -/

/-- The invariants device `c` opens: its own fifteen cells', each peer's barrier cell (its signals) and the peer's
    receive cell its transfer credits. -/
def invs (K : Dev nD × Fin 15 → ℕ) (c : Dev nD) : sProp 𝕄 :=
  iprop(cellInv ER (meanRd m) (K (c, 0)) (barCell c)
    ∗ (bigSep Finset.univ fun k : Fin 7 => cellInv ER (meanRd m) (K (c, iS k)) (sendCell c k))
    ∗ (bigSep Finset.univ fun k : Fin 7 => cellInv ER (meanRd m) (K (c, iR k)) (recvCell c k))
    ∗ (bigSep Finset.univ fun k : Fin 7 => cellInv ER (meanRd m) (K (sh k c, 0)) (barCell (sh k c)))
    ∗ (bigSep Finset.univ fun k : Fin 7 => cellInv ER (meanRd m) (K (sh k c, iR k)) (recvCell (sh k c) k)))

instance invs_persistent (K : Dev nD × Fin 15 → ℕ) (c : Dev nD) : BI.Persistent (invs m K c) := by unfold invs; infer_instance

/-- The round marks device `c` needs: of the cells it pays, and of its own send and receive cells. -/
def marks (c : Dev nD) : sProp 𝕄 :=
  iprop((bigSep Finset.univ fun k : Fin 7 => reached ER (barCell (sh k c)) 0)
    ∗ (bigSep Finset.univ fun k : Fin 7 => reached ER (recvCell (sh k c) k) 0)
    ∗ (bigSep Finset.univ fun k : Fin 7 => reached ER (sendCell c k) 0)
    ∗ (bigSep Finset.univ fun k : Fin 7 => reached ER (recvCell c k) 0))

instance marks_persistent (c : Dev nD) : BI.Persistent (marks (F := F) c) := by unfold marks; infer_instance

/-- Its positions: round 0 of each of its fifteen cells. -/
def posns (c : Dev nD) : sProp 𝕄 :=
  iprop(atPos ER (barCell c) 0 ∅ 0
    ∗ (bigSep Finset.univ fun k : Fin 7 => atPos ER (sendCell c k) 0 ∅ 0)
    ∗ (bigSep Finset.univ fun k : Fin 7 => atPos ER (recvCell c k) 0 ∅ 0))

/-- The tokens of the duties IT pays: duty `k` of the barrier cell of the device `k + 1` places after it, that device's
    `k`-th receive duty, its own seven send duties. -/
def payToks (c : Dev nD) : sProp 𝕄 :=
  iprop((bigSep Finset.univ fun k : Fin 7 => dutyTok ER (barCell (sh k c)) 0 k)
    ∗ (bigSep Finset.univ fun k : Fin 7 => dutyTok ER (recvCell (sh k c) k) 0 0)
    ∗ (bigSep Finset.univ fun k : Fin 7 => dutyTok ER (sendCell c k) 0 0))

def ghost (K : Dev nD × Fin 15 → ℕ) (c : Dev nD) : sProp 𝕄 :=
  iprop(invs m K c ∗ marks c ∗ posns c ∗ payToks c)

/-- Its launch credit: the barrier's seven units, each receive cell's row credit. -/
def creds0 (c : Dev nD) : sProp 𝕄 :=
  iprop(cred (tallyAt (barCell c) () 7) ∗ bigSep Finset.univ fun k : Fin 7 => cred (tallyAt (recvCell c k) () Nrow))

/-- What device `c`'s body starts from, beside the pipeline's: the ghost state at some names, the credit, the levels. -/
def start (c : Dev nD) : sProp 𝕄 :=
  iprop((∃ K, ghost m K c) ∗ creds0 c ∗ levAts L lv ∗ idleSems c)

/-- The whole accumulator of device `c` at contents `f`. -/
def accPts (c : Dev nD) (f : Buf (Elt F) ((c : Thread nD τ).loc cc0_scratch0)) : sProp 𝕄 :=
  (((c : Thread nD τ).loc cc0_scratch0) ↦{fullShare} f : sProp 𝕄)

def Φ₀ (c : Dev nD) : sProp 𝕄 := iprop(start m c ∗ ∃ f, accPts c f)
/-- After the point: the accumulator holding every device's column sums, the sixteen own semaphores at zero again. -/
def Φ₁ (c : Dev nD) : sProp 𝕄 :=
  iprop(accPts c (accV m) ∗ Pipeline.ownSems0 (Ix := Unit) (Name := ℕ) (U := UU) (Lvl := ℕ) (Val := Elt F) (τ := τ) osem c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelProof

end
-- ==== Proof.Bits.Levels.lean ====
/-
  Levels and launch credit of the mean protocol: what a device still owes sits strictly above the cell it waits on,
  and the credit the launch deals a device is its barrier cell's seven units and each receive cell's row credit.
-/
import proofs.«900940_g7700000000000941_dist_mean_ax0_shard0_i_m1024_n512_v7x_i8_bf16_1_alg».proof.Proof.Bits.Data

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the owed tallies are non-zero -/

theorem tS_pos {c : Dev nD} {k : Fin 7} {g : GSem nD τ sig} {u : Unit} (h : 0 < tS c k g u) : g = recvCell (sh k c) k := by
  unfold tS at h
  rw [tallyAt_apply] at h
  by_contra hn
  rw [if_neg (fun h' => hn h'.1)] at h
  exact Nat.lt_irrefl 0 h

theorem tB_pos {c : Dev nD} {k : Fin 7} {g : GSem nD τ sig} {u : Unit} (h : 0 < tB c k g u) : g = barCell (sh k c) := by
  unfold tB at h
  rw [tallyAt_apply] at h
  by_contra hn
  rw [if_neg (fun h' => hn h'.1)] at h
  exact Nat.lt_irrefl 0 h

/-- With transfers still to go a device owes receive cells only. -/
theorem OSr_pos {c : Dev nD} : ∀ (j : ℕ) {g : GSem nD τ sig} {u : Unit}, 0 < OSr c j g u → ∃ k, g = recvCell (sh k c) k
  | 0, g, u, h => absurd h (Nat.lt_irrefl 0)
  | j + 1, g, u, h => by
    have h' : 0 < OSr c j g u + tS c (fin7 (6 - j)) g u := h
    rcases Nat.eq_zero_or_pos (OSr c j g u) with h0 | h0
    · rw [h0, Nat.zero_add] at h'; exact ⟨_, tS_pos h'⟩
    · exact OSr_pos j h0

/-- With signals still to go it owes receive cells and barrier cells. -/
theorem OBr_pos {c : Dev nD} : ∀ (j : ℕ) {g : GSem nD τ sig} {u : Unit}, 0 < OBr c j g u →
    (∃ k, g = recvCell (sh k c) k) ∨ ∃ k, g = barCell (sh k c)
  | 0, g, u, h => Or.inl (OSr_pos 7 h)
  | j + 1, g, u, h => by
    have h' : 0 < OBr c j g u + tB c (fin7 (6 - j)) g u := h
    rcases Nat.eq_zero_or_pos (OBr c j g u) with h0 | h0
    · rw [h0, Nat.zero_add] at h'; exact Or.inr ⟨_, tB_pos h'⟩
    · exact OBr_pos j h0

theorem O₀_pos {c : Dev nD} {g : GSem nD τ sig} {u : Unit} (h : 0 < O₀ c g u) :
    (∃ k, g = recvCell (sh k c) k) ∨ ∃ k, g = barCell (sh k c) := OBr_pos 7 h

/-! ## Waiting is allowed -/

omit [FloatOps F] in
/-- At its barrier wait a device owes receive credit only: receive cells lie above its barrier cell. -/
theorem mayWait_bar (c : Dev nD) : (levAts L lv : sProp 𝕄) ⊢ MayWait (c : Thread nD τ) (.reg barS) () (OSr c 7) :=
  MayOwe.of_cut (L := L) (lev := lv) 1 (fun p hp => by rw [Finset.mem_singleton.mp hp, L_tc]; exact Finset.mem_singleton_self _)
    (fun g u hg => by obtain ⟨k, rfl⟩ := OSr_pos 7 hg; exact Finset.mem_singleton_self _)
    (fun p hp => by rw [Finset.mem_singleton.mp hp]; dsimp only [lv]; rw [if_pos rfl])
    (fun g u hg => by obtain ⟨k, rfl⟩ := OSr_pos 7 hg; rw [lv_recv]; decide)

omit [FloatOps F] in
/-- A staging or send cell of the device is at level 0, below everything the device can owe. -/
theorem mayWait_stage (c : Dev nD) (q : DmaSem sig) (hq : isRecvSem (.dma q) = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv]
        rw [if_neg (fun h => by cases h), if_neg (fun h => by rw [hq] at h; cases h)])
      (fun g u hg => by
        rcases O₀_pos hg with ⟨k, rfl⟩ | ⟨k, rfl⟩
        · rw [lv_recv]; decide
        · rw [lv_bar]; decide)
  · rw [MayWait_zero]; iintro -; iempintro

/-! ## The launch credit -/

/-- What a device owes at launch, as one sum: each transfer's receive credit and each signal's unit. -/
theorem OSr_eq (c : Dev nD) : OSr c 7 = ∑ k : Fin 7, tS c k := by
  rw [Fin.sum_univ_seven]
  show 0 + tS c 6 + tS c 5 + tS c 4 + tS c 3 + tS c 2 + tS c 1 + tS c 0 = _
  abel

theorem O₀_eq : (O₀ : Dev nD → CellTallies nD τ sig Unit) = fun d => (∑ k : Fin 7, tS d k) + ∑ k : Fin 7, tB d k := funext fun d => by
  rw [← OSr_eq, Fin.sum_univ_seven]
  show OSr d 7 + tB d 6 + tB d 5 + tB d 4 + tB d 3 + tB d 2 + tB d 1 + tB d 0 = _
  abel

theorem sum_units (g : GSem nD τ sig) : (∑ k : Fin 7, (tallyAt g () 1 : CellTallies nD τ sig Unit)) = tallyAt g () 7 := by
  rw [Fin.sum_univ_seven, tallyAt_add, tallyAt_add, tallyAt_add, tallyAt_add, tallyAt_add, tallyAt_add]

omit [FloatOps F] in
/-- The launch deals a device its barrier cell's seven units (one from each other device) and each receive cell's row
    credit (from the device that many places before). -/
theorem creds (c : Dev nD) : (Pipeline.launchCred O₀ c : sProp 𝕄) ⊢ creds0 c := by
  rw [O₀_eq, Pipeline.launchCred_add, Pipeline.launchCred_sum, Pipeline.launchCred_sum]
  unfold creds0
  refine BI.Entails.trans BI.sep_comm (BI.sep_mono ?_ ?_)
  · rw [← sum_units, Pipeline.cred_finsetSum]
    exact bigSep_mono fun k _ => Pipeline.launchCred_tallyAt (.reg barS) (sh k) (sh k.rev) (sh_sh_rev k) (sh_rev_sh k) () 1 c
  · exact bigSep_mono fun k _ => Pipeline.launchCred_tallyAt (.dma (recvS k)) (sh k) (sh k.rev) (sh_sh_rev k) (sh_rev_sh k) () Nrow c

end Cert.KernelProof

end
-- ==== Proof.Bits.Rows.lean ====
/-
  The 8 × 512 accumulator as eight rows, one a device: the whole buffer is its eight rows, the eight devices are
  one device and the seven after it on the ring, a row held whole is seven reader's shares and a rest, and what a
  row holds after a device stores its column sums there or after a peer's row lands there.
-/
import proofs.«900940_g7700000000000941_dist_mean_ax0_shard0_i_m1024_n512_v7x_i8_bf16_1_alg».proof.Proof.Bits.Data

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The eight devices: one, and the seven after it on the ring -/

/-- Every device other than `c` is some number `k + 1 ≤ 7` of places after `c`. -/
theorem erase_eq_map_sh (c : Dev nD) :
    (Finset.univ : Finset (Dev nD)).erase c
      = (Finset.univ : Finset (Fin 7)).map ⟨fun k => sh k c, fun _ _ h => sh_inj_k c h⟩ := by
  ext d
  rw [Finset.mem_erase, Finset.mem_map]
  constructor
  · rintro ⟨hne, -⟩
    obtain ⟨k, hk⟩ := (by decide : ∀ c d : Dev nD, d ≠ c → ∃ k : Fin 7, sh k c = d) c d hne
    exact ⟨k, Finset.mem_univ _, hk⟩
  · rintro ⟨k, -, rfl⟩
    exact ⟨sh_ne k c, Finset.mem_univ _⟩

/-- A separating conjunction over the eight devices: device `c`'s part and the parts of the seven after it. -/
theorem bigSep_dev_split (c : Dev nD) (Φ : Dev nD → sProp 𝕄) :
    bigSep Finset.univ Φ = iprop(Φ c ∗ bigSep Finset.univ fun k : Fin 7 => Φ (sh k c)) := by
  rw [bigSep_univ_split c, erase_eq_map_sh c, bigSep_map]
  rfl

/-! ## The accumulator is its eight rows -/

theorem rows_disj : ∀ i ∈ (Finset.univ : Finset (Dev nD)), ∀ j ∈ (Finset.univ : Finset (Dev nD)),
    i ≠ j → Disjoint (rowSet i) (rowSet j) :=
  fun i _ j _ h => rowSet_disjoint h

/-- The accumulator held whole is its eight rows held. -/
theorem acc_rows_eq (c : Dev nD) (f : Buf (Elt F) ((c : Thread nD τ).loc cc0_scratch0)) :
    accPts (F := F) c f = bigSep Finset.univ fun r : Dev nD => rowPts c r fullShare f := by
  unfold accPts rowPts
  rw [← pointsTo_biUnion Finset.univ (ℓ := (c : Thread nD τ).loc cc0_scratch0) rowSet rows_disj, ← rowSet_cover]; try rfl

/-- The accumulator held whole is the own row and the seven peers' rows. -/
theorem acc_rows (c : Dev nD) (f : Buf (Elt F) ((c : Thread nD τ).loc cc0_scratch0)) :
    accPts (F := F) c f
      ⊣⊢ iprop(rowPts c c fullShare f ∗ bigSep Finset.univ fun k : Fin 7 => rowPts c (sh k c) fullShare f) :=
  have e := (acc_rows_eq (F := F) c f).trans (bigSep_dev_split c fun r => rowPts c r fullShare f)
  ⟨.of_eq e, .of_eq e.symm⟩

/-! ## A row held whole is seven readers' shares and a rest -/

theorem eq_of_equiv {P Q : sProp 𝕄} (h : P ⊣⊢ Q) : P = Q := BI.equiv_iff.mp ⟨h.1, h.2⟩

/-- Peeling `n` left halves off the full share leaves the `n` pieces and the rest. -/
theorem row_shares_range (p r : Dev nD) (f : Buf (Elt F) ((p : Thread nD τ).loc cc0_scratch0)) (n : ℕ) :
    rowPts (F := F) p r fullShare f
      = iprop((bigSep (Finset.range n) fun k => rowPts p r (pieceQ k) f) ∗ rowPts p r (restQ n) f) := by
  induction n with
  | zero =>
    rw [Finset.range_zero, bigSep_empty]
    exact (eq_of_equiv emp_sep).symm
  | succ n ih =>
    rw [Finset.range_add_one, bigSep_insert Finset.notMem_range_self]
    refine ih.trans ?_
    rw [eq_of_equiv (rowPts_split (F := F) p r n f)]
    exact (eq_of_equiv sep_left_comm).trans (eq_of_equiv sep_assoc).symm

theorem range7_eq : Finset.range 7 = (Finset.univ : Finset (Fin 7)).map Fin.valEmbedding := by
  ext x
  rw [Finset.mem_range, Finset.mem_map]
  exact ⟨fun h => ⟨⟨x, h⟩, Finset.mem_univ _, rfl⟩, fun ⟨k, _, hk⟩ => hk ▸ k.isLt⟩

/-- A row held whole: the seven shares its seven readers take, and what is left. -/
theorem row_shares (p r : Dev nD) (f : Buf (Elt F) ((p : Thread nD τ).loc cc0_scratch0)) :
    rowPts (F := F) p r fullShare f
      ⊣⊢ iprop((bigSep Finset.univ fun k : Fin 7 => rowPts p r (pieceQ k.val) f) ∗ rowPts p r (restQ 7) f) := by
  have e := row_shares_range (F := F) p r f 7
  rw [range7_eq, bigSep_map] at e
  exact ⟨.of_eq e, .of_eq e.symm⟩

/-! ## What a row holds after a peer's row lands, and after the device stores its own -/

/-- A row written whole with what the same row reads of `fs` holds `fs` on that row. -/
theorem landed_row (p c : Dev nD) (fd : Buf (Elt F) ((ownRow c).view.loc (p : Thread nD τ)))
    (fs : Buf (Elt F) ((ownRow c).view.loc (c : Thread nD τ))) :
    ((((ownRow c).view.loc (p : Thread nD τ)) ↦[(ownRow c).view.set]{fullShare}
        ((ownRow c).view.write (Elt F) fd ((ownRow c).view.read (Elt F) fs) Finset.univ)) : sProp 𝕄)
      = rowPts p c fullShare fs := by
  unfold rowPts
  rw [View.write_read_eq_piecewise, ownRow_set]
  exact pointsTo_congr fun i hi => Finset.piecewise_eq_of_mem _ _ _ (by rw [View.setOn_univ, ownRow_set]; exact hi)

/-- The rectangle of the kernel's store of its column sums (and of the load before it): row `c`. -/
abbrev r1 (c : Dev nD) : Rect S8x512 := Rect.unit (s := S8x512) (k0_off1 c) S1x512.size (k0_off1_inb c)

theorem r1_set (c : Dev nD) : (accM.access (r1 c)).set = rowSet c := by
  show ((View.whole cc0_scratch0).slice _).set = _
  rw [View.set_slice_whole]
  ext i
  rw [mem_rowSet, mem_unit_row (k0_off1_eq c)]

theorem store_fp (c : Dev nD) : (accM.access (r1 c)).setOn Finset.univ ⊆ rowSet c := (r1_set c).subset

theorem load_fp (c : Dev nD) : accM.view.setOn (r1 c).toLoadRect.set ⊆ rowSet c := by
  rw [← r1_set c, View.set_slice]
  exact Finset.Subset.refl _

/-- The final accumulator at column `y 1` of row `c`: device `c`'s column sums there. -/
theorem accV_emb (c : Dev nD) {off : Fin S8x512.rank → Nat} (h : off = ![c.val, 0])
    (inb : ∀ a, off a + S1x512.size a ≤ S8x512.size a) (y : S1x512.Idx) :
    accV m ((accM.access (Rect.unit (s := S8x512) off S1x512.size inb)).emb y) = k0_pay2 (xstg m c) y := by
  subst h
  have h0 : (y 0).val = 0 := by
    have := (y 0).isLt
    have h2 : S1x512.size 0 = 1 := rfl
    omega
  unfold accV
  refine congr (congrArg (fun d : Dev nD => k0_pay2 (xstg m d)) (Fin.ext ?_)) (funext fun a => ?_)
  · show c.val + 1 * (y 0).val = c.val
    omega
  · match a with
    | ⟨0, _⟩ => exact Fin.ext h0.symm
    | ⟨1, _⟩ => exact Fin.ext (by show 0 + 1 * (y 1).val = (y 1).val; omega)

/-- Row `c` after device `c` stores its column sums there holds the final accumulator's row `c`. -/
theorem stored_row (c : Dev nD) (f : Buf (Elt F) ((c : Thread nD τ).loc cc0_scratch0)) :
    ((((c : Thread nD τ).loc cc0_scratch0) ↦[rowSet c]{fullShare}
        ((accM.access (r1 c)).write (Elt F) f (k0_pay2 (xstg m c)) Finset.univ)) : sProp 𝕄)
      = rowPts c c fullShare (accV m) := by
  unfold rowPts
  refine pointsTo_congr fun i hi => ?_
  rw [← r1_set c] at hi
  obtain ⟨y, rfl⟩ := View.exists_emb_of_mem_set _ hi
  rw [View.write_emb_of_mem _ _ (Finset.mem_univ y), cast_eq]
  exact (accV_emb m c (k0_off1_eq c) _ y).symm

/-! ## Whole-buffer loads and the whole-buffer store -/

theorem zero_off : (![0, 0] : Fin 2 → Nat) = fun _ => 0 := funext fun a => by fin_cases a <;> rfl

/-- The load of the whole accumulator reads its contents. -/
theorem acc_whole_read (f : (cc0_scratch0 : Ref sig .tc).ty.Contents (Elt F)) :
    accM.view.readAt (Elt F) (Rect.unit (s := S8x512) ![0, 0] S8x512.size inb_S8x512_S8x512_0_0).toLoadRect f = f :=
  Memref.readAt_unit_zero (Elt F) cc0_scratch0 zero_off _ f

/-- The load of the whole input staging buffer reads its contents. -/
theorem in_whole_read (f : (cc0_stg0_0 : Ref sig .tc).ty.Contents (Elt F)) :
    (Memref.whole cc0_stg0_0 : Memref sig .tc .vmem S1024x512 .f32).view.readAt (Elt F)
      (Rect.unit (s := S1024x512) ![0, 0] S1024x512.size inb_S1024x512_S1024x512_0_0).toLoadRect f = f :=
  Memref.readAt_unit_zero (Elt F) cc0_stg0_0 zero_off _ f

/-- The store of the whole output staging buffer leaves the payload. -/
theorem out_whole_write (f w : (cc0_stg1_0 : Ref sig .tc).ty.Contents (Elt F)) :
    ((Memref.whole cc0_stg1_0 : Memref sig .tc .vmem S1x512 .f32).access
      (Rect.unit (s := S1x512) ![0, 0] S1x512.size inb_S1x512_S1x512_0_0)).write (Elt F) f w Finset.univ = w :=
  Memref.write_access_unit_zero_univ (Elt F) cc0_stg1_0 zero_off _ f w

end Cert.KernelProof

end
-- ==== Proof.Bits.Launch.lean ====
/-
  The launch of the mean protocol on eight devices: the protocol's cells and duty tokens, what the launch deals each
  device, the invariants allocated for every cell at once, the tokens dealt around the ring to the devices that pay
  them, and the run of @main from any memory with zero counters.
-/
import proofs.«900940_g7700000000000941_dist_mean_ax0_shard0_i_m1024_n512_v7x_i8_bf16_1_alg».proof.Proof.Bits.Levels

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- The protocol's cells: every device's fifteen. -/
def ringCells : Finset (GSem nD τ sig) := Finset.univ.map ⟨kcell, kcell_injective⟩

/-- The duties of a device's own cells, as (which kind of cell, which of seven): the barrier cell's duty `k`, the `k`-th
    send cell's one duty, the `k`-th receive cell's one duty. -/
def tokSem (jk : Fin 3 × Fin 7) : SemLoc sig × Fin 7 := match jk.1 with
  | 0 => (.reg barS, jk.2) | 1 => (.dma (sendS jk.2), 0) | 2 => (.dma (recvS jk.2), 0)
theorem tokSem_injective : Function.Injective tokSem := by decide
abbrev tokOf (x : Dev nD × Fin 3 × Fin 7) : GSem nD τ sig × ℕ × Fin 7 := (((x.1 : Thread nD τ), (tokSem x.2).1), 0, (tokSem x.2).2)
theorem tokOf_injective : Function.Injective (tokOf : Dev nD × Fin 3 × Fin 7 → GSem nD τ sig × ℕ × Fin 7) := by
  rintro ⟨c, jk⟩ ⟨c', jk'⟩ h
  have h1 : c = c' := congrArg (fun x : GSem nD τ sig × ℕ × Fin 7 => x.1.1.1) h
  subst h1
  have h2 : tokSem jk = tokSem jk' :=
    Prod.ext (congrArg (fun x : GSem nD τ sig × ℕ × Fin 7 => x.1.2) h) (congrArg (fun x : GSem nD τ sig × ℕ × Fin 7 => x.2.2) h)
  rw [tokSem_injective h2]
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ (bigSep Finset.univ fun k : Fin 7 => dutyTok ER (recvCell c k) 0 0))

/-- What the launch element deals device `c`. -/
def G (c : Dev nD) : sProp 𝕄 :=
  iprop((bigSep Finset.univ fun j : Fin 15 => roundState ER (meanRd m) (kcell (c, j)) 0)
    ∗ (bigSep Finset.univ fun j : Fin 15 => iprop(atPos ER (kcell (c, j)) 0 ∅ 0 ∗ reached ER (kcell (c, j)) 0)) ∗ toks c)

/-- What the global step makes of it: the ghost state at some names, and the two semaphores no transfer uses. -/
def G' (c : Dev nD) : sProp 𝕄 := iprop((∃ K, ghost m K c) ∗ idleSems c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem iS_injective : Function.Injective iS := by decide
theorem iR_injective : Function.Injective iR := by decide

omit [FloatOps F] in
/-- Fifteen cells: the barrier cell, the seven send cells, the seven receive cells. -/
theorem bigSep_fin15 (Φ : Fin 15 → sProp 𝕄) :
    bigSep Finset.univ Φ = iprop(Φ 0 ∗ (bigSep Finset.univ fun k : Fin 7 => Φ (iS k)) ∗ (bigSep Finset.univ fun k : Fin 7 => Φ (iR k))) := by
  have hU : (Finset.univ : Finset (Fin 15)) = insert 0 ((Finset.univ.map ⟨iS, iS_injective⟩) ∪ (Finset.univ.map ⟨iR, iR_injective⟩)) := by decide
  rw [hU, bigSep_insert (by decide), bigSep_union (by decide), bigSep_map, bigSep_map]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 15 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (meanRd m) ringCells ringToks) $$ HX with ⟨Hst, Hr, Hat, Htok⟩
  imodintro
  ihave Hst' := (Entails.of_eq (hX fun g => roundState ER (meanRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own sixteen semaphores, one by one; -/
theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0) := by
  rw [Pipeline.ownSems0_eq_of_list c osem [0, 1, 2, 3, 4, 5, 6, 7, 8, 9, 10, 11, 12, 13, 14, 15] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin15_list (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- The sixteen own semaphores and the barrier semaphore are the fifteen cells' counters and the two idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 15 => semVal (kcell (c, j)) 0) ∗ idleSems c : sProp 𝕄) := by
  rw [ownSems0_eq, unscopedSems0_eq, bigSep_fin15_list]
  unfold idleSems
  iintro ⟨⟨H0, H1, H2, H3, H4, H5, H6, H7, H8, H9, H10, H11, H12, H13, H14, H15⟩, HB⟩
  isplitr [H0 H8]
  swap
  · isplitl [H0]; · iexact H0
    iexact H8
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  iexact H15

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 15 => iprop(∃ κ : ℕ, cellInv ER (meanRd m) κ (kcell (c, j))))
          ∗ (bigSep Finset.univ fun j : Fin 15 => iprop(atPos ER (kcell (c, j)) 0 ∅ 0 ∗ reached ER (kcell (c, j)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hid⟩
  imod (show iprop((bigSep Finset.univ fun j : Fin 15 => semVal (kcell (c, j)) 0) ∗ bigSep Finset.univ fun j : Fin 15 => roundState ER (meanRd m) (kcell (c, j)) 0)
      ⊢ (|={Set.univ}=> bigSep Finset.univ fun j => iprop(∃ κ : ℕ, cellInv ER (meanRd m) κ (kcell (c, j))) : sProp 𝕄) from by
        rw [← bigSep_sep']
        exact (bigSep_mono fun j _ => (Rounds.body_intro ER (meanRd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hid

/-- Every cell's invariant at its name, and that every cell has reached round 0: what all devices share. -/
def records (K : Dev nD × Fin 15 → ℕ) : sProp 𝕄 :=
  iprop((bigSep Finset.univ fun ck : Dev nD × Fin 15 => cellInv ER (meanRd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (meanRd m) (K ck) (kcell ck) : sProp 𝕄)) ⊢ cellInv ER (meanRd m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem invs_intro (K : Dev nD × Fin 15 → ℕ) (c : Dev nD) : records m K ⊢ invs m K c := by
  unfold records invs
  iintro ⟨#HI, -⟩
  isplitr; · iapply (inv_at m K (c, 0)); iexact HI
  isplitr
  · iapply (bigSep_intro_persistent fun (k : Fin 7) _ => by have h := inv_at m K (c, iS k); rwa [kcell_send] at h); iexact HI
  isplitr
  · iapply (bigSep_intro_persistent fun (k : Fin 7) _ => by have h := inv_at m K (c, iR k); rwa [kcell_recv] at h); iexact HI
  isplitr
  · iapply (bigSep_intro_persistent fun (k : Fin 7) _ => inv_at m K (sh k c, 0)); iexact HI
  · iapply (bigSep_intro_persistent fun (k : Fin 7) _ => by have h := inv_at m K (sh k c, iR k); rwa [kcell_recv] at h); iexact HI

theorem marks_intro (K : Dev nD × Fin 15 → ℕ) (c : Dev nD) : records m K ⊢ marks c := by
  unfold records marks
  iintro ⟨-, #HR⟩
  isplitr
  · iapply (bigSep_intro_persistent fun (k : Fin 7) _ => reached_at (F := F) (sh k c, 0)); iexact HR
  isplitr
  · iapply (bigSep_intro_persistent fun (k : Fin 7) _ => by have h := reached_at (F := F) (sh k c, iR k); rwa [kcell_recv] at h); iexact HR
  isplitr
  · iapply (bigSep_intro_persistent fun (k : Fin 7) _ => by have h := reached_at (F := F) (c, iS k); rwa [kcell_send] at h); iexact HR
  · iapply (bigSep_intro_persistent fun (k : Fin 7) _ => by have h := reached_at (F := F) (c, iR k); rwa [kcell_recv] at h); iexact HR

/-- What stays with device `c`: its positions, the tokens of the duties IT pays, its two idle semaphores. -/
def linear (c : Dev nD) : sProp 𝕄 := iprop(posns c ∗ payToks c ∗ idleSems c)

theorem ghost_intro (K : Dev nD × Fin 15 → ℕ) (c : Dev nD) : iprop(records m K ∗ linear c) ⊢ G' m c := by
  unfold linear G'
  iintro ⟨#HR, Hp, Ht, Hid⟩
  isplitr [Hid]
  swap
  · iexact Hid
  iexists K
  unfold ghost
  isplitr; · iapply (invs_intro m K c); iexact HR
  isplitr; · iapply (marks_intro m K c); iexact HR
  isplitl [Hp]; · iexact Hp
  iexact Ht

omit [FloatOps F] in
theorem bigSep_swap (Φ : Dev nD → Fin 7 → sProp 𝕄) :
    (bigSep Finset.univ fun c => bigSep Finset.univ fun k => Φ c k) = bigSep Finset.univ fun k => bigSep Finset.univ fun c => Φ c k :=
  ((bigSep_univ_prod (fun ck : Dev nD × Fin 7 => Φ ck.1 ck.2)).symm.trans (bigSep_univ_equiv (Equiv.prodComm (Fin 7) (Dev nD)) _)).trans
    (bigSep_univ_prod (fun kc : Fin 7 × Dev nD => Φ kc.2 kc.1))

omit [FloatOps F] in
/-- Summed over all devices, what the device `k + 1` places after each holds is what each holds. -/
theorem bigSep_shift (Φ : Dev nD → Fin 7 → sProp 𝕄) :
    (bigSep Finset.univ fun c => bigSep Finset.univ fun k => Φ c k) = bigSep Finset.univ fun c => bigSep Finset.univ fun k => Φ (sh k c) k := by
  rw [bigSep_swap, bigSep_swap (fun c k => Φ (sh k c) k)]
  exact bigSep_congr fun k _ => bigSep_univ_equiv (shEquiv k) (fun c => Φ c k)

omit [FloatOps F] in
/-- The tokens dealt around the ring: duty `k` of a barrier cell, and the `k`-th receive duty, to the device `k + 1` places
    before the cell's owner; the send duties stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_shift (fun c k => (dutyTok ER (barCell c) 0 k : sProp 𝕄)),
    bigSep_shift (fun c k => (dutyTok ER (recvCell c k) 0 0 : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem posns_eq (c : Dev nD) : (bigSep Finset.univ fun j : Fin 15 => (atPos ER (kcell (c, j)) 0 ∅ 0 : sProp 𝕄)) = posns c := by
  rw [bigSep_fin15]; unfold posns
  simp only [kcell_send, kcell_recv]
  rfl

omit [FloatOps F] in
theorem linear_intro : iprop((bigSep Finset.univ fun c : Dev nD => posns c) ∗ (bigSep Finset.univ fun c : Dev nD => payToks c) ∗ (bigSep Finset.univ fun c : Dev nD => idleSems c))
    ⊢ (bigSep Finset.univ fun c : Dev nD => linear c : sProp 𝕄) := by
  unfold linear; rw [bigSep_sep', bigSep_sep']

theorem regroup :
    (bigSep Finset.univ fun c : Dev nD => iprop((bigSep Finset.univ fun j : Fin 15 => iprop(∃ κ : ℕ, cellInv ER (meanRd m) κ (kcell (c, j))))
          ∗ (bigSep Finset.univ fun j : Fin 15 => iprop(atPos ER (kcell (c, j)) 0 ∅ 0 ∗ reached ER (kcell (c, j)) 0)) ∗ toks c ∗ idleSems c) : sProp 𝕄)
      ⊢ bigSep Finset.univ (G' m) := by
  rw [bigSep_sep', bigSep_sep', bigSep_sep', ← bigSep_univ_prod (fun ck : Dev nD × Fin 15 => iprop(∃ κ : ℕ, cellInv ER (meanRd m) κ (kcell ck))),
    bigSep_congr (s := Finset.univ) (fun (c : Dev nD) _ => bigSep_sep' Finset.univ (fun j : Fin 15 => (atPos ER (kcell (c, j)) 0 ∅ 0 : sProp 𝕄)) (fun j => reached ER (kcell (c, j)) 0)),
    bigSep_sep', ← bigSep_univ_prod (fun ck : Dev nD × Fin 15 => (reached ER (kcell ck) 0 : sProp 𝕄)),
    bigSep_congr (s := Finset.univ) (fun (c : Dev nD) _ => posns_eq (F := F) c)]
  iintro ⟨HI, ⟨Hat, #HR⟩, Htok, Hid⟩
  ihave HK := (BI.bigSep_exists_pi Finset.univ (fun (ck : Dev nD × Fin 15) (κ : ℕ) => (cellInv ER (meanRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact Hid

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit and the theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  unfold G'
  icases HG with ⟨HG, Hid⟩
  imodintro
  unfold start
  isplitl
  · isplitl [HG]; · iexact HG
    isplitl [Hc]; · iexact Hc
    isplitl [Hlev]; · iexact Hlev
    iexact Hid
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ accPts
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁ accPts
  iintro ⟨Hr, Hos⟩
  isplitr; · iempintro
  isplitl [Hos]; · iexact Hos
  iexists (accV m); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: every weakly fair
    execution of @main — the eight kernels signalling each other's barrier cell, then each sending its row of column sums
    to the seven others — terminates, and every final state has each device's windowed arrays at the computed contents. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m c (0 : Fin 2) = m ((c : Thread nD τ).loc main_arg0) :=
  (dats (F := F) m 0 c).arrAt_in (0 : Fin 2) rfl _

/-- The result array after the run holds the mean's block. -/
theorem finalA_out (c : Dev nD) : finalA m c (1 : Fin 2) = outV m := by
  unfold finalA
  have h := (dats (F := F) m 0 c).arrAt_succ (1 : Fin 2) t₀
  rw [flush0_1 t₀, if_pos rfl] at h
  refine (show (dats m 0 c).arrAt 1 cfg0.N = (dats m 0 c).arrAt 1 (t₀.val + 1) from rfl).trans (h.trans ?_)
  exact Memref.write_access_unit_zero_univ (Elt F) _ (funext fun a => by fin_cases a <;> rfl) _ _ _

end Cert.KernelProof

end
-- ==== Proof.Bits.Body.lean ====
/-
  The body of the kernel on one device, stepped one rule per effect in program order from the protocol's ghost state:
  seven signals each handing a peer the accumulator's row for that peer's column sums; the block's column sums stored
  into the own row; the wait for the seven barrier units, which brings each peer's row for these sums; the own row's
  share cut in seven pieces, one a transfer; the seven transfers; the seven receive waits, each bringing a peer's sums;
  the seven send waits, each bringing a piece back; the cells closed; the rows joined; the reduction stored.
-/
import proofs.«900940_g7700000000000941_dist_mean_ax0_shard0_i_m1024_n512_v7x_i8_bf16_1_alg».proof.Proof.Bits.Levels
import proofs.«900940_g7700000000000941_dist_mean_ax0_shard0_i_m1024_n512_v7x_i8_bf16_1_alg».proof.Proof.Bits.Rows
import proofs.«900940_g7700000000000941_dist_mean_ax0_shard0_i_m1024_n512_v7x_i8_bf16_1_alg».proof.Proof.Bits.Launch
import Idealize.ShloMosaic.Lib.Tactic

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed semaphore views, by name -/

theorem send_sem_1' : ((cc0_scratch1.slice (Rect.unit (s := S8) ![1] S1.size inb_S8_S1_1)).squeeze S_ squeezes_S1_S_).sem = sendS 0 := by decide
theorem recv_sem_1' : ((cc0_scratch2.slice (Rect.unit (s := S8) ![1] S1.size inb_S8_S1_1)).squeeze S_ squeezes_S1_S_).sem = recvS 0 := by decide
theorem send_sem_2' : ((cc0_scratch1.slice (Rect.unit (s := S8) ![2] S1.size inb_S8_S1_2)).squeeze S_ squeezes_S1_S_).sem = sendS 1 := by decide
theorem recv_sem_2' : ((cc0_scratch2.slice (Rect.unit (s := S8) ![2] S1.size inb_S8_S1_2)).squeeze S_ squeezes_S1_S_).sem = recvS 1 := by decide
theorem send_sem_3' : ((cc0_scratch1.slice (Rect.unit (s := S8) ![3] S1.size inb_S8_S1_3)).squeeze S_ squeezes_S1_S_).sem = sendS 2 := by decide
theorem recv_sem_3' : ((cc0_scratch2.slice (Rect.unit (s := S8) ![3] S1.size inb_S8_S1_3)).squeeze S_ squeezes_S1_S_).sem = recvS 2 := by decide
theorem send_sem_4' : ((cc0_scratch1.slice (Rect.unit (s := S8) ![4] S1.size inb_S8_S1_4)).squeeze S_ squeezes_S1_S_).sem = sendS 3 := by decide
theorem recv_sem_4' : ((cc0_scratch2.slice (Rect.unit (s := S8) ![4] S1.size inb_S8_S1_4)).squeeze S_ squeezes_S1_S_).sem = recvS 3 := by decide
theorem send_sem_5' : ((cc0_scratch1.slice (Rect.unit (s := S8) ![5] S1.size inb_S8_S1_5)).squeeze S_ squeezes_S1_S_).sem = sendS 4 := by decide
theorem recv_sem_5' : ((cc0_scratch2.slice (Rect.unit (s := S8) ![5] S1.size inb_S8_S1_5)).squeeze S_ squeezes_S1_S_).sem = recvS 4 := by decide
theorem send_sem_6' : ((cc0_scratch1.slice (Rect.unit (s := S8) ![6] S1.size inb_S8_S1_6)).squeeze S_ squeezes_S1_S_).sem = sendS 5 := by decide
theorem recv_sem_6' : ((cc0_scratch2.slice (Rect.unit (s := S8) ![6] S1.size inb_S8_S1_6)).squeeze S_ squeezes_S1_S_).sem = recvS 5 := by decide
theorem send_sem_7' : ((cc0_scratch1.slice (Rect.unit (s := S8) ![7] S1.size inb_S8_S1_7)).squeeze S_ squeezes_S1_S_).sem = sendS 6 := by decide
theorem recv_sem_7' : ((cc0_scratch2.slice (Rect.unit (s := S8) ![7] S1.size inb_S8_S1_7)).squeeze S_ squeezes_S1_S_).sem = recvS 6 := by decide

theorem O₀_unfold (c : Dev nD) : O₀ c = 0 + tallyAt (recvCell (sh 6 c) 6) () Nrow + tallyAt (recvCell (sh 5 c) 5) () Nrow + tallyAt (recvCell (sh 4 c) 4) () Nrow
    + tallyAt (recvCell (sh 3 c) 3) () Nrow + tallyAt (recvCell (sh 2 c) 2) () Nrow + tallyAt (recvCell (sh 1 c) 1) () Nrow + tallyAt (recvCell (sh 0 c) 0) () Nrow
    + tallyAt (barCell (sh 6 c)) () 1 + tallyAt (barCell (sh 5 c)) () 1 + tallyAt (barCell (sh 4 c)) () 1 + tallyAt (barCell (sh 3 c)) () 1
    + tallyAt (barCell (sh 2 c)) () 1 + tallyAt (barCell (sh 1 c)) () 1 + tallyAt (barCell (sh 0 c)) () 1 := rfl

theorem OSr7_unfold (c : Dev nD) : OSr c 7 = 0 + tallyAt (recvCell (sh 6 c) 6) () Nrow + tallyAt (recvCell (sh 5 c) 5) () Nrow + tallyAt (recvCell (sh 4 c) 4) () Nrow
    + tallyAt (recvCell (sh 3 c) 3) () Nrow + tallyAt (recvCell (sh 2 c) 2) () Nrow + tallyAt (recvCell (sh 1 c) 1) () Nrow + tallyAt (recvCell (sh 0 c) 0) () Nrow := rfl

/-! ## One rule a kind of step, at the protocol's cells -/

/-- What device `c` hands the device `k + 1` places after it with its `k`-th signal: its own accumulator's row for that
    device's column sums, and that its receive cell for them is open. -/
theorem payload_bar_pay (c : Dev nD) (k : Fin 7) : (meanRd (F := F) m).payload (barCell (sh k c)) 0 k
    = iprop((∃ f, rowPts c (sh k c) fullShare f) ∗ reached ER (recvCell c k.rev) 0) := by
  rw [payload_bar]; unfold barPay
  have h : ∀ p : Dev nD, p = c → (iprop((∃ f, rowPts p (sh k c) fullShare f) ∗ reached ER (recvCell p k.rev) 0) : sProp 𝕄)
      = iprop((∃ f, rowPts c (sh k c) fullShare f) ∗ reached ER (recvCell c k.rev) 0) := by
    intro p hp; subst hp; rfl
  exact h _ (sh_rev_sh k c)

/-- The `k`-th signal. -/
theorem wp_sig (K : Dev nD × Fin 15 → ℕ) (c : Dev nD) (k : Fin 7) {O₁ : CellTallies nD τ sig Unit} (O : CellTallies nD τ sig Unit)
    (hO : O₁ = O + tallyAt (barCell (sh k c)) () 1) {W : Waits sig Unit} {k' : ℕ} (hk : 1 = k')
    {α : Type} {Q : α → sProp 𝕄} {kk : PUnit → Prog (TpuEff nD τ sig (Elt F) Λ₀ .tc) α}
    (f : Buf (Elt F) ((c : Thread nD τ).loc cc0_scratch0)) :
    iprop(cellInv ER (meanRd m) (K (sh k c, 0)) (barCell (sh k c)) ∗ reached ER (barCell (sh k c)) 0 ∗ reached ER (recvCell c k.rev) 0
        ∗ owes (c : Thread nD τ) O₁ W ∗ dutyTok ER (barCell (sh k c)) 0 k ∗ rowPts c (sh k c) fullShare f)
      ⊢ iprop((owes (c : Thread nD τ) O W -∗ wp frame (wpE (defs₀ (F := F)) 𝒱₀ c none) Set.univ (kk ⟨⟩) Q)
          -∗ wp frame (wpE (defs₀ (F := F)) 𝒱₀ c none) Set.univ (.op (.semSignal ((sh k c : Dev nD) : Thread nD τ) barS k') kk) Q) := by
  subst hk
  iintro ⟨#HI, #Hr, #Hrr, HO, Ht, Hrow⟩
  iapply (Rounds.wp_signal 𝒱₀ ER (meanRd m) (c : Thread nD τ) none (dst := (sh k c : Thread nD τ)) (κ := K (sh k c, 0)) (d := k)
      (by rw [duties_bar]; exact Finset.mem_univ _) (amount_bar m (sh k c) k) () O hO) $$ [HO Ht Hrow]
  · isplitr; · iexact HI
    isplitl [HO]; · iexact HO
    isplitl [Ht]; · iexact Ht
    isplitl [Hrow]
    · rw [payload_bar_pay]
      isplitl [Hrow]; · iexists f; iexact Hrow
      iexact Hrr
    · iexact Hr

omit [FloatOps F] in
theorem rowPts_congr_dev {p r r' : Dev nD} (h : r' = r) (q) (f) : rowPts (F := F) p r' q f = rowPts p r q f := by subst h; rfl

abbrev rX : Rect S1024x512 := Rect.unit (s := S1024x512) ![0, 0] S1024x512.size inb_S1024x512_S1024x512_0_0
abbrev rA : Rect S8x512 := Rect.unit (s := S8x512) ![0, 0] S8x512.size inb_S8x512_S8x512_0_0
abbrev rO : Rect S1x512 := Rect.unit (s := S1x512) ![0, 0] S1x512.size inb_S1x512_S1x512_0_0
abbrev xM : Memref sig .tc .vmem S1024x512 .f32 := Memref.whole cc0_stg0_0
abbrev oM : Memref sig .tc .vmem S1x512 .f32 := Memref.whole cc0_stg1_0

/-- The wait for the seven barrier units, owing the seven receive credits: each peer's row for this device's column sums
    comes with it, and that the peer's receive cell is open. -/
theorem wp_barwait (K : Dev nD × Fin 15 → ℕ) (c : Dev nD) {W : Waits sig Unit} {k' : ℕ} (hk : 7 = k')
    {α : Type} {Q : α → sProp 𝕄} {kk : PUnit → Prog (TpuEff nD τ sig (Elt F) Λ₀ .tc) α} :
    iprop(cellInv ER (meanRd m) (K (c, 0)) (barCell c) ∗ levAts L lv ∗ cred (tallyAt (barCell c) () 7) ∗ owes (c : Thread nD τ) (OSr c 7) W
        ∗ atPos ER (barCell c) 0 ∅ 0)
      ⊢ iprop(((owes (c : Thread nD τ) (OSr c 7) (insert (SemLoc.reg barS, ()) W) ∗ atPos ER (barCell c) 1 ∅ 0
              ∗ barPay c 0 ∗ barPay c 1 ∗ barPay c 2 ∗ barPay c 3 ∗ barPay c 4 ∗ barPay c 5 ∗ barPay c 6)
            -∗ wp frame (wpE (defs₀ (F := F)) 𝒱₀ c none) Set.univ (kk ⟨⟩) Q)
          -∗ wp frame (wpE (defs₀ (F := F)) 𝒱₀ c none) Set.univ (.op (.semWait barS k') kk) Q) := by
  subst hk
  iintro ⟨#HI, #Hlev, Hc, HO, Hat⟩ Hk
  iapply (Rounds.wp_wait_rest_token 𝒱₀ ER (meanRd m) (c : Thread nD τ) none (κ := K (c, 0))
      (wpE_semWait_eq 𝒱₀ (c : Thread nD τ) none Set.univ) (Set.mem_univ _) () (O := OSr c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The `k`-th transfer: row `c` at the `k`-th piece of its share, into row `c` of the device `k + 1` places on. -/
theorem wp_snd (K : Dev nD × Fin 15 → ℕ) (c : Dev nD) (k : Fin 7) (n : Dev nD) (hn : n = sh k c) {sS sR : DmaSem sig} (hS : sS = sendS k) (hR : sR = recvS k)
    {hsc : (ownRow c : Memref sig (Dev.tc n : Thread nD τ).2.kind .vmem S1x512 .f32).view.ref.isScScratch = false}
    {hsrc : (ownRow c).view.WordExact} {hdst : (ownRow c).view.WordExact}
    {hsem : DmaTarget.Typed .vmem (.dma sR) (.remote (Dev.tc n : Thread nD τ) (ownRow c) (.dma sS) hsc)}
    {O₁ : CellTallies nD τ sig Unit} (O : CellTallies nD τ sig Unit) (hO : O₁ = O + tallyAt (recvCell (sh k c) k) () Nrow) {W : Waits sig Unit}
    {α : Type} {Q : α → sProp 𝕄} {kk : PUnit → Prog (TpuEff nD τ sig (Elt F) Λ₀ .tc) α}
    (fn : Buf (Elt F) (((sh k c : Dev nD) : Thread nD τ).loc cc0_scratch0)) :
    iprop(cellInv ER (meanRd m) (K (c, iS k)) (sendCell c k) ∗ cellInv ER (meanRd m) (K (sh k c, iR k)) (recvCell (sh k c) k)
        ∗ reached ER (sendCell c k) 0 ∗ reached ER (recvCell (sh k c) k) 0
        ∗ rowPts c c (pieceQ k.val) (accV m) ∗ rowPts (sh k c) c fullShare fn
        ∗ owes (c : Thread nD τ) O₁ W ∗ dutyTok ER (sendCell c k) 0 0 ∗ dutyTok ER (recvCell (sh k c) k) 0 0)
      ⊢ iprop(((cred (tallyAt (sendCell c k) () Nrow) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (ownRow c) (.remote (Dev.tc n : Thread nD τ) (ownRow c) (.dma sS) hsc) (.dma sR) hsrc hdst hsem) kk) Q) := by
  subst hn hS hR
  iintro ⟨#HI1, #HI2, #Hr1, #Hr2, Hsrc, Hdst, HO, Ht1, Ht2⟩
  unfold rowPts
  rw [← ownRow_set c]
  iapply (Rounds.wp_send_pointsTo 𝒱₀ ER (meanRd m) (c : Thread nD τ) none (src := ownRow c) (dst := ownRow c) (c' := ((sh k c : Dev nD) : Thread nD τ))
    (κ₁ := K (c, iS k)) (κ₂ := K (sh k c, iR k)) (q := pieceQ k.val) (fs := accV m)
    (r₁ := 0) (r₂ := 0) (d₁ := 0) (d₂ := 0) (fd := fn)
    (by rw [duties_send]; exact Finset.mem_singleton_self _) (by rw [duties_recv]; exact Finset.mem_singleton_self _)
    () () Nrow rfl (amount_send m c k 0) (amount_recv m (sh k c) k 0) O hO (W := W)
    (by rw [payload_send]; unfold sendPay rowPts; rw [ownRow_set])
    (by rw [payload_recv]; unfold recvPay; rw [landed_row, rowPts_congr_dev (sh_rev_sh k c)])) $$ [Hsrc Hdst HO Ht1 Ht2]
  isplitr; · iexact HI1
  isplitr; · iexact HI2
  isplitl [Hsrc]; · iexact Hsrc
  isplitl [Hdst]; · iexact Hdst
  isplitl [HO]; · iexact HO
  isplitl [Ht1]; · iexact Ht1
  isplitr; · iexact Hr1
  isplitl [Ht2]; · iexact Ht2
  iexact Hr2

/-- A row's transfer puts the same units on a cell whichever row it is. -/
theorem Nrow_slice (off : Fin S8x512.rank → Nat) (inb : ∀ a, off a + S1x512.size a ≤ S8x512.size a)
    (hstr : ∀ a, (Rect.unit (s := S8x512) off S1x512.size inb).stride a = 1) :
    (accM.slice (Rect.unit (s := S8x512) off S1x512.size inb) hstr).view.dmaCredit = Nrow := rfl

/-- The `k`-th receive wait, owing nothing: the row of the device `k + 1` places before, holding its column sums. -/
theorem wp_rcv (K : Dev nD × Fin 15 → ℕ) (c : Dev nD) (k : Fin 7) {s : DmaSem sig} (hs : s = recvS k) {W : Waits sig Unit}
    {src : Memref sig .tc .vmem S1x512 .f32} {off : Fin S8x512.rank → Nat} {inb : ∀ a, off a + S1x512.size a ≤ S8x512.size a}
    {hstr : ∀ a, (Rect.unit (s := S8x512) off S1x512.size inb).stride a = 1}
    {hsrc : src.view.WordExact} {hdst : (accM.slice (Rect.unit (s := S8x512) off S1x512.size inb) hstr).view.WordExact}
    {α : Type} {Q : α → sProp 𝕄} {kk : PUnit → Prog (TpuEff nD τ sig (Elt F) Λ₀ .tc) α} :
    iprop(cellInv ER (meanRd m) (K (c, iR k)) (recvCell c k) ∗ cred (tallyAt (recvCell c k) () Nrow) ∗ owes (c : Thread nD τ) 0 W
        ∗ atPos ER (recvCell c k) 0 ∅ 0)
      ⊢ iprop(((owes (c : Thread nD τ) 0 (insert (SemLoc.dma (recvS k), ()) W) ∗ atPos ER (recvCell c k) 1 ∅ 0 ∗ rowPts c (sh k.rev c) fullShare (accV m))
            -∗ wp frame (wpE (defs₀ (F := F)) 𝒱₀ c none) Set.univ (kk ⟨⟩) Q)
          -∗ wp frame (wpE (defs₀ (F := F)) 𝒱₀ c none) Set.univ (.op (.waitDma2 s src (accM.slice (Rect.unit (s := S8x512) off S1x512.size inb) hstr) hsrc hdst) kk) Q) := by
  subst hs
  have hN := Nrow_slice off inb hstr
  iintro ⟨#HI, Hc, HO, Hat⟩ Hk
  iapply (Rounds.wp_wait_rest_token 𝒱₀ ER (meanRd m) (c : Thread nD τ) none (κ := K (c, iR k))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c k)) $$ Hpay
  iapply Hk
  isplitl [HO]; · iexact HO
  isplitl [Hat]; · iexact Hat
  unfold recvPay; iexact Hp

/-- The `k`-th send wait, owing nothing: the piece of the own row's share that transfer read. -/
theorem wp_swt (K : Dev nD × Fin 15 → ℕ) (c : Dev nD) (k : Fin 7) {s : DmaSem sig} (hs : s = sendS k) {W : Waits sig Unit}
    {src : Memref sig .tc .vmem S1x512 .f32} {off : Fin S8x512.rank → Nat} {inb : ∀ a, off a + S1x512.size a ≤ S8x512.size a}
    {hstr : ∀ a, (Rect.unit (s := S8x512) off S1x512.size inb).stride a = 1}
    {hsrc : src.view.WordExact} {hdst : (accM.slice (Rect.unit (s := S8x512) off S1x512.size inb) hstr).view.WordExact}
    {α : Type} {Q : α → sProp 𝕄} {kk : PUnit → Prog (TpuEff nD τ sig (Elt F) Λ₀ .tc) α} :
    iprop(cellInv ER (meanRd m) (K (c, iS k)) (sendCell c k) ∗ cred (tallyAt (sendCell c k) () Nrow) ∗ owes (c : Thread nD τ) 0 W
        ∗ atPos ER (sendCell c k) 0 ∅ 0)
      ⊢ iprop(((owes (c : Thread nD τ) 0 (insert (SemLoc.dma (sendS k), ()) W) ∗ atPos ER (sendCell c k) 1 ∅ 0 ∗ rowPts c c (pieceQ k.val) (accV m))
            -∗ wp frame (wpE (defs₀ (F := F)) 𝒱₀ c none) Set.univ (kk ⟨⟩) Q)
          -∗ wp frame (wpE (defs₀ (F := F)) 𝒱₀ c none) Set.univ (.op (.waitDma2 s src (accM.slice (Rect.unit (s := S8x512) off S1x512.size inb) hstr) hsrc hdst) kk) Q) := by
  subst hs
  have hN := Nrow_slice off inb hstr
  iintro ⟨#HI, Hc, HO, Hat⟩ Hk
  iapply (Rounds.wp_wait_rest_token 𝒱₀ ER (meanRd m) (c : Thread nD τ) none (κ := K (c, iS k))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c k)) $$ Hpay
  iapply Hk
  isplitl [HO]; · iexact HO
  isplitl [Hat]; · iexact Hat
  unfold sendPay; iexact Hp

/-- A send or receive cell, its one round consumed, closes: its counter at zero is the device's again. -/
theorem close_send (K : Dev nD × Fin 15 → ℕ) (c : Dev nD) (k : Fin 7) :
    iprop(cellInv ER (meanRd m) (K (c, iS k)) (sendCell c k) ∗ atPos ER (sendCell c k) 1 ∅ 0) ⊢ iprop(|={Set.univ}=> semVal (sendCell c k) 0 : sProp 𝕄) :=
  Rounds.cell_close ER (meanRd m) (Set.mem_univ (K (c, iS k))) (fun h => h) (R := 0 + 1) (duties_later m (sendCell c k))
theorem close_recv (K : Dev nD × Fin 15 → ℕ) (c : Dev nD) (k : Fin 7) :
    iprop(cellInv ER (meanRd m) (K (c, iR k)) (recvCell c k) ∗ atPos ER (recvCell c k) 1 ∅ 0) ⊢ iprop(|={Set.univ}=> semVal (recvCell c k) 0 : sProp 𝕄) :=
  Rounds.cell_close ER (meanRd m) (Set.mem_univ (K (c, iR k))) (fun h => h) (R := 0 + 1) (duties_later m (recvCell c k))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 15 → ℕ) (c : Dev nD) : sProp 𝕄 :=
  iprop((ghost m K c ∗ creds0 c ∗ levAts L lv ∗ idleSems c ∗ ∃ f, accPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outV m))

theorem fetch_0 (t : Fin cfg0.N) : (cfg0.win (0 : Fin 2)).fetch t = true := by rw [fin_N t]; rfl

set_option maxHeartbeats 1600000 in
/-- The body on device `c`, one rule per effect in program order. -/
theorem sound_body (K : Dev nD × Fin 15 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  unfold bodyPre ghost invs marks posns payToks creds0 idleSems
  simp only [bigSep_fin7]
  iintro ⟨⟨⟨⟨⟨#HIbar, ⟨#HIs0, #HIs1, #HIs2, #HIs3, #HIs4, #HIs5, #HIs6⟩, ⟨#HIr0, #HIr1, #HIr2, #HIr3, #HIr4, #HIr5, #HIr6⟩, ⟨#HIbn0, #HIbn1, #HIbn2, #HIbn3, #HIbn4, #HIbn5, #HIbn6⟩, ⟨#HIrn0, #HIrn1, #HIrn2, #HIrn3, #HIrn4, #HIrn5, #HIrn6⟩⟩, ⟨⟨#HrBn0, #HrBn1, #HrBn2, #HrBn3, #HrBn4, #HrBn5, #HrBn6⟩, ⟨#HrRn0, #HrRn1, #HrRn2, #HrRn3, #HrRn4, #HrRn5, #HrRn6⟩, ⟨#HrS0, #HrS1, #HrS2, #HrS3, #HrS4, #HrS5, #HrS6⟩, ⟨#HrR0, #HrR1, #HrR2, #HrR3, #HrR4, #HrR5, #HrR6⟩⟩, ⟨HatB, ⟨HatS0, HatS1, HatS2, HatS3, HatS4, HatS5, HatS6⟩, ⟨HatR0, HatR1, HatR2, HatR3, HatR4, HatR5, HatR6⟩⟩, ⟨⟨HtB0, HtB1, HtB2, HtB3, HtB4, HtB5, HtB6⟩, ⟨HtRn0, HtRn1, HtRn2, HtRn3, HtRn4, HtRn5, HtRn6⟩, ⟨HtS0, HtS1, HtS2, HtS3, HtS4, HtS5, HtS6⟩⟩⟩, ⟨HcB, ⟨HcR0, HcR1, HcR2, HcR3, HcR4, HcR5, HcR6⟩⟩, #Hlev, ⟨Hi2, Hi10⟩, ⟨%f0, Hacc⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl, O₀_unfold]
  -- the accumulator by rows: its own, and one for each peer's column sums
  ihave Hrows := ((acc_rows c f0).1) $$ Hacc
  rw [bigSep_fin7]
  icases Hrows with ⟨Hown, Hr0, Hr1, Hr2, Hr3, Hr4, Hr5, Hr6⟩
  -- signal 0: the device 1 places on gets this accumulator's row for its column sums
  iapply (wp_sig m K c 0 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1 + tallyAt (barCell (sh 4 c)) () 1 + tallyAt (barCell (sh 3 c)) () 1 + tallyAt (barCell (sh 2 c)) () 1 + tallyAt (barCell (sh 1 c)) () 1) rfl (by decide) f0) $$ [HO HtB0 Hr0]
  · isplitr; · iexact HIbn0
    isplitr; · iexact HrBn0
    isplitr; · iexact HrR6
    isplitl [HO]; · iexact HO
    isplitl [HtB0]; · iexact HtB0
    iexact Hr0
  iintro HO
  -- signal 1: the device 2 places on gets this accumulator's row for its column sums
  iapply (wp_sig m K c 1 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1 + tallyAt (barCell (sh 4 c)) () 1 + tallyAt (barCell (sh 3 c)) () 1 + tallyAt (barCell (sh 2 c)) () 1) rfl (by decide) f0) $$ [HO HtB1 Hr1]
  · isplitr; · iexact HIbn1
    isplitr; · iexact HrBn1
    isplitr; · iexact HrR5
    isplitl [HO]; · iexact HO
    isplitl [HtB1]; · iexact HtB1
    iexact Hr1
  iintro HO
  -- signal 2: the device 3 places on gets this accumulator's row for its column sums
  iapply (wp_sig m K c 2 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1 + tallyAt (barCell (sh 4 c)) () 1 + tallyAt (barCell (sh 3 c)) () 1) rfl (by decide) f0) $$ [HO HtB2 Hr2]
  · isplitr; · iexact HIbn2
    isplitr; · iexact HrBn2
    isplitr; · iexact HrR4
    isplitl [HO]; · iexact HO
    isplitl [HtB2]; · iexact HtB2
    iexact Hr2
  iintro HO
  -- signal 3: the device 4 places on gets this accumulator's row for its column sums
  iapply (wp_sig m K c 3 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1 + tallyAt (barCell (sh 4 c)) () 1) rfl (by decide) f0) $$ [HO HtB3 Hr3]
  · isplitr; · iexact HIbn3
    isplitr; · iexact HrBn3
    isplitr; · iexact HrR3
    isplitl [HO]; · iexact HO
    isplitl [HtB3]; · iexact HtB3
    iexact Hr3
  iintro HO
  -- signal 4: the device 5 places on gets this accumulator's row for its column sums
  iapply (wp_sig m K c 4 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1 + tallyAt (barCell (sh 5 c)) () 1) rfl (by decide) f0) $$ [HO HtB4 Hr4]
  · isplitr; · iexact HIbn4
    isplitr; · iexact HrBn4
    isplitr; · iexact HrR2
    isplitl [HO]; · iexact HO
    isplitl [HtB4]; · iexact HtB4
    iexact Hr4
  iintro HO
  simp only [k0_part2_eq_skeleton]; unfold k0_part2_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- signal 5: the device 6 places on gets this accumulator's row for its column sums
  iapply (wp_sig m K c 5 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow + tallyAt (barCell (sh 6 c)) () 1) rfl (by decide) f0) $$ [HO HtB5 Hr5]
  · isplitr; · iexact HIbn5
    isplitr; · iexact HrBn5
    isplitr; · iexact HrR1
    isplitl [HO]; · iexact HO
    isplitl [HtB5]; · iexact HtB5
    iexact Hr5
  iintro HO
  -- signal 6: the device 7 places on gets this accumulator's row for its column sums
  iapply (wp_sig m K c 6 (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow + tallyAt (recvCell (sh 0 c) 0) () Nrow) rfl (by decide) f0) $$ [HO HtB6 Hr6]
  · isplitr; · iexact HIbn6
    isplitr; · iexact HrBn6
    isplitr; · iexact HrR0
    isplitl [HO]; · iexact HO
    isplitl [HtB6]; · iexact HtB6
    iexact Hr6
  iintro HO
  -- the block's column sums into the own row
  iapply (wp_load 𝒱₀ (c : Thread nD τ) none Set.univ (m := xM) (Finset.subset_univ _)) $$ Hx; iintro Hx
  rw [in_whole_read]
  unfold rowPts
  iapply (wp_load 𝒱₀ (c : Thread nD τ) none Set.univ (m := accM) (load_fp c)) $$ Hown; iintro Hown
  iapply (wp_store 𝒱₀ (c : Thread nD τ) none Set.univ (m := accM) (r := r1 c) (Mk := Finset.univ) (store_fp c)) $$ Hown; iintro Hown
  ihave Hown := (Entails.of_eq (stored_row m c f0)) $$ Hown
  -- the wait for the seven barrier units: each peer's row for these column sums
  iapply (wp_barwait m K c (by decide)) $$ [HcB HO HatB]
  · isplitr; · iexact HIbar
    isplitr; · iexact Hlev
    isplitl [HcB]; · iexact HcB
    isplitl [HO]; · rw [OSr7_unfold]; iexact HO
    iexact HatB
  iintro ⟨HO, HatB, Hp0, Hp1, Hp2, Hp3, Hp4, Hp5, Hp6⟩
  rw [OSr7_unfold]
  unfold barPay
  icases Hp0 with ⟨⟨%fn0, Hd0⟩, #Hq0'⟩
  icases Hp1 with ⟨⟨%fn1, Hd1⟩, #Hq1'⟩
  icases Hp2 with ⟨⟨%fn2, Hd2⟩, #Hq2'⟩
  icases Hp3 with ⟨⟨%fn3, Hd3⟩, #Hq3'⟩
  icases Hp4 with ⟨⟨%fn4, Hd4⟩, #Hq4'⟩
  icases Hp5 with ⟨⟨%fn5, Hd5⟩, #Hq5'⟩
  icases Hp6 with ⟨⟨%fn6, Hd6⟩, #Hq6'⟩
  -- the own row's share in seven pieces, one a transfer
  ihave Hsh := ((row_shares c c (accV m)).1) $$ Hown
  rw [bigSep_fin7]
  icases Hsh with ⟨⟨Hq0, Hq1, Hq2, Hq3, Hq4, Hq5, Hq6⟩, Hrest⟩
  -- transfer 0
  iapply (wp_snd m K c 0 _ (dev8_eq c) send_sem_1' recv_sem_1' (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow + tallyAt (recvCell (sh 1 c) 1) () Nrow) rfl fn6) $$ [Hq0 Hd6 HO HtS0 HtRn0]
  · isplitr; · iexact HIs0
    isplitr; · iexact HIrn0
    isplitr; · iexact HrS0
    isplitr; · iexact HrRn0
    isplitl [Hq0]; · iexact Hq0
    isplitl [Hd6]; · iexact Hd6
    isplitl [HO]; · iexact HO
    isplitl [HtS0]; · iexact HtS0
    iexact HtRn0
  iintro ⟨HcS0, HO⟩
  simp only [k0_part3_eq_skeleton]; unfold k0_part3_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- transfer 1
  iapply (wp_snd m K c 1 _ (dev9_eq c) send_sem_2' recv_sem_2' (0 + tallyAt (recvCell (sh 6 c) 6) () Nrow + tallyAt (recvCell (sh 5 c) 5) () Nrow + tallyAt (recvCell (sh 4 c) 4) () Nrow + tallyAt (recvCell (sh 3 c) 3) () Nrow + tallyAt (recvCell (sh 2 c) 2) () Nrow) rfl fn5) $$ [Hq1 Hd5 HO HtS1 HtRn1]
  · isplitr; · iexact HIs1
    isplitr; · iexact HIrn1
    isplitr; · iexact HrS1
    isplitr; · iexact HrRn1
    isplitl [Hq1]; · iexact Hq1
    isplitl [Hd5]; · iexact Hd5
    isplitl [HO]; · iexact HO
    isplitl [HtS1]; · iexact HtS1
    iexact HtRn1
  iintro ⟨HcS1, HO⟩
  -- transfer 2
  iapply (wp_snd m K c 2 _ (dev10_eq c) send_sem_3' recv_sem_3' (0 + tallyAt (recvCell (sh 6 c) 6) () Nrow + tallyAt (recvCell (sh 5 c) 5) () Nrow + tallyAt (recvCell (sh 4 c) 4) () Nrow + tallyAt (recvCell (sh 3 c) 3) () Nrow) rfl fn4) $$ [Hq2 Hd4 HO HtS2 HtRn2]
  · isplitr; · iexact HIs2
    isplitr; · iexact HIrn2
    isplitr; · iexact HrS2
    isplitr; · iexact HrRn2
    isplitl [Hq2]; · iexact Hq2
    isplitl [Hd4]; · iexact Hd4
    isplitl [HO]; · iexact HO
    isplitl [HtS2]; · iexact HtS2
    iexact HtRn2
  iintro ⟨HcS2, HO⟩
  -- transfer 3
  iapply (wp_snd m K c 3 _ (dev11_eq c) send_sem_4' recv_sem_4' (0 + tallyAt (recvCell (sh 6 c) 6) () Nrow + tallyAt (recvCell (sh 5 c) 5) () Nrow + tallyAt (recvCell (sh 4 c) 4) () Nrow) rfl fn3) $$ [Hq3 Hd3 HO HtS3 HtRn3]
  · isplitr; · iexact HIs3
    isplitr; · iexact HIrn3
    isplitr; · iexact HrS3
    isplitr; · iexact HrRn3
    isplitl [Hq3]; · iexact Hq3
    isplitl [Hd3]; · iexact Hd3
    isplitl [HO]; · iexact HO
    isplitl [HtS3]; · iexact HtS3
    iexact HtRn3
  iintro ⟨HcS3, HO⟩
  simp only [k0_part4_eq_skeleton]; unfold k0_part4_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- transfer 4
  iapply (wp_snd m K c 4 _ (dev12_eq c) send_sem_5' recv_sem_5' (0 + tallyAt (recvCell (sh 6 c) 6) () Nrow + tallyAt (recvCell (sh 5 c) 5) () Nrow) rfl fn2) $$ [Hq4 Hd2 HO HtS4 HtRn4]
  · isplitr; · iexact HIs4
    isplitr; · iexact HIrn4
    isplitr; · iexact HrS4
    isplitr; · iexact HrRn4
    isplitl [Hq4]; · iexact Hq4
    isplitl [Hd2]; · iexact Hd2
    isplitl [HO]; · iexact HO
    isplitl [HtS4]; · iexact HtS4
    iexact HtRn4
  iintro ⟨HcS4, HO⟩
  -- transfer 5
  iapply (wp_snd m K c 5 _ (dev13_eq c) send_sem_6' recv_sem_6' (0 + tallyAt (recvCell (sh 6 c) 6) () Nrow) rfl fn1) $$ [Hq5 Hd1 HO HtS5 HtRn5]
  · isplitr; · iexact HIs5
    isplitr; · iexact HIrn5
    isplitr; · iexact HrS5
    isplitr; · iexact HrRn5
    isplitl [Hq5]; · iexact Hq5
    isplitl [Hd1]; · iexact Hd1
    isplitl [HO]; · iexact HO
    isplitl [HtS5]; · iexact HtS5
    iexact HtRn5
  iintro ⟨HcS5, HO⟩
  -- transfer 6
  iapply (wp_snd m K c 6 _ (dev14_eq c) send_sem_7' recv_sem_7' (0) rfl fn0) $$ [Hq6 Hd0 HO HtS6 HtRn6]
  · isplitr; · iexact HIs6
    isplitr; · iexact HIrn6
    isplitr; · iexact HrS6
    isplitr; · iexact HrRn6
    isplitl [Hq6]; · iexact Hq6
    isplitl [Hd0]; · iexact Hd0
    isplitl [HO]; · iexact HO
    isplitl [HtS6]; · iexact HtS6
    iexact HtRn6
  iintro ⟨HcS6, HO⟩
  simp only [k0_part5_eq_skeleton]; unfold k0_part5_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- receive wait 0
  iapply (wp_rcv m K c 0 recv_sem_1') $$ [HcR0 HO HatR0]
  · isplitr; · iexact HIr0
    isplitl [HcR0]; · iexact HcR0
    isplitl [HO]; · iexact HO
    iexact HatR0
  iintro ⟨HO, HatR0, Hrow0⟩
  -- receive wait 1
  iapply (wp_rcv m K c 1 recv_sem_2') $$ [HcR1 HO HatR1]
  · isplitr; · iexact HIr1
    isplitl [HcR1]; · iexact HcR1
    isplitl [HO]; · iexact HO
    iexact HatR1
  iintro ⟨HO, HatR1, Hrow1⟩
  -- receive wait 2
  iapply (wp_rcv m K c 2 recv_sem_3') $$ [HcR2 HO HatR2]
  · isplitr; · iexact HIr2
    isplitl [HcR2]; · iexact HcR2
    isplitl [HO]; · iexact HO
    iexact HatR2
  iintro ⟨HO, HatR2, Hrow2⟩
  simp only [k0_part6_eq_skeleton]; unfold k0_part6_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- receive wait 3
  iapply (wp_rcv m K c 3 recv_sem_4') $$ [HcR3 HO HatR3]
  · isplitr; · iexact HIr3
    isplitl [HcR3]; · iexact HcR3
    isplitl [HO]; · iexact HO
    iexact HatR3
  iintro ⟨HO, HatR3, Hrow3⟩
  -- receive wait 4
  iapply (wp_rcv m K c 4 recv_sem_5') $$ [HcR4 HO HatR4]
  · isplitr; · iexact HIr4
    isplitl [HcR4]; · iexact HcR4
    isplitl [HO]; · iexact HO
    iexact HatR4
  iintro ⟨HO, HatR4, Hrow4⟩
  -- receive wait 5
  iapply (wp_rcv m K c 5 recv_sem_6') $$ [HcR5 HO HatR5]
  · isplitr; · iexact HIr5
    isplitl [HcR5]; · iexact HcR5
    isplitl [HO]; · iexact HO
    iexact HatR5
  iintro ⟨HO, HatR5, Hrow5⟩
  -- receive wait 6
  iapply (wp_rcv m K c 6 recv_sem_7') $$ [HcR6 HO HatR6]
  · isplitr; · iexact HIr6
    isplitl [HcR6]; · iexact HcR6
    isplitl [HO]; · iexact HO
    iexact HatR6
  iintro ⟨HO, HatR6, Hrow6⟩
  simp only [k0_part7_eq_skeleton]; unfold k0_part7_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- send wait 0
  iapply (wp_swt m K c 0 send_sem_1') $$ [HcS0 HO HatS0]
  · isplitr; · iexact HIs0
    isplitl [HcS0]; · iexact HcS0
    isplitl [HO]; · iexact HO
    iexact HatS0
  iintro ⟨HO, HatS0, Hpc0⟩
  -- send wait 1
  iapply (wp_swt m K c 1 send_sem_2') $$ [HcS1 HO HatS1]
  · isplitr; · iexact HIs1
    isplitl [HcS1]; · iexact HcS1
    isplitl [HO]; · iexact HO
    iexact HatS1
  iintro ⟨HO, HatS1, Hpc1⟩
  -- send wait 2
  iapply (wp_swt m K c 2 send_sem_3') $$ [HcS2 HO HatS2]
  · isplitr; · iexact HIs2
    isplitl [HcS2]; · iexact HcS2
    isplitl [HO]; · iexact HO
    iexact HatS2
  iintro ⟨HO, HatS2, Hpc2⟩
  -- send wait 3
  iapply (wp_swt m K c 3 send_sem_4') $$ [HcS3 HO HatS3]
  · isplitr; · iexact HIs3
    isplitl [HcS3]; · iexact HcS3
    isplitl [HO]; · iexact HO
    iexact HatS3
  iintro ⟨HO, HatS3, Hpc3⟩
  -- send wait 4
  iapply (wp_swt m K c 4 send_sem_5') $$ [HcS4 HO HatS4]
  · isplitr; · iexact HIs4
    isplitl [HcS4]; · iexact HcS4
    isplitl [HO]; · iexact HO
    iexact HatS4
  iintro ⟨HO, HatS4, Hpc4⟩
  -- send wait 5
  iapply (wp_swt m K c 5 send_sem_6') $$ [HcS5 HO HatS5]
  · isplitr; · iexact HIs5
    isplitl [HcS5]; · iexact HcS5
    isplitl [HO]; · iexact HO
    iexact HatS5
  iintro ⟨HO, HatS5, Hpc5⟩
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, send_sem_1', recv_sem_1', send_sem_2', recv_sem_2', send_sem_3', recv_sem_3', send_sem_4', recv_sem_4', send_sem_5', recv_sem_5', send_sem_6', recv_sem_6', send_sem_7', recv_sem_7']
  -- send wait 6
  iapply (wp_swt m K c 6 send_sem_7') $$ [HcS6 HO HatS6]
  · isplitr; · iexact HIs6
    isplitl [HcS6]; · iexact HcS6
    isplitl [HO]; · iexact HO
    iexact HatS6
  iintro ⟨HO, HatS6, Hpc6⟩
  -- the fourteen cells close: their counters at zero are the device's again
  imod (close_send m K c 0) $$ [HatS0] with HzS0
  · isplitr; · iexact HIs0
    iexact HatS0
  imod (close_recv m K c 0) $$ [HatR0] with HzR0
  · isplitr; · iexact HIr0
    iexact HatR0
  imod (close_send m K c 1) $$ [HatS1] with HzS1
  · isplitr; · iexact HIs1
    iexact HatS1
  imod (close_recv m K c 1) $$ [HatR1] with HzR1
  · isplitr; · iexact HIr1
    iexact HatR1
  imod (close_send m K c 2) $$ [HatS2] with HzS2
  · isplitr; · iexact HIs2
    iexact HatS2
  imod (close_recv m K c 2) $$ [HatR2] with HzR2
  · isplitr; · iexact HIr2
    iexact HatR2
  imod (close_send m K c 3) $$ [HatS3] with HzS3
  · isplitr; · iexact HIs3
    iexact HatS3
  imod (close_recv m K c 3) $$ [HatR3] with HzR3
  · isplitr; · iexact HIr3
    iexact HatR3
  imod (close_send m K c 4) $$ [HatS4] with HzS4
  · isplitr; · iexact HIs4
    iexact HatS4
  imod (close_recv m K c 4) $$ [HatR4] with HzR4
  · isplitr; · iexact HIr4
    iexact HatR4
  imod (close_send m K c 5) $$ [HatS5] with HzS5
  · isplitr; · iexact HIs5
    iexact HatS5
  imod (close_recv m K c 5) $$ [HatR5] with HzR5
  · isplitr; · iexact HIr5
    iexact HatR5
  imod (close_send m K c 6) $$ [HatS6] with HzS6
  · isplitr; · iexact HIs6
    iexact HatS6
  imod (close_recv m K c 6) $$ [HatR6] with HzR6
  · isplitr; · iexact HIr6
    iexact HatR6
  -- the own row's seven pieces and the rest are its full share again; the eight rows are the accumulator
  ihave Hown := ((row_shares c c (accV m)).2) $$ [Hpc0 Hpc1 Hpc2 Hpc3 Hpc4 Hpc5 Hpc6 Hrest]
  · rw [bigSep_fin7]
    isplitr [Hrest]
    · isplitl [Hpc0]; · iexact Hpc0
      isplitl [Hpc1]; · iexact Hpc1
      isplitl [Hpc2]; · iexact Hpc2
      isplitl [Hpc3]; · iexact Hpc3
      isplitl [Hpc4]; · iexact Hpc4
      isplitl [Hpc5]; · iexact Hpc5
      iexact Hpc6
    · iexact Hrest
  ihave Hacc := ((acc_rows c (accV m)).2) $$ [Hown Hrow0 Hrow1 Hrow2 Hrow3 Hrow4 Hrow5 Hrow6]
  · rw [bigSep_fin7]
    isplitl [Hown]; · iexact Hown
    isplitl [Hrow6]; · iexact Hrow6
    isplitl [Hrow5]; · iexact Hrow5
    isplitl [Hrow4]; · iexact Hrow4
    isplitl [Hrow3]; · iexact Hrow3
    isplitl [Hrow2]; · iexact Hrow2
    isplitl [Hrow1]; · iexact Hrow1
    iexact Hrow0
  -- the eight rows reduced, scaled, stored
  unfold accPts
  iapply (wp_load 𝒱₀ (c : Thread nD τ) none Set.univ (m := accM) (Finset.subset_univ _)) $$ Hacc; iintro Hacc
  rw [acc_whole_read]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [out_whole_write, wp_ret]; imodintro
  iapply Hk
  unfold bodyPost Φ₁ accPts Dat.owesAt Pipeline.owesWithin
  rw [show (dats m 0 c).owed t₀.succ = 0 from rfl]
  isplitl [Hacc Hi2 Hi10 HzS0 HzS1 HzS2 HzS3 HzS4 HzS5 HzS6 HzR0 HzR1 HzR2 HzR3 HzR4 HzR5 HzR6]
  · isplitl [Hacc]; · iexact Hacc
    rw [ownSems0_eq]
    isplitl [Hi2]; · iexact Hi2
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [Hi10]; · iexact Hi10
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6

  isplitl [HO]
  · iexists (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))))
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The pipeline's body obligation on device `c`: the body from what the launch and the staging hand it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hcr, Hlev, Hidle⟩, Hacc⟩, Ho, Hx, Hout⟩
  iapply (sound_body m K c fun _ => bodyPost m c)
  unfold bodyPre
  isplitr []
  · isplitl [Hg Hcr Hlev Hidle Hacc]
    · isplitl [Hg]; · iexact Hg
      isplitl [Hcr]; · iexact Hcr
      isplitl [Hlev]; · iexact Hlev
      isplitl [Hidle]; · iexact Hidle
      iexact Hacc
    isplitl [Ho]; · iexact Ho
    isplitl [Hx] <;> iassumption
  · iintro H; iexact H

/-- The run on the eight devices: every weakly fair execution terminates, every device's result array holds the scaled
    sum of the eight rows of column sums, and the argument arrays are unchanged. -/
theorem run_value : θ_run defs (onTc (τ := τ) (main (F := F))) ⟨m, fun _ => 0, ρ⟩ (fun r => ∀ c : Dev nD,
    r.2.mem ((c.tc : Thread nD τ).loc main_v1) = outV m
    ∧ r.2.mem ((c.tc : Thread nD τ).loc main_arg0) = m ((c.tc : Thread nD τ).loc main_arg0)) :=
  (θ_run defs _ _).mono (fun r h c => ⟨(h c (1 : Fin 2)).trans (finalA_out m c), (h c (0 : Fin 2)).trans (finalA_x m c)⟩)
    (run_main m ρ (body_obligation m))

/-- info: 'Cert.KernelProof.run_value' depends on axioms: [propext, Classical.choice, Quot.sound] -/
#guard_msgs in #print axioms run_value

end Cert.KernelProof

end
-- ==== Proof.ValueSpec.lean ====
/-
  The mean over the 8192 rows of an 8192 × 512 array of extended reals, column by column, and the same mean
  taken in two stages: the array is cut along its rows into 8 consecutive blocks of 1024 rows, each block's
  columns are summed, the 8 partial sums of a column are summed, and the total is multiplied by 1/8192.
  The two agree on every extended real: regrouping a finite sum uses only that addition is commutative and
  associative, which holds with the infinities too, and dividing by the real 8192 is multiplying by 1/8192
  on every extended real. No program is imported here: the statements are over literal index types.
-/
import Idealize.ShloMosaic.PureOps.Ideal
import Idealize.ShloMosaic.Lib.ValueIdx
import Idealize.ShloMosaic.Lib.Layout
import Mathlib.Logic.Equiv.Fin.Basic
import Mathlib.Algebra.BigOperators.Group.Finset.Basic

noncomputable section

namespace Cert.MeanValue

open Idealize.ShloMosaic Idealize.ShloMosaic.ValueIdx
open scoped BigOperators

/-! ## The two float literals -/

/-- The pattern `0x46000000` (sign 0, exponent field 140, fraction 0) denotes 2^13 = 8192. -/
theorem ofBits_8192 : Ideal.ofBits .f32 0x46000000#32 = ((8192 : ℝ) : EReal) := by
  simp [Ideal.ofBits, Ideal.ieee, -EReal.coe_mul]; norm_num

/-- The pattern `0x39000000` (sign 0, exponent field 114, fraction 0) denotes 2^(-13) = 1/8192, exactly. -/
theorem ofBits_inv_8192 : Ideal.ofBits .f32 0x39000000#32 = ((1 / 8192 : ℝ) : EReal) := by
  simp [Ideal.ofBits, Ideal.ieee, -EReal.coe_mul]; norm_num

/-! ## Regrouping a sum over consecutive blocks -/

/-- Position `i` of block `r`, blocks of length `b`, is below `a * b` when there are `a` blocks. -/
theorem blk_lt {a b : ℕ} (r : Fin a) (i : Fin b) : r.val * b + i.val < a * b :=
  calc r.val * b + i.val < r.val * b + b := Nat.add_lt_add_left i.isLt _
    _ = (r.val + 1) * b := (Nat.succ_mul _ _).symm
    _ ≤ a * b := Nat.mul_le_mul_right _ r.isLt

/-- A sum over `a * b` consecutive positions is the sum, over the `a` consecutive blocks of length `b`, of each
    block's sum: in any commutative monoid (so on the extended reals, infinities included). -/
theorem sum_blocks {M : Type*} [AddCommMonoid M] (a b : ℕ) (f : Fin (a * b) → M) :
    ∑ k, f k = ∑ r : Fin a, ∑ i : Fin b, f ⟨r.val * b + i.val, blk_lt r i⟩ := by
  rw [← Equiv.sum_comp finProdFinEquiv f, Fintype.sum_prod_type]
  refine Finset.sum_congr rfl fun r _ => Finset.sum_congr rfl fun i _ => congrArg f (Fin.ext ?_)
  show i.val + b * r.val = r.val * b + i.val
  rw [Nat.mul_comm, Nat.add_comm]

/-! ## A column's sum, whole and in row blocks; the division by 8192 -/

/-- Column `j`'s sum over all 8192 rows. -/
def colSum (X : (⟨2, ![8192, 512]⟩ : Shape).Idx → EReal) (j : Fin 512) : EReal :=
  ∑ k : Fin 8192, X (ix2 k j)

/-- Row `i`, column `j` of row block `r` (1024 rows a block) is row `1024 r + i`, column `j` of the whole array. -/
theorem block_idx (h : Layout.Tiles ⟨2, ![1024, 512]⟩ ⟨2, ![8192, 512]⟩ 0 8) (r : Fin 8) (i : Fin 1024) (j : Fin 512) :
    h.idx r (ix2 i j) = ix2 (⟨r.val * 1024 + i.val, blk_lt r i⟩ : Fin 8192) j := by
  funext b
  match b with
  | ⟨0, _⟩ => exact Fin.ext rfl
  | ⟨1, _⟩ => exact Fin.ext rfl

/-- The sums of column `j` over the 8 row blocks add up to the column's sum over the whole array. -/
theorem colSum_blocks (X : (⟨2, ![8192, 512]⟩ : Shape).Idx → EReal)
    (h : Layout.Tiles ⟨2, ![1024, 512]⟩ ⟨2, ![8192, 512]⟩ 0 8) (j : Fin 512) :
    ∑ r : Fin 8, ∑ i : Fin 1024, Layout.block ⟨2, ![1024, 512]⟩ ⟨2, ![8192, 512]⟩ 0 8 r X h (ix2 i j) = colSum X j := by
  unfold colSum
  rw [sum_blocks 8 1024 (fun k : Fin 8192 => X (ix2 k j))]
  refine Finset.sum_congr rfl fun r _ => Finset.sum_congr rfl fun i _ => ?_
  rw [Layout.block_apply, block_idx]

/-- Dividing by `8192.0` is multiplying by the pattern of `1/8192`, on every extended real. -/
theorem div_8192 (s : EReal) :
    Ideal.div s (Ideal.ofBits .f32 0x46000000#32) = s * Ideal.ofBits .f32 0x39000000#32 := by
  rw [ofBits_8192, ofBits_inv_8192, Ideal.div_coe (by norm_num : (8192 : ℝ) ≠ 0)]

end Cert.MeanValue

end
-- ==== Proof.ValueBridge.lean ====
/-
  The distributed column mean against the whole-array column mean, at the ideal instance.
  Eight devices each hold 1024 consecutive rows of an 8192 × 512 array. Each sums the columns of its rows; the
  eight rows of partial sums are gathered into an 8 × 512 array, whose columns are summed and multiplied by the
  literal 2^(-13). The reference sums the columns of the whole array from the initial value 0 and divides by the
  literal 8192. Read at column `q`, both are the column's sum over all 8192 rows times 1/8192
  (Proof/ValueSpec.lean: a sum regrouped by consecutive blocks, and division by 8192 as the product with 1/8192,
  both valid on every extended real).
-/
import proofs.«900940_g7700000000000941_dist_mean_ax0_shard0_i_m1024_n512_v7x_i8_bf16_1_alg».proof.Proof.Gen.ReferenceIdeal.Run
import proofs.«900940_g7700000000000941_dist_mean_ax0_shard0_i_m1024_n512_v7x_i8_bf16_1_alg».proof.Proof.Gen.ReferenceIdeal.Read
import proofs.«900940_g7700000000000941_dist_mean_ax0_shard0_i_m1024_n512_v7x_i8_bf16_1_alg».proof.Proof.Gen.KernelIdeal.Skeleton
import proofs.«900940_g7700000000000941_dist_mean_ax0_shard0_i_m1024_n512_v7x_i8_bf16_1_alg».proof.Proof.ValueSpec
import Idealize.ShloMosaic.Lib.Pipeline.Value
import Idealize.ShloMosaic.Lib.Layout
import Idealize.ShloMosaic.PureOps.Ideal.Laws

noncomputable section

namespace Cert.MeanValue

open Idealize.ShloMosaic Idealize.ShloMosaic.ValueIdx
open scoped BigOperators

/-! ## Two vector operations read at an index -/

/-- A vector of 512 lanes viewed as one row of a 1 × 512 array: the row's column `q` is lane `q`. -/
theorem cast_row {α : Type} (v : (⟨1, ![512]⟩ : Shape).Idx → α)
    (h : (⟨1, ![512]⟩ : Shape).ShapeCasts ⟨2, ![1, 512]⟩) (q : Fin 512) :
    shapeCast ⟨2, ![1, 512]⟩ v h (ix2 (0 : Fin 1) q) = v (ix1 q) := by
  refine (shapeCast_addUnit_apply ![512] v h (ix2 (0 : Fin 1) q)).trans (congrArg v ?_)
  funext a
  match a with
  | ⟨0, _⟩ => rfl

/-- The sum over the rows of an `R × 512` array of extended reals, at lane `q`: the sum of column `q`. -/
theorem reduce_rows {R : ℕ} (src : FVec Ideal ⟨2, ![R, 512]⟩ .f32)
    (h : (⟨2, ![R, 512]⟩ : Shape).Reduces [0] ⟨1, ![512]⟩) (hφ : FKind.Formats .f32)
    (hacc : (0x00000000#32 : BitVec 32) = FKind.add.neutral .f32 hφ) (q : Fin 512) :
    multiReduction .add [0] ⟨1, ![512]⟩ src 0x00000000#32 h hφ hacc (ix1 q) = ∑ k : Fin R, src (ix2 k q) := by
  refine (Ideal.multiReduction_add_single src _ h hφ hacc (ix1 q)).trans ?_
  refine Finset.sum_congr rfl fun k _ => congrArg src ?_
  funext a
  match a with
  | ⟨0, _⟩ => exact Fin.ext rfl
  | ⟨1, _⟩ => exact Fin.ext rfl

/-! ## The kernel's two payloads at a column -/

section Kernel
variable [Cert.KernelIdeal.Facts]
open Cert.KernelIdeal Cert.KernelIdeal.Facts₀

/-- A device's partial result, at column `q`: the sum of column `q` over its 1024 rows. -/
theorem partial_apply (x : Vec Ideal S1024x512 .f32) (q : Fin 512) :
    Gen.k0_pay2 (F := Ideal) x (ix2 (0 : Fin 1) q) = ∑ i : Fin 1024, x (ix2 i q) := by
  simp only [Gen.k0_pay2, shapeCast_self]
  refine (cast_row _ _ q).trans ?_
  exact reduce_rows _ _ _ _ q

/-- The final result over the gathered partial sums, at column `q`: the sum of column `q` of the 8 gathered
    rows, times the literal 2^(-13). -/
theorem final_apply (Acc : Vec Ideal S8x512 .f32) (q : Fin 512) :
    Gen.k0_pay1 (F := Ideal) Acc (ix2 (0 : Fin 1) q)
      = (∑ r : Fin 8, Acc (ix2 r q)) * Ideal.ofBits .f32 0x39000000#32 := by
  simp only [Gen.k0_pay1]
  rw [mulf_apply, broadcast_apply, Ideal.ofBits_def]
  refine congrArg (· * Ideal.ofBits .f32 0x39000000#32) ?_
  refine (cast_row _ _ q).trans ?_
  exact reduce_rows _ _ _ _ q

end Kernel

/-! ## The reference at a column -/

section Reference
variable [Cert.ReferenceIdeal.Facts]
open Cert.ReferenceIdeal Cert.ReferenceIdeal.Facts₀

/-- The reference's result, at column `q`: the column's sum over all 8192 rows, times the literal 2^(-13). -/
theorem ref_apply (X : FVec Ideal S8192x512 .f32) (q : Fin 512) :
    Read.val_main_v3 (F := Ideal) X (ix2 (0 : Fin 1) q) = colSum X q * Ideal.ofBits .f32 0x39000000#32 := by
  rw [Read.val_main_v3_apply, Read.val_main_v1_apply, Read.val_main_v0_apply, Read.val_main_v2_apply,
    Read.val_main_cst_0_apply, Read.val_main_cst_apply]
  simp only [Ideal.hostDivf_def, Ideal.ofBits_def, Ideal.ofBits_zero_f32, zero_add]
  rw [div_8192]
  refine congrArg (· * Ideal.ofBits .f32 0x39000000#32) ?_
  unfold colSum
  refine Finset.sum_congr rfl fun k _ => congrArg X ?_
  funext a
  match a with
  | ⟨0, _⟩ => rfl
  | ⟨1, _⟩ => rfl

end Reference

/-! ## The two programs' results are one array -/

/-- From the whole array `X`, device `d` holding its block of 1024 rows, and `Acc` holding in row `r` device
    `r`'s partial result: the kernel's final payload over `Acc` is the term the reference's run ends with. -/
theorem value_eq [Cert.KernelIdeal.Facts] [Cert.ReferenceIdeal.Facts]
    (X : FVec Ideal Cert.ReferenceIdeal.S8192x512 .f32)
    (x : Dev 8 → Vec Ideal Cert.KernelIdeal.S1024x512 .f32)
    (hx : ∀ d, x d = Layout.block ⟨2, ![1024, 512]⟩ ⟨2, ![8192, 512]⟩ 0 8 d X)
    (Acc : Vec Ideal Cert.KernelIdeal.S8x512 .f32)
    (hAcc : ∀ (r : Fin 8) (j : Fin 512),
      Acc (ix2 r j) = Cert.KernelIdeal.Gen.k0_pay2 (F := Ideal) (x r) (ix2 (0 : Fin 1) j)) :
    Cert.KernelIdeal.Gen.k0_pay1 (F := Ideal) Acc
      = Host.divf (F := Ideal)
          (broadcastInDim Cert.ReferenceIdeal.S1x512 ![1] Cert.ReferenceIdeal.Facts₀.bcast_S512_S1x512_1
            (Host.reduceAdd (F := Ideal) X (constant (F := Ideal) Cert.ReferenceIdeal.S_ .f32 0x00000000#32)
              Cert.ReferenceIdeal.Facts₀.reducesTo_S8192x512_S512_d0 Cert.ReferenceIdeal.Facts₀.h_S_))
          (broadcastInDim Cert.ReferenceIdeal.S1x512 ![] Cert.ReferenceIdeal.Facts₀.bcast_S_S1x512
            (constant (F := Ideal) Cert.ReferenceIdeal.S_ .f32 0x46000000#32)) := by
  refine Eq.trans ?_ (Cert.ReferenceIdeal.Read.val_main_v3_eq (F := Ideal) X).symm
  funext j
  obtain ⟨p, q, rfl⟩ : ∃ (p : Fin 1) (q : Fin 512), j = ix2 p q := ⟨j 0, j 1, eq_ix2 j⟩
  obtain rfl : p = 0 := Subsingleton.elim _ _
  rw [ref_apply, final_apply]
  refine congrArg (· * Ideal.ofBits .f32 0x39000000#32) ?_
  rw [← colSum_blocks X (by decide) q]
  refine Finset.sum_congr rfl fun r _ => ?_
  rw [hAcc r q, partial_apply, hx r]

end Cert.MeanValue

end
-- ==== Proof.lean ====
/-
  The mean over the rows of an array cut in eight row blocks, a block a device, against the mean over the whole array on
  one device. Every device sums its block's columns into its row of an 8 × 512 accumulator, the eight devices exchange
  their rows (an entry handshake on the barrier semaphore, then seven transfers a device), and every device reduces the
  eight rows and scales by 1/8192. The three frames are the runs with their values dropped; the idealization rewrote
  nothing; over the extended reals the sum of the eight rows of column sums is the column sum of the whole array, in
  another grouping, and the product with 1/8192 is the quotient by 8192.
-/
import proofs.«900940_g7700000000000941_dist_mean_ax0_shard0_i_m1024_n512_v7x_i8_bf16_1_alg».proof.Defs
import proofs.«900940_g7700000000000941_dist_mean_ax0_shard0_i_m1024_n512_v7x_i8_bf16_1_alg».proof.Proof.Body
import proofs.«900940_g7700000000000941_dist_mean_ax0_shard0_i_m1024_n512_v7x_i8_bf16_1_alg».proof.Proof.Bits.Body
import proofs.«900940_g7700000000000941_dist_mean_ax0_shard0_i_m1024_n512_v7x_i8_bf16_1_alg».proof.Proof.ValueBridge
import proofs.«900940_g7700000000000941_dist_mean_ax0_shard0_i_m1024_n512_v7x_i8_bf16_1_alg».proof.Proof.Gen.ReferenceIdeal
import proofs.«900940_g7700000000000941_dist_mean_ax0_shard0_i_m1024_n512_v7x_i8_bf16_1_alg».proof.Proof.Gen.ReferenceIdeal.Run
import proofs.«900940_g7700000000000941_dist_mean_ax0_shard0_i_m1024_n512_v7x_i8_bf16_1_alg».proof.Proof.Gen.Pre_finite_inputs_Kernel
import proofs.«900940_g7700000000000941_dist_mean_ax0_shard0_i_m1024_n512_v7x_i8_bf16_1_alg».proof.Proof.Gen.Pre_finite_inputs_ReferenceIdeal
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2) (Cert.KernelProof.run_value (F := Bits) m ρ)

theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2) (Cert.KernelIdealProof.run_value (F := Ideal) m ρ)

theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono (fun _ h c => (h c).2) (Cert.ReferenceIdeal.Value.run (F := Ideal) m ρ)

/-- A device's staged block is its argument array: the window is the whole array. -/
theorem xstg_eq (m : (ℓ : Loc Cert.KernelIdeal.nD Cert.KernelIdeal.τ Cert.KernelIdeal.sig) → Buf (Elt Ideal) ℓ) (d : Dev Cert.KernelIdeal.nD) :
    Cert.KernelIdealProof.xstg m d = m ((d.tc : Thread Cert.KernelIdeal.nD Cert.KernelIdeal.τ).loc Cert.KernelIdeal.main_arg0) := by
  unfold Cert.KernelIdealProof.xstg
  exact Memref.read_access_unit_zero (Elt Ideal) Cert.KernelIdeal.main_arg0 (by funext a; fin_cases a <;> rfl) _ _

/-- Every device ends with the reference's result: the eight rows of column sums of the eight blocks add up to the
    column sums of the whole array, and scaling by 1/8192 is dividing by 8192. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨_, (θ_run (Cert.KernelIdeal.defs (F := Ideal)) _ _).mono (fun _ h c => ⟨(h c).1.trans ?_, (h c).2⟩) (Cert.KernelIdealProof.run_value (F := Ideal) m ρ),
    (θ_run (Cert.ReferenceIdeal.defs (F := Ideal)) _ _).mono (fun _ h => h 0) (Cert.ReferenceIdeal.Value.run (F := Ideal) m' ρ')⟩
  exact Cert.MeanValue.value_eq _ (fun d => Cert.KernelIdealProof.xstg m d) (fun d => (xstg_eq m d).trans (hagree d)) (Cert.KernelIdealProof.accV m) (fun r j => rfl)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
